-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S2x1048576 : Shape := ⟨2, ![2, 1048576]⟩
abbrev S1048576x32 : Shape := ⟨2, ![1048576, 32]⟩
abbrev S65536 : Shape := ⟨1, ![65536]⟩
abbrev S32x128 : Shape := ⟨2, ![32, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S_ : Shape := ⟨0, ![]⟩
abbrev S64 : Shape := ⟨1, ![64]⟩
abbrev S65536x1 : Shape := ⟨2, ![65536, 1]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S1048576x32 : S_.BroadcastsInDim S1048576x32 (![] : Fin 0 → Fin S1048576x32.rank)
  reducesTo_S1048576x32_S_d0_1 : S1048576x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S65536 : S_.BroadcastsInDim S65536 (![] : Fin 0 → Fin S65536.rank)
  bcast_S_S64 : S_.BroadcastsInDim S64 (![] : Fin 0 → Fin S64.rank)
  bcast_S65536_S65536x1_0 : S65536.BroadcastsInDim S65536x1 (![0] : Fin 1 → Fin S65536x1.rank)
  reducesTo_S64_S_d0 : S64.ReducesTo [0] S_
  scatter_S64_S65536x1_S65536_n_0_0_1_wf : ScatterDims.WF S64 S65536x1 S65536 [] [0] [0] 1

variable [Facts]

def scatter_S64_S65536x1_S65536_n_0_0_1 : ScatterDims S64 S65536x1 S65536 where
  updateWindowDims := []
  insertedWindowDims := [0]
  scatterDimsToOperandDims := [0]
  indexVectorDim := 1
  wf := scatter_S64_S65536x1_S65536_n_0_0_1_wf
def fn_part10 {F : FTy → Type} [FloatOps F] (main_arg3 : IVec S65536 32) (main_arg31 : FVec F S128 .f32) (main_v166 : IVec S_ 1) (main_v169 : IVec S_ 1) : IVec S_ 1 :=
  let main_v170 : IVec S_ 1 := andi main_v166 main_v169
  let main_cst_68 : FVec F S_ .f32 := constant S_ .f32 0x00000000#32
  let main_v171 : FVec F S128 .f32 := broadcastInDim S128 ![] bcast_S_S128 main_cst_68
  let main_v172 : IVec S128 1 := cmpf .oge main_arg31 main_v171
  let main_c_69 : IVec S_ 1 := constantI S_ 1 1#1
  let main_v173 : IVec S_ 1 := (fun x v => Host.reduce IntOp.andi x v reducesTo_S128_S_d0 h_S_) main_v172 main_c_69
  let main_v174 : IVec S_ 1 := andi main_v170 main_v173
  let main_cst_70 : FVec F S_ .f32 := constant S_ .f32 0x3F800000#32
  let main_v175 : FVec F S65536 .f32 := broadcastInDim S65536 ![] bcast_S_S65536 main_cst_70
  let main_cst_71 : FVec F S_ .f32 := constant S_ .f32 0x00000000#32
  let main_v176 : FVec F S64 .f32 := broadcastInDim S64 ![] bcast_S_S64 main_cst_71
  let main_v177 : IVec S65536x1 32 := broadcastInDim S65536x1 ![0] bcast_S65536_S65536x1_0 main_arg3
  let main_v178 : FVec F S64 .f32 := (fun x i u => Host.scatterAdd scatter_S64_S65536x1_S65536_n_0_0_1 x i u) main_v176 main_v177 main_v175
  let main_cst_72 : FVec F S_ .f32 := constant S_ .f32 0x00000000#32
  let main_v179 : FVec F S64 .f32 := broadcastInDim S64 ![] bcast_S_S64 main_cst_72
  let main_v180 : IVec S64 1 := cmpf .ogt main_v178 main_v179
  let main_c_73 : IVec S_ 1 := constantI S_ 1 1#1
  let main_v181 : IVec S_ 1 := (fun x v => Host.reduce IntOp.andi x v reducesTo_S64_S_d0 h_S_) main_v180 main_c_73
  let main_v182 : IVec S_ 1 := andi main_v174 main_v181
  main_v182

def fn_part9 {F : FTy → Type} [FloatOps F] (main_arg3 : IVec S65536 32) (main_arg11 : FVec F S128 .f32) (main_arg19 : FVec F S128 .f32) (main_arg25 : FVec F S128 .f32) (main_arg31 : FVec F S128 .f32) (main_arg33 : FVec F S32 .f32) (main_v153 : IVec S_ 1) : IVec S_ 1 :=
  let main_v154 : FVec F S32 .f32 := Host.absf main_arg33
  let main_cst_60 : FVec F S_ .f32 := constant S_ .f32 0x7F800000#32
  let main_v155 : FVec F S32 .f32 := broadcastInDim S32 ![] bcast_S_S32 main_cst_60
  let main_v156 : IVec S32 1 := cmpf .olt main_v154 main_v155
  let main_c_61 : IVec S_ 1 := constantI S_ 1 1#1
  let main_v157 : IVec S_ 1 := (fun x v => Host.reduce IntOp.andi x v reducesTo_S32_S_d0 h_S_) main_v156 main_c_61
  let main_v158 : IVec S_ 1 := andi main_v153 main_v157
  let main_cst_62 : FVec F S_ .f32 := constant S_ .f32 0x00000000#32
  let main_v159 : FVec F S128 .f32 := broadcastInDim S128 ![] bcast_S_S128 main_cst_62
  let main_v160 : IVec S128 1 := cmpf .oge main_arg11 main_v159
  let main_c_63 : IVec S_ 1 := constantI S_ 1 1#1
  let main_v161 : IVec S_ 1 := (fun x v => Host.reduce IntOp.andi x v reducesTo_S128_S_d0 h_S_) main_v160 main_c_63
  let main_v162 : IVec S_ 1 := andi main_v158 main_v161
  let main_cst_64 : FVec F S_ .f32 := constant S_ .f32 0x00000000#32
  let main_v163 : FVec F S128 .f32 := broadcastInDim S128 ![] bcast_S_S128 main_cst_64
  let main_v164 : IVec S128 1 := cmpf .oge main_arg19 main_v163
  let main_c_65 : IVec S_ 1 := constantI S_ 1 1#1
  let main_v165 : IVec S_ 1 := (fun x v => Host.reduce IntOp.andi x v reducesTo_S128_S_d0 h_S_) main_v164 main_c_65
  let main_v166 : IVec S_ 1 := andi main_v162 main_v165
  let main_cst_66 : FVec F S_ .f32 := constant S_ .f32 0x00000000#32
  let main_v167 : FVec F S128 .f32 := broadcastInDim S128 ![] bcast_S_S128 main_cst_66
  let main_v168 : IVec S128 1 := cmpf .oge main_arg25 main_v167
  let main_c_67 : IVec S_ 1 := constantI S_ 1 1#1
  let main_v169 : IVec S_ 1 := (fun x v => Host.reduce IntOp.andi x v reducesTo_S128_S_d0 h_S_) main_v168 main_c_67
  fn_part10 (F := F) main_arg3 main_arg31 main_v166 main_v169

def fn_part8 {F : FTy → Type} [FloatOps F] (main_arg3 : IVec S65536 32) (main_arg11 : FVec F S128 .f32) (main_arg19 : FVec F S128 .f32) (main_arg25 : FVec F S128 .f32) (main_arg30 : FVec F S128 .f32) (main_arg31 : FVec F S128 .f32) (main_arg32 : FVec F S128x32 .f32) (main_arg33 : FVec F S32 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg30
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128 .f32 := Host.absf main_arg31
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128x32 .f32 := Host.absf main_arg32
  let main_cst_58 : FVec F S_ .f32 := constant S_ .f32 0x7F800000#32
  let main_v150 : FVec F S128x32 .f32 := broadcastInDim S128x32 ![] bcast_S_S128x32 main_cst_58
  let main_v151 : IVec S128x32 1 := cmpf .olt main_v149 main_v150
  let main_c_59 : IVec S_ 1 := constantI S_ 1 1#1
  let main_v152 : IVec S_ 1 := (fun x v => Host.reduce IntOp.andi x v reducesTo_S128x32_S_d0_1 h_S_) main_v151 main_c_59
  let main_v153 : IVec S_ 1 := andi main_v148 main_v152
  fn_part9 (F := F) main_arg3 main_arg11 main_arg19 main_arg25 main_arg31 main_arg33 main_v153

def fn_part7 {F : FTy → Type} [FloatOps F] (main_arg3 : IVec S65536 32) (main_arg11 : FVec F S128 .f32) (main_arg19 : FVec F S128 .f32) (main_arg25 : FVec F S128 .f32) (main_arg27 : FVec F S128 .f32) (main_arg28 : FVec F S128 .f32) (main_arg29 : FVec F S128 .f32) (main_arg30 : FVec F S128 .f32) (main_arg31 : FVec F S128 .f32) (main_arg32 : FVec F S128x32 .f32) (main_arg33 : FVec F S32 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg3 main_arg11 main_arg19 main_arg25 main_arg30 main_arg31 main_arg32 main_arg33 main_v133 main_v136

def fn_part6 {F : FTy → Type} [FloatOps F] (main_arg3 : IVec S65536 32) (main_arg11 : FVec F S128 .f32) (main_arg19 : FVec F S128 .f32) (main_arg23 : FVec F S128 .f32) (main_arg24 : FVec F S128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_arg31 : FVec F S128 .f32) (main_arg32 : FVec F S128x32 .f32) (main_arg33 : FVec F S32 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg26
  fn_part7 (F := F) main_arg3 main_arg11 main_arg19 main_arg25 main_arg27 main_arg28 main_arg29 main_arg30 main_arg31 main_arg32 main_arg33 main_v118 main_v119

def fn_part5 {F : FTy → Type} [FloatOps F] (main_arg3 : IVec S65536 32) (main_arg11 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_arg31 : FVec F S128 .f32) (main_arg32 : FVec F S128x32 .f32) (main_arg33 : FVec F S32 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg3 main_arg11 main_arg19 main_arg23 main_arg24 main_arg25 main_arg26 main_arg27 main_arg28 main_arg29 main_arg30 main_arg31 main_arg32 main_arg33 main_v98 main_v101 main_c_39

def fn_part4 {F : FTy → Type} [FloatOps F] (main_arg3 : IVec S65536 32) (main_arg11 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_arg31 : FVec F S128 .f32) (main_arg32 : FVec F S128x32 .f32) (main_arg33 : FVec F S32 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg3 main_arg11 main_arg19 main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg3 : IVec S65536 32) (main_arg11 : FVec F S128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_arg31 : FVec F S128 .f32) (main_arg32 : FVec F S128x32 .f32) (main_arg33 : FVec F S32 .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg11 main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg3 : IVec S65536 32) (main_arg9 : FVec F S128 .f32) (main_arg10 : FVec F S128 .f32) (main_arg11 : FVec F S128 .f32) (main_arg12 : FVec F S32x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_arg31 : FVec F S128 .f32) (main_arg32 : FVec F S128x32 .f32) (main_arg33 : FVec F S32 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S32x128 .f32 := Host.absf main_arg12
  let main_cst_18 : FVec F S_ .f32 := constant S_ .f32 0x7F800000#32
  let main_v50 : FVec F S32x128 .f32 := broadcastInDim S32x128 ![] bcast_S_S32x128 main_cst_18
  fn_part3 (F := F) main_arg3 main_arg11 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg3 : IVec S65536 32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S32x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_arg31 : FVec F S128 .f32) (main_arg32 : FVec F S128x32 .f32) (main_arg33 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S65536x128 .f32) (main_arg1 : IVec S2x1048576 32) (main_arg2 : FVec F S1048576x32 .f32) (main_arg3 : IVec S65536 32) (main_arg4 : FVec F S32x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S32x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_arg31 : FVec F S128 .f32) (main_arg32 : FVec F S128x32 .f32) (main_arg33 : FVec F S32 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S1048576x32 .f32 := Host.absf main_arg2
  let main_cst_0 : FVec F S_ .f32 := constant S_ .f32 0x7F800000#32
  let main_v5 : FVec F S1048576x32 .f32 := broadcastInDim S1048576x32 ![] bcast_S_S1048576x32 main_cst_0
  let main_v6 : IVec S1048576x32 1 := cmpf .olt main_v4 main_v5
  let main_c_1 : IVec S_ 1 := constantI S_ 1 1#1
  let main_v7 : IVec S_ 1 := (fun x v => Host.reduce IntOp.andi x v reducesTo_S1048576x32_S_d0_1 h_S_) main_v6 main_c_1
  let main_v8 : IVec S_ 1 := andi main_v3 main_v7
  let main_v9 : FVec F S32x128 .f32 := Host.absf main_arg4
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S65536x128 : Shape := ⟨2, ![65536, 128]⟩
abbrev S2x1048576 : Shape := ⟨2, ![2, 1048576]⟩
abbrev S1048576x32 : Shape := ⟨2, ![1048576, 32]⟩
abbrev S65536 : Shape := ⟨1, ![65536]⟩
abbrev S32x128 : Shape := ⟨2, ![32, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S1x1048576 : Shape := ⟨2, ![1, 1048576]⟩
abbrev S1048576 : Shape := ⟨1, ![1048576]⟩
abbrev S65536x1 : Shape := ⟨2, ![65536, 1]⟩
abbrev S_ : Shape := ⟨0, ![]⟩
abbrev S1x128 : Shape := ⟨2, ![1, 128]⟩
abbrev S1048576x1 : Shape := ⟨2, ![1048576, 1]⟩
abbrev S1048576x128 : Shape := ⟨2, ![1048576, 128]⟩
abbrev S8192x128 : Shape := ⟨2, ![8192, 128]⟩
abbrev S8192x32 : Shape := ⟨2, ![8192, 32]⟩
abbrev S2x64x128 : Shape := ⟨3, ![2, 64, 128]⟩
abbrev S4096x128 : Shape := ⟨2, ![4096, 128]⟩
abbrev S4096x1 : Shape := ⟨2, ![4096, 1]⟩
abbrev S1x64x128 : Shape := ⟨3, ![1, 64, 128]⟩
abbrev S64x128 : Shape := ⟨2, ![64, 128]⟩
abbrev S4096x64 : Shape := ⟨2, ![4096, 64]⟩
abbrev S64 : Shape := ⟨1, ![64]⟩
abbrev S64x1 : Shape := ⟨2, ![64, 1]⟩
abbrev S1x32 : Shape := ⟨2, ![1, 32]⟩
abbrev S64x32 : Shape := ⟨2, ![64, 32]⟩

abbrev nBuf : Space → Nat
  | .hbm => 146
  | .vmem => 42
  | .smem => 0
  | _ => 0

abbrev hbmTy0_0 (i : Nat) : BufTy := match i % 128 with
  | 0 => ⟨S65536x128, .f32⟩
  | 1 => ⟨S2x1048576, .i32⟩
  | 2 => ⟨S1048576x32, .f32⟩
  | 3 => ⟨S65536, .i32⟩
  | 4 => ⟨S32x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S32x128, .f32⟩
  | 13 => ⟨S128, .f32⟩
  | 14 => ⟨S128x128, .f32⟩
  | 15 => ⟨S128, .f32⟩
  | 16 => ⟨S128, .f32⟩
  | 17 => ⟨S128, .f32⟩
  | 18 => ⟨S128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S128, .f32⟩
  | 29 => ⟨S128, .f32⟩
  | 30 => ⟨S128, .f32⟩
  | 31 => ⟨S128, .f32⟩
  | 32 => ⟨S128x32, .f32⟩
  | 33 => ⟨S32, .f32⟩
  | 34 => ⟨S1x1048576, .i32⟩
  | 35 => ⟨S1048576, .i32⟩
  | 36 => ⟨S1x1048576, .i32⟩
  | 37 => ⟨S1048576, .i32⟩
  | 38 => ⟨S65536x1, .i32⟩
  | 39 => ⟨S_, .f32⟩
  | 40 => ⟨S128, .f32⟩
  | 41 => ⟨S128, .f32⟩
  | 42 => ⟨S128, .f32⟩
  | 43 => ⟨S128, .f32⟩
  | 44 => ⟨S128, .f32⟩
  | 45 => ⟨S128, .f32⟩
  | 46 => ⟨S1x128, .f32⟩
  | 47 => ⟨S128x128, .f32⟩
  | 48 => ⟨S128x128, .f32⟩
  | 49 => ⟨S128x128, .bf16⟩
  | 50 => ⟨S128, .f32⟩
  | 51 => ⟨S128, .f32⟩
  | 52 => ⟨S_, .f32⟩
  | 53 => ⟨S128, .f32⟩
  | 54 => ⟨S128, .f32⟩
  | 55 => ⟨S128, .f32⟩
  | 56 => ⟨S128, .f32⟩
  | 57 => ⟨S128, .f32⟩
  | 58 => ⟨S128, .f32⟩
  | 59 => ⟨S1x128, .f32⟩
  | 60 => ⟨S128x128, .f32⟩
  | 61 => ⟨S128x128, .f32⟩
  | 62 => ⟨S128x128, .bf16⟩
  | 63 => ⟨S128, .f32⟩
  | 64 => ⟨S128, .f32⟩
  | 65 => ⟨S_, .f32⟩
  | 66 => ⟨S128, .f32⟩
  | 67 => ⟨S128, .f32⟩
  | 68 => ⟨S128, .f32⟩
  | 69 => ⟨S128, .f32⟩
  | 70 => ⟨S128, .f32⟩
  | 71 => ⟨S128, .f32⟩
  | 72 => ⟨S1x128, .f32⟩
  | 73 => ⟨S128x128, .f32⟩
  | 74 => ⟨S128x128, .f32⟩
  | 75 => ⟨S128x128, .bf16⟩
  | 76 => ⟨S128, .f32⟩
  | 77 => ⟨S128, .f32⟩
  | 78 => ⟨S_, .f32⟩
  | 79 => ⟨S128, .f32⟩
  | 80 => ⟨S128, .f32⟩
  | 81 => ⟨S128, .f32⟩
  | 82 => ⟨S128, .f32⟩
  | 83 => ⟨S128, .f32⟩
  | 84 => ⟨S128, .f32⟩
  | 85 => ⟨S1x128, .f32⟩
  | 86 => ⟨S128x128, .f32⟩
  | 87 => ⟨S128x128, .f32⟩
  | 88 => ⟨S128x128, .bf16⟩
  | 89 => ⟨S128, .f32⟩
  | 90 => ⟨S128, .f32⟩
  | 91 => ⟨S32x128, .bf16⟩
  | 92 => ⟨S32x128, .bf16⟩
  | 93 => ⟨S1048576x32, .bf16⟩
  | 94 => ⟨S65536x128, .bf16⟩
  | 95 => ⟨S_, .i32⟩
  | 96 => ⟨S1048576, .i32⟩
  | 97 => ⟨S1048576, .i1⟩
  | 98 => ⟨S_, .i32⟩
  | 99 => ⟨S1048576, .i32⟩
  | 100 => ⟨S1048576, .i32⟩
  | 101 => ⟨S1048576, .i32⟩
  | 102 => ⟨S1048576x1, .i32⟩
  | 103 => ⟨S1048576x128, .bf16⟩
  | 104 => ⟨S1x128, .f32⟩
  | 105 => ⟨S1048576x128, .f32⟩
  | 106 => ⟨S_, .f32⟩
  | 107 => ⟨S65536x128, .f32⟩
  | 108 => ⟨S1048576x1, .i32⟩
  | 109 => ⟨S65536x128, .f32⟩
  | 110 => ⟨S1x128, .f32⟩
  | 111 => ⟨S65536x128, .bf16⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S1048576x1, .i32⟩
  | 120 => ⟨S1048576x128, .bf16⟩
  | 121 => ⟨S1x128, .f32⟩
  | 122 => ⟨S1048576x128, .f32⟩
  | 123 => ⟨S_, .f32⟩
  | 124 => ⟨S65536x128, .f32⟩
  | 125 => ⟨S1048576x1, .i32⟩
  | 126 => ⟨S65536x128, .f32⟩
  | 127 => ⟨S1x128, .f32⟩
  | _ => ⟨S65536x128, .f32⟩

abbrev hbmTy0_1 (i : Nat) : BufTy := match i % 128 with
  | 0 => ⟨S2x64x128, .f32⟩
  | 1 => ⟨S_, .f32⟩
  | 2 => ⟨S64x128, .f32⟩
  | 3 => ⟨S_, .f32⟩
  | 4 => ⟨S65536, .f32⟩
  | 5 => ⟨S_, .f32⟩
  | 6 => ⟨S64, .f32⟩
  | 7 => ⟨S65536x1, .i32⟩
  | 8 => ⟨S64, .f32⟩
  | 9 => ⟨S64x1, .f32⟩
  | 10 => ⟨S64x128, .f32⟩
  | 11 => ⟨S64x128, .f32⟩
  | 12 => ⟨S64x128, .bf16⟩
  | 13 => ⟨S128x32, .bf16⟩
  | 14 => ⟨S1x128, .f32⟩
  | 15 => ⟨S1x128, .f32⟩
  | 16 => ⟨S1x32, .f32⟩
  | 17 => ⟨S64x32, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S8192x32, .bf16⟩
  | .local _ .vmem, ⟨3, _⟩ => ⟨S8192x32, .bf16⟩
  | .local _ .vmem, ⟨4, _⟩ => ⟨S32x128, .bf16⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | .local _ .vmem, ⟨8, _⟩ => ⟨S8192x128, .bf16⟩
  | .local _ .vmem, ⟨9, _⟩ => ⟨S8192x128, .bf16⟩
  | .local _ .vmem, ⟨10, _⟩ => ⟨S8192x128, .f32⟩
  | .local _ .vmem, ⟨11, _⟩ => ⟨S8192x128, .f32⟩
  | .local _ .vmem, ⟨12, _⟩ => ⟨S128x128, .bf16⟩
  | .local _ .vmem, ⟨13, _⟩ => ⟨S1x128, .f32⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S8192x32, .bf16⟩
  | .local _ .vmem, ⟨19, _⟩ => ⟨S8192x32, .bf16⟩
  | .local _ .vmem, ⟨20, _⟩ => ⟨S32x128, .bf16⟩
  | .local _ .vmem, ⟨21, _⟩ => ⟨S1x128, .f32⟩
  | .local _ .vmem, ⟨22, _⟩ => ⟨S8192x128, .f32⟩
  | .local _ .vmem, ⟨23, _⟩ => ⟨S8192x128, .f32⟩
  | .local _ .vmem, ⟨24, _⟩ => ⟨S4096x128, .bf16⟩
  | .local _ .vmem, ⟨25, _⟩ => ⟨S4096x128, .bf16⟩
  | .local _ .vmem, ⟨26, _⟩ => ⟨S4096x128, .f32⟩
  | .local _ .vmem, ⟨27, _⟩ => ⟨S4096x128, .f32⟩
  | .local _ .vmem, ⟨28, _⟩ => ⟨S128x128, .bf16⟩
  | .local _ .vmem, ⟨29, _⟩ => ⟨S1x128, .f32⟩
  | .local _ .vmem, ⟨30, _⟩ => ⟨S4096x1, .i32⟩
  | .local _ .vmem, ⟨31, _⟩ => ⟨S4096x1, .i32⟩
  | .local _ .vmem, ⟨32, _⟩ => ⟨S1x64x128, .f32⟩
  | .local _ .vmem, ⟨33, _⟩ => ⟨S1x64x128, .f32⟩
  | .local _ .vmem, ⟨34, _⟩ => ⟨S64x128, .bf16⟩
  | .local _ .vmem, ⟨35, _⟩ => ⟨S128x128, .bf16⟩
  | .local _ .vmem, ⟨36, _⟩ => ⟨S1x128, .f32⟩
  | .local _ .vmem, ⟨37, _⟩ => ⟨S128x128, .bf16⟩
  | .local _ .vmem, ⟨38, _⟩ => ⟨S1x128, .f32⟩
  | .local _ .vmem, ⟨39, _⟩ => ⟨S128x32, .bf16⟩
  | .local _ .vmem, ⟨40, _⟩ => ⟨S1x32, .f32⟩
  | .local _ .vmem, ⟨41, _⟩ => ⟨S64x32, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_0 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_1 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_2 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c : Ref sig .tc := ⟨.hbm, 95, rfl⟩
abbrev main_v57 : Ref sig .tc := ⟨.hbm, 96, rfl⟩
abbrev main_v58 : Ref sig .tc := ⟨.hbm, 97, rfl⟩
abbrev main_c_3 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_4 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_5 : Ref sig .tc := ⟨.hbm, 112, rfl⟩
abbrev main_v71 : Ref sig .tc := ⟨.hbm, 113, rfl⟩
abbrev main_v72 : Ref sig .tc := ⟨.hbm, 114, rfl⟩
abbrev main_c_6 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_7 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_8 : Ref sig .tc := ⟨.hbm, 129, rfl⟩
abbrev main_v85 : Ref sig .tc := ⟨.hbm, 130, rfl⟩
abbrev main_cst_9 : Ref sig .tc := ⟨.hbm, 131, rfl⟩
abbrev main_v86 : Ref sig .tc := ⟨.hbm, 132, rfl⟩
abbrev main_cst_10 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg7_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc4_sem0_0 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem7_0 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8192x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4096x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S4096x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x64x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x32 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  shapeCasts_S65536_S65536x1 : S65536.ShapeCasts S65536x1
  bcast_S_S128 : S_.BroadcastsInDim S128 (![] : Fin 0 → Fin S128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bitsLt_bf16_f32 : FTy.bits .bf16 < FTy.bits .f32
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S128_S1x128 : S128.ShapeCasts S1x128
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  bcast_S_S65536x128 : S_.BroadcastsInDim S65536x128 (![] : Fin 0 → Fin S65536x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S8192x128_S8192x128_0_0 : (Rect.unit (s := S8192x128) ![0, 0] S8192x128.size inb_S8192x128_S8192x128_0_0).PackedRows (EltTy.packing .bf16)
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  iota_S4096x64_d1_w32 : S4096x64.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  natLt_1_32 : 1 < 32
  reducesTo_S2x64x128_S64x128_d0 : S2x64x128.ReducesTo [0] S64x128
  h_S_ : 0 < S_.numel
  bcast_S_S65536 : S_.BroadcastsInDim S65536 (![] : Fin 0 → Fin S65536.rank)
  bcast_S_S64 : S_.BroadcastsInDim S64 (![] : Fin 0 → Fin S64.rank)
  bcast_S65536_S65536x1_0 : S65536.BroadcastsInDim S65536x1 (![0] : Fin 1 → Fin S65536x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S32_S1x32 : S32.ShapeCasts S1x32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S64x32_S64x32_0_0 : ∀ a, (![0, 0] : Fin 2 → Nat) a + S64x32.size a ≤ S64x32.size a
  h_S64x32 : 0 < S64x32.numel
  gather_S65536x128_S1048576x1_S1048576x128_1_0_n_n_0_1_1128_wf : GatherDims.WF S65536x128 S1048576x1 S1048576x128 [1] [0] [] [0] [] 1 ![1, 128]
  dot_S8192x32_S32x128_S8192x128_1_0_0_1_n_n_wf : DotDims.WF S8192x32 S32x128 S8192x128 [1] [0] [0] [1] [] []
  scatter_S65536x128_S1048576x1_S1048576x128_1_0_0_1_wf : ScatterDims.WF S65536x128 S1048576x1 S1048576x128 [1] [0] [0] 1
  dot_S8192x128_S128x128_S8192x128_1_0_0_1_n_n_wf : DotDims.WF S8192x128 S128x128 S8192x128 [1] [0] [0] [1] [] []
  dot_S4096x128_S128x128_S4096x128_1_0_0_1_n_n_wf : DotDims.WF S4096x128 S128x128 S4096x128 [1] [0] [0] [1] [] []
  dot_S4096x64_S4096x128_S64x128_0_0_1_1_n_n_wf : DotDims.WF S4096x64 S4096x128 S64x128 [0] [0] [1] [1] [] []
  scatter_S64_S65536x1_S65536_n_0_0_1_wf : ScatterDims.WF S64 S65536x1 S65536 [] [0] [0] 1
  dot_S64x128_S128x128_S64x128_1_0_0_1_n_n_wf : DotDims.WF S64x128 S128x128 S64x128 [1] [0] [0] [1] [] []
  dot_S64x128_S128x32_S64x32_1_0_0_1_n_n_wf : DotDims.WF S64x128 S128x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .bf16 = 32 ∨ (Rect.block (s := S1048576x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S1048576x32.size a
  hwx0_1 : ∀ i : grid0.Coords, EltTy.bits .bf16 = 32 ∨ (Rect.block (s := S1048576x32) S8192x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .bf16 = 32 ∨ (Rect.block (s := S32x128) S32x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S1048576x128.size a
  hwx0_4 : ∀ i : grid0.Coords, EltTy.bits .f32 = 32 ∨ (Rect.block (s := S1048576x128) S8192x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S65536x128.size a
  hwx1_0 : ∀ i : grid1.Coords, EltTy.bits .bf16 = 32 ∨ (Rect.block (s := S65536x128) S8192x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S65536x128.size a
  hwx1_1 : ∀ i : grid1.Coords, EltTy.bits .f32 = 32 ∨ (Rect.block (s := S65536x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x128.size a ≤ S65536x128.size a
  hwx1_4 : ∀ i : grid1.Coords, EltTy.bits .bf16 = 32 ∨ (Rect.block (s := S65536x128) S8192x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S1048576x128.size a
  hwx2_0 : ∀ i : grid2.Coords, EltTy.bits .bf16 = 32 ∨ (Rect.block (s := S1048576x128) S8192x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x32.size a ≤ S1048576x32.size a
  hwx2_1 : ∀ i : grid2.Coords, EltTy.bits .bf16 = 32 ∨ (Rect.block (s := S1048576x32) S8192x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S32x128.size a
  hwx2_2 : ∀ i : grid2.Coords, EltTy.bits .bf16 = 32 ∨ (Rect.block (s := S32x128) S32x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8192x128.size a ≤ S1048576x128.size a
  hwx2_4 : ∀ i : grid2.Coords, EltTy.bits .f32 = 32 ∨ (Rect.block (s := S1048576x128) S8192x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S65536x128.size a
  hwx3_0 : ∀ i : grid3.Coords, EltTy.bits .bf16 = 32 ∨ (Rect.block (s := S65536x128) S4096x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S65536x128.size a
  hwx3_1 : ∀ i : grid3.Coords, EltTy.bits .f32 = 32 ∨ (Rect.block (s := S65536x128) S4096x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x1.size a ≤ S65536x1.size a
  hwx3_4 : ∀ i : grid3.Coords, EltTy.bits .i32 = 32 ∨ (Rect.block (s := S65536x1) S4096x1.size (cc3_transform_4 i) (hinb3_4 i)).WholeWords (EltTy.packing .i32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x64x128.size a ≤ S2x64x128.size a
  hwx3_5 : ∀ i : grid3.Coords, EltTy.bits .f32 = 32 ∨ (Rect.block (s := S2x64x128) S1x64x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .bf16 = 32 ∨ (Rect.block (s := S64x128) S64x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x32.size a ≤ S128x32.size a
  hwx4_5 : ∀ i : grid4.Coords, EltTy.bits .bf16 = 32 ∨ (Rect.block (s := S128x32) S128x32.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x32.size a ≤ S64x32.size a
  hwx4_7 : ∀ i : grid4.Coords, EltTy.bits .f32 = 32 ∨ (Rect.block (s := S64x32) S64x32.size (cc4_transform_7 i) (hinb4_7 i)).WholeWords (EltTy.packing .f32)

variable [Facts₀]

def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x64_S4096x128_S64x128_0_0_1_1_n_n : DotDims S4096x64 S4096x128 S64x128 where
  lhsContracting := [0]
  rhsContracting := [0]
  lhsNonContracting := [1]
  rhsNonContracting := [1]
  lhsBatch := []
  rhsBatch := []
  wf := dot_S4096x64_S4096x128_S64x128_0_0_1_1_n_n_wf
def scatter_S64_S65536x1_S65536_n_0_0_1 : ScatterDims S64 S65536x1 S65536 where
  updateWindowDims := []
  insertedWindowDims := [0]
  scatterDimsToOperandDims := [0]
  indexVectorDim := 1
  wf := scatter_S64_S65536x1_S65536_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

abbrev win0_0 : Pipeline.Window sig grid0 :=
  Pipeline.Window.ofSpec (Memref.whole main_v63) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v64) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v65) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v56) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v68) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S8192x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v77) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S8192x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S8192x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v70) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S4096x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v84) S1x64x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v93) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v38) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S128x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v97) S1x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v98) S64x32.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S65536x128 : Shape := ⟨2, ![65536, 128]⟩
abbrev S2x1048576 : Shape := ⟨2, ![2, 1048576]⟩
abbrev S1048576x32 : Shape := ⟨2, ![1048576, 32]⟩
abbrev S65536 : Shape := ⟨1, ![65536]⟩
abbrev S32x128 : Shape := ⟨2, ![32, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S1048576x128 : Shape := ⟨2, ![1048576, 128]⟩
abbrev S1x128 : Shape := ⟨2, ![1, 128]⟩
abbrev S64 : Shape := ⟨1, ![64]⟩
abbrev S65536x1 : Shape := ⟨2, ![65536, 1]⟩
abbrev S64x128 : Shape := ⟨2, ![64, 128]⟩
abbrev S64x1 : Shape := ⟨2, ![64, 1]⟩
abbrev S64x32 : Shape := ⟨2, ![64, 32]⟩
abbrev S1x32 : Shape := ⟨2, ![1, 32]⟩

abbrev nBuf : Space → Nat
  | .hbm => 210
  | .vmem => 0
  | .smem => 0
  | _ => 0

abbrev hbmTy0_0 (i : Nat) : BufTy := match i % 128 with
  | 0 => ⟨S65536x128, .f32⟩
  | 1 => ⟨S2x1048576, .i32⟩
  | 2 => ⟨S1048576x32, .f32⟩
  | 3 => ⟨S65536, .i32⟩
  | 4 => ⟨S32x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S32x128, .f32⟩
  | 13 => ⟨S128, .f32⟩
  | 14 => ⟨S128x128, .f32⟩
  | 15 => ⟨S128, .f32⟩
  | 16 => ⟨S128, .f32⟩
  | 17 => ⟨S128, .f32⟩
  | 18 => ⟨S128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S128, .f32⟩
  | 29 => ⟨S128, .f32⟩
  | 30 => ⟨S128, .f32⟩
  | 31 => ⟨S128, .f32⟩
  | 32 => ⟨S128x32, .f32⟩
  | 33 => ⟨S32, .f32⟩
  | 34 => ⟨S1x1048576, .i32⟩
  | 35 => ⟨S1048576, .i32⟩
  | 36 => ⟨S1x1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S1048576x1, .i32⟩
  | 46 => ⟨S1048576x128, .f32⟩
  | 47 => ⟨S1048576x128, .f32⟩
  | 48 => ⟨S1048576x128, .f32⟩
  | 49 => ⟨S1x128, .f32⟩
  | 50 => ⟨S1048576x128, .f32⟩
  | 51 => ⟨S1048576x128, .f32⟩
  | 52 => ⟨S_, .f32⟩
  | 53 => ⟨S1048576x128, .f32⟩
  | 54 => ⟨S1048576x128, .f32⟩
  | 55 => ⟨S_, .f32⟩
  | 56 => ⟨S65536x128, .f32⟩
  | 57 => ⟨S1048576x1, .i32⟩
  | 58 => ⟨S65536x128, .f32⟩
  | 59 => ⟨S65536x128, .f32⟩
  | 60 => ⟨S65536x128, .f32⟩
  | 61 => ⟨S1x128, .f32⟩
  | 62 => ⟨S65536x128, .f32⟩
  | 63 => ⟨S65536x128, .f32⟩
  | 64 => ⟨S1x128, .f32⟩
  | 65 => ⟨S65536x128, .f32⟩
  | 66 => ⟨S65536x128, .f32⟩
  | 67 => ⟨S1x128, .f32⟩
  | 68 => ⟨S65536x128, .f32⟩
  | 69 => ⟨S65536x128, .f32⟩
  | 70 => ⟨S_, .f32⟩
  | 71 => ⟨S128, .f32⟩
  | 72 => ⟨S128, .f32⟩
  | 73 => ⟨S128, .f32⟩
  | 74 => ⟨S1x128, .f32⟩
  | 75 => ⟨S65536x128, .f32⟩
  | 76 => ⟨S65536x128, .f32⟩
  | 77 => ⟨S1x128, .f32⟩
  | 78 => ⟨S65536x128, .f32⟩
  | 79 => ⟨S65536x128, .f32⟩
  | 80 => ⟨S_, .f32⟩
  | 81 => ⟨S65536x128, .f32⟩
  | 82 => ⟨S65536x128, .f32⟩
  | 83 => ⟨S_, .f32⟩
  | 84 => ⟨S65536x128, .f32⟩
  | 85 => ⟨S65536x128, .f32⟩
  | 86 => ⟨S_, .i32⟩
  | 87 => ⟨S1048576, .i32⟩
  | 88 => ⟨S1048576, .i1⟩
  | 89 => ⟨S_, .i32⟩
  | 90 => ⟨S1048576, .i32⟩
  | 91 => ⟨S1048576, .i32⟩
  | 92 => ⟨S1048576, .i32⟩
  | 93 => ⟨S1048576x1, .i32⟩
  | 94 => ⟨S1048576x128, .f32⟩
  | 95 => ⟨S1048576x128, .f32⟩
  | 96 => ⟨S1048576x128, .f32⟩
  | 97 => ⟨S1x128, .f32⟩
  | 98 => ⟨S1048576x128, .f32⟩
  | 99 => ⟨S1048576x128, .f32⟩
  | 100 => ⟨S_, .f32⟩
  | 101 => ⟨S1048576x128, .f32⟩
  | 102 => ⟨S1048576x128, .f32⟩
  | 103 => ⟨S_, .f32⟩
  | 104 => ⟨S65536x128, .f32⟩
  | 105 => ⟨S1048576x1, .i32⟩
  | 106 => ⟨S65536x128, .f32⟩
  | 107 => ⟨S65536x128, .f32⟩
  | 108 => ⟨S65536x128, .f32⟩
  | 109 => ⟨S1x128, .f32⟩
  | 110 => ⟨S65536x128, .f32⟩
  | 111 => ⟨S65536x128, .f32⟩
  | 112 => ⟨S1x128, .f32⟩
  | 113 => ⟨S65536x128, .f32⟩
  | 114 => ⟨S65536x128, .f32⟩
  | 115 => ⟨S1x128, .f32⟩
  | 116 => ⟨S65536x128, .f32⟩
  | 117 => ⟨S65536x128, .f32⟩
  | 118 => ⟨S_, .f32⟩
  | 119 => ⟨S128, .f32⟩
  | 120 => ⟨S128, .f32⟩
  | 121 => ⟨S128, .f32⟩
  | 122 => ⟨S1x128, .f32⟩
  | 123 => ⟨S65536x128, .f32⟩
  | 124 => ⟨S65536x128, .f32⟩
  | 125 => ⟨S1x128, .f32⟩
  | 126 => ⟨S65536x128, .f32⟩
  | 127 => ⟨S65536x128, .f32⟩
  | _ => ⟨S65536x128, .f32⟩

abbrev hbmTy0_1 (i : Nat) : BufTy := match i % 128 with
  | 0 => ⟨S_, .f32⟩
  | 1 => ⟨S65536x128, .f32⟩
  | 2 => ⟨S65536x128, .f32⟩
  | 3 => ⟨S65536x128, .f32⟩
  | 4 => ⟨S65536x128, .f32⟩
  | 5 => ⟨S_, .f32⟩
  | 6 => ⟨S65536x128, .f32⟩
  | 7 => ⟨S65536x128, .f32⟩
  | 8 => ⟨S_, .f32⟩
  | 9 => ⟨S65536x128, .f32⟩
  | 10 => ⟨S65536x128, .f32⟩
  | 11 => ⟨S_, .f32⟩
  | 12 => ⟨S65536, .f32⟩
  | 13 => ⟨S_, .f32⟩
  | 14 => ⟨S64, .f32⟩
  | 15 => ⟨S65536x1, .i32⟩
  | 16 => ⟨S64, .f32⟩
  | 17 => ⟨S_, .f32⟩
  | 18 => ⟨S64x128, .f32⟩
  | 19 => ⟨S65536x1, .i32⟩
  | 20 => ⟨S64x128, .f32⟩
  | 21 => ⟨S64x1, .f32⟩
  | 22 => ⟨S64x128, .f32⟩
  | 23 => ⟨S64x128, .f32⟩
  | 24 => ⟨S64x128, .f32⟩
  | 25 => ⟨S1x128, .f32⟩
  | 26 => ⟨S64x128, .f32⟩
  | 27 => ⟨S64x128, .f32⟩
  | 28 => ⟨S1x128, .f32⟩
  | 29 => ⟨S64x128, .f32⟩
  | 30 => ⟨S64x128, .f32⟩
  | 31 => ⟨S1x128, .f32⟩
  | 32 => ⟨S64x128, .f32⟩
  | 33 => ⟨S64x128, .f32⟩
  | 34 => ⟨S_, .f32⟩
  | 35 => ⟨S128, .f32⟩
  | 36 => ⟨S128, .f32⟩
  | 37 => ⟨S128, .f32⟩
  | 38 => ⟨S1x128, .f32⟩
  | 39 => ⟨S64x128, .f32⟩
  | 40 => ⟨S64x128, .f32⟩
  | 41 => ⟨S1x128, .f32⟩
  | 42 => ⟨S64x128, .f32⟩
  | 43 => ⟨S64x128, .f32⟩
  | 44 => ⟨S_, .f32⟩
  | 45 => ⟨S64x128, .f32⟩
  | 46 => ⟨S64x128, .f32⟩
  | 47 => ⟨S64x128, .f32⟩
  | 48 => ⟨S1x128, .f32⟩
  | 49 => ⟨S64x128, .f32⟩
  | 50 => ⟨S64x128, .f32⟩
  | 51 => ⟨S1x128, .f32⟩
  | 52 => ⟨S64x128, .f32⟩
  | 53 => ⟨S64x128, .f32⟩
  | 54 => ⟨S1x128, .f32⟩
  | 55 => ⟨S64x128, .f32⟩
  | 56 => ⟨S64x128, .f32⟩
  | 57 => ⟨S_, .f32⟩
  | 58 => ⟨S128, .f32⟩
  | 59 => ⟨S128, .f32⟩
  | 60 => ⟨S128, .f32⟩
  | 61 => ⟨S1x128, .f32⟩
  | 62 => ⟨S64x128, .f32⟩
  | 63 => ⟨S64x128, .f32⟩
  | 64 => ⟨S1x128, .f32⟩
  | 65 => ⟨S64x128, .f32⟩
  | 66 => ⟨S64x128, .f32⟩
  | 67 => ⟨S_, .f32⟩
  | 68 => ⟨S64x128, .f32⟩
  | 69 => ⟨S64x128, .f32⟩
  | 70 => ⟨S64x32, .f32⟩
  | 71 => ⟨S1x32, .f32⟩
  | 72 => ⟨S64x32, .f32⟩
  | 73 => ⟨S64x32, .f32⟩
  | 74 => ⟨S64x32, .f32⟩
  | 75 => ⟨S64x32, .f32⟩
  | 76 => ⟨S_, .f32⟩
  | 77 => ⟨S64x32, .f32⟩
  | 78 => ⟨S64x32, .f32⟩
  | 79 => ⟨S_, .f32⟩
  | 80 => ⟨S64x32, .f32⟩
  | 81 => ⟨S64x32, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c : Ref sig .tc := ⟨.hbm, 38, rfl⟩
abbrev main_v4 : Ref sig .tc := ⟨.hbm, 39, rfl⟩
abbrev main_v5 : Ref sig .tc := ⟨.hbm, 40, rfl⟩
abbrev main_c_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_call0_cst : Ref sig .tc := ⟨.hbm, 52, rfl⟩
abbrev main_call0_v0 : Ref sig .tc := ⟨.hbm, 53, rfl⟩
abbrev main_v16 : Ref sig .tc := ⟨.hbm, 54, rfl⟩
abbrev main_cst : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_1 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_call1_cst : Ref sig .tc := ⟨.hbm, 80, rfl⟩
abbrev main_call1_v0 : Ref sig .tc := ⟨.hbm, 81, rfl⟩
abbrev main_v40 : Ref sig .tc := ⟨.hbm, 82, rfl⟩
abbrev main_call2_cst : Ref sig .tc := ⟨.hbm, 83, rfl⟩
abbrev main_call2_v0 : Ref sig .tc := ⟨.hbm, 84, rfl⟩
abbrev main_v41 : Ref sig .tc := ⟨.hbm, 85, rfl⟩
abbrev main_c_2 : Ref sig .tc := ⟨.hbm, 86, rfl⟩
abbrev main_v42 : Ref sig .tc := ⟨.hbm, 87, rfl⟩
abbrev main_v43 : Ref sig .tc := ⟨.hbm, 88, rfl⟩
abbrev main_c_3 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_call3_cst : Ref sig .tc := ⟨.hbm, 100, rfl⟩
abbrev main_call3_v0 : Ref sig .tc := ⟨.hbm, 101, rfl⟩
abbrev main_v54 : Ref sig .tc := ⟨.hbm, 102, rfl⟩
abbrev main_cst_4 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_5 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_call4_cst : Ref sig .tc := ⟨.hbm, 128, rfl⟩
abbrev main_call4_v0 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_6 : Ref sig .tc := ⟨.hbm, 133, rfl⟩
abbrev main_v81 : Ref sig .tc := ⟨.hbm, 134, rfl⟩
abbrev main_v82 : Ref sig .tc := ⟨.hbm, 135, rfl⟩
abbrev main_cst_7 : Ref sig .tc := ⟨.hbm, 136, rfl⟩
abbrev main_v83 : Ref sig .tc := ⟨.hbm, 137, rfl⟩
abbrev main_v84 : Ref sig .tc := ⟨.hbm, 138, rfl⟩
abbrev main_cst_8 : Ref sig .tc := ⟨.hbm, 139, rfl⟩
abbrev main_v85 : Ref sig .tc := ⟨.hbm, 140, rfl⟩
abbrev main_cst_9 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_10 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_11 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_call5_cst : Ref sig .tc := ⟨.hbm, 172, rfl⟩
abbrev main_call5_v0 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_cst_12 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_call6_cst : Ref sig .tc := ⟨.hbm, 195, rfl⟩
abbrev main_call6_v0 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_cst_13 : Ref sig .tc := ⟨.hbm, 204, rfl⟩
abbrev main_v141 : Ref sig .tc := ⟨.hbm, 205, rfl⟩
abbrev main_v142 : Ref sig .tc := ⟨.hbm, 206, rfl⟩
abbrev main_cst_14 : Ref sig .tc := ⟨.hbm, 207, rfl⟩
abbrev main_v143 : Ref sig .tc := ⟨.hbm, 208, rfl⟩
abbrev main_v144 : Ref sig .tc := ⟨.hbm, 209, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S_S65536x128 : S_.BroadcastsInDim S65536x128 (![] : Fin 0 → Fin S65536x128.rank)
  bcast_S1x128_S65536x128_0_1 : S1x128.BroadcastsInDim S65536x128 (![0, 1] : Fin 2 → Fin S65536x128.rank)
  bcast_S_S128 : S_.BroadcastsInDim S128 (![] : Fin 0 → Fin S128.rank)
  bcast_S_S65536 : S_.BroadcastsInDim S65536 (![] : Fin 0 → Fin S65536.rank)
  bcast_S_S64 : S_.BroadcastsInDim S64 (![] : Fin 0 → Fin S64.rank)
  bcast_S65536_S65536x1_0 : S65536.BroadcastsInDim S65536x1 (![0] : Fin 1 → Fin S65536x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  gather_S65536x128_S1048576x1_S1048576x128_1_0_n_n_0_1_1128_wf : GatherDims.WF S65536x128 S1048576x1 S1048576x128 [1] [0] [] [0] [] 1 ![1, 128]
  dot_S1048576x32_S32x128_S1048576x128_1_0_0_1_n_n_wf : DotDims.WF S1048576x32 S32x128 S1048576x128 [1] [0] [0] [1] [] []
  scatter_S65536x128_S1048576x1_S1048576x128_1_0_0_1_wf : ScatterDims.WF S65536x128 S1048576x1 S1048576x128 [1] [0] [0] 1
  dot_S65536x128_S128x128_S65536x128_1_0_0_1_n_n_wf : DotDims.WF S65536x128 S128x128 S65536x128 [1] [0] [0] [1] [] []
  scatter_S64_S65536x1_S65536_n_0_0_1_wf : ScatterDims.WF S64 S65536x1 S65536 [] [0] [0] 1
  scatter_S64x128_S65536x1_S65536x128_1_0_0_1_wf : ScatterDims.WF S64x128 S65536x1 S65536x128 [1] [0] [0] 1
  dot_S64x128_S128x128_S64x128_1_0_0_1_n_n_wf : DotDims.WF S64x128 S128x128 S64x128 [1] [0] [0] [1] [] []
  dot_S64x128_S128x32_S64x32_1_0_0_1_n_n_wf : DotDims.WF S64x128 S128x32 S64x32 [1] [0] [0] [1] [] []

variable [Facts₀]

def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def dot_S1048576x32_S32x128_S1048576x128_1_0_0_1_n_n : DotDims S1048576x32 S32x128 S1048576x128 where
  lhsContracting := [1]
  rhsContracting := [0]
  lhsNonContracting := [0]
  rhsNonContracting := [1]
  lhsBatch := []
  rhsBatch := []
  wf := dot_S1048576x32_S32x128_S1048576x128_1_0_0_1_n_n_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def scatter_S64_S65536x1_S65536_n_0_0_1 : ScatterDims S64 S65536x1 S65536 where
  updateWindowDims := []
  insertedWindowDims := [0]
  scatterDimsToOperandDims := [0]
  indexVectorDim := 1
  wf := scatter_S64_S65536x1_S65536_n_0_0_1_wf
def scatter_S64x128_S65536x1_S65536x128_1_0_0_1 : ScatterDims S64x128 S65536x1 S65536x128 where
  updateWindowDims := [1]
  insertedWindowDims := [0]
  scatterDimsToOperandDims := [0]
  indexVectorDim := 1
  wf := scatter_S64x128_S65536x1_S65536x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

class Facts : Prop extends Facts₀ where

variable [Facts]
-- ==== Proof.Spec.lean ====
/-
  The functions both programs compute, written once over the extended reals, index by index, over literal shapes.
  A dense layer is a row-by-column sum plus a bias row; an edge message adds the gathered feature row before the bias and
  clips at zero; a node update is a clipped dense layer of the sum of a node's features and its aggregated messages; the
  pooled partial sums add, per half of the node range, every node's squashed update into the row of the graph the node
  belongs to; the head is three dense layers, the first two clipped, the last squashed.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr2 (a b : Nat) := (⟨2, ![a, b]⟩ : Shape).Idx → EReal
/-- A rank-3 array of extended reals. -/
abbrev Arr3 (a b c : Nat) := (⟨3, ![a, b, c]⟩ : Shape).Idx → EReal

/-- An extended real that is a real number. -/
def IsReal (a : EReal) : Prop := ∃ r : ℝ, a = (r : EReal)

/-- The logistic function on the extended reals: 1 / (1 + e^(-x)). -/
def sigm (x : EReal) : EReal := Ideal.div 1 (1 + Ideal.exp (-x))

/-- Row `r` of `a` times column `q` of `w`. -/
def dot {M K N : Nat} (a : Arr2 M K) (w : Arr2 K N) (r : Fin M) (q : Fin N) : EReal :=
  ∑ k : Fin K, a (ix2 r k) * w (ix2 k q)

/-- A dense layer: `a · w + b`, the bias a single row. -/
def dense {M K N : Nat} (a : Arr2 M K) (w : Arr2 K N) (b : Arr2 1 N) : Arr2 M N :=
  fun i => dot a w (i 0) (i 1) + b (ix2 0 (i 1))

/-- An edge's message: the gathered feature row plus the edge's linear image plus the bias, clipped at zero. -/
def edgeMsg {E K N : Nat} (g : Arr2 E N) (ea : Arr2 E K) (we : Arr2 K N) (be : Arr2 1 N) : Arr2 E N :=
  fun i => max (g i + dot ea we (i 0) (i 1) + be (ix2 0 (i 1))) 0

/-- A node's update: the dense layer of its features plus its aggregated messages, clipped at zero. -/
def nodeUpd {M K N : Nat} (x agg : Arr2 M K) (wf : Arr2 K N) (bf : Arr2 1 N) : Arr2 M N :=
  fun i => max (dense (fun j => x j + agg j) wf bf i) 0

/-- The node range is cut into two halves of 8 tiles of 4096 rows: row `r` of tile `t` of half `c`. -/
def nodeRow (c : Fin 2) (t : Fin 8) (r : Fin 4096) : Fin 65536 :=
  ⟨(c.val * 8 + t.val) * 4096 + r.val, by have := c.isLt; have := t.isLt; have := r.isLt; omega⟩

/-- Per half of the node range and per graph: the sum of the squashed node updates of the half's nodes whose graph
    number is that graph. -/
def poolPart (h agg : Arr2 65536 128) (wf : Arr2 128 128) (bf : Arr2 1 128)
    (batch : (⟨2, ![65536, 1]⟩ : Shape).Idx → BitVec 32) : Arr3 2 64 128 :=
  fun i => ∑ t : Fin 8, ∑ r : Fin 4096,
    (if batch (ix2 (nodeRow (i 0) t r) 0) = BitVec.ofNat 32 (i 1).val then (1 : EReal) else 0)
      * sigm (nodeUpd h agg wf bf (ix2 (nodeRow (i 0) t r) (i 2)))

/-- The head: two clipped dense layers and a squashed one. -/
def head (p : Arr2 64 128) (w1 : Arr2 128 128) (b1 : Arr2 1 128) (w2 : Arr2 128 128) (b2 : Arr2 1 128)
    (w3 : Arr2 128 32) (b3 : Arr2 1 32) : Arr2 64 32 :=
  fun i => sigm (dense (fun j => max (dense (fun j' => max (dense p w1 b1 j') 0) w2 b2 j) 0) w3 b3 i)

end Cert.Spec

end
-- ==== Proof.KSpec.lean ====
/-
  What the kernel's program computes, as one function of its argument arrays at the extended reals: the host operations
  of its @main, in program order, around the five tiled stages. A batch-norm in evaluation mode is affine per output
  channel, so the program folds it into the preceding linear layer's weights and bias once (`scale`, `shift`,
  `foldW`, `foldB`); the gathers and the scatter-adds are the host's; the stages are `Cert.Spec`'s functions.
-/
import proofs.«427628_j74397423501380_3_alg».proof.KernelIdeal
import proofs.«427628_j74397423501380_3_alg».proof.Proof.Spec

noncomputable section

namespace Cert.KernelIdeal.KSpec

open Idealize.ShloMosaic Idealize.SL.Sem Cert.KernelIdeal Cert.KernelIdeal.Facts₀ Cert.KernelIdeal.Facts

variable [Cert.KernelIdeal.Facts]

/-- Row 0 of the edge list, a negative entry counted from the end, as a column of gather indices. -/
def src (ei : IVec S2x1048576 32) : IVec S1048576x1 32 :=
  let v1 : IVec S1048576 32 := shapeCast S1048576 (extractStridedSlice S1x1048576 ![0, 0] ei slices_S2x1048576_S1x1048576_0_0) shapeCasts_S1x1048576_S1048576
  broadcastInDim S1048576x1 ![0] bcast_S1048576_S1048576x1_0
    (select (cmpi .slt v1 (broadcastInDim S1048576 ![] bcast_S_S1048576 (constantI S_ 32 0#32)))
      (addi v1 (broadcastInDim S1048576 ![] bcast_S_S1048576 (constantI S_ 32 65536#32))) v1)

/-- Row 1 of the edge list as a column of scatter indices. -/
def dst (ei : IVec S2x1048576 32) : IVec S1048576x1 32 :=
  broadcastInDim S1048576x1 ![0] bcast_S1048576_S1048576x1_0
    (shapeCast S1048576 (extractStridedSlice S1x1048576 ![1, 0] ei slices_S2x1048576_S1x1048576_1_0) shapeCasts_S1x1048576_S1048576)

/-- `g / sqrt (v + eps)`, channel by channel. -/
def scale (g v : FVec Ideal S128 .f32) : FVec Ideal S128 .f32 :=
  mulf g (Host.rsqrt (addf v (broadcastInDim S128 ![] bcast_S_S128 (constant S_ .f32 0x3727C5AC#32))))

/-- `bt - m * scale`. -/
def shift (bt m sc : FVec Ideal S128 .f32) : FVec Ideal S128 .f32 := subf bt (mulf m sc)

/-- The weights with each output column multiplied by its channel's scale. -/
def foldW (W : FVec Ideal S128x128 .f32) (sc : FVec Ideal S128 .f32) : FVec Ideal S128x128 .bf16 :=
  truncf .bf16 (mulf W (broadcastInDim S128x128 ![0, 1] bcast_S1x128_S128x128_0_1 (broadcastInDim S1x128 ![1] bcast_S128_S1x128_1 sc))) bitsLt_bf16_f32

/-- `b * scale + shift`. -/
def foldB (b sc sh : FVec Ideal S128 .f32) : FVec Ideal S128 .f32 := addf (mulf b sc) sh

/-- A vector of 128 as one row. -/
def row128 (b : FVec Ideal S128 .f32) : FVec Ideal S1x128 .f32 := shapeCast S1x128 b shapeCasts_S128_S1x128

/-- A vector of 32 as one row. -/
def row32 (b : FVec Ideal S32 .f32) : FVec Ideal S1x32 .f32 := shapeCast S1x32 b shapeCasts_S32_S1x32

/-- Messages summed into their destination nodes. -/
def aggregate (ei : IVec S2x1048576 32) (msg : FVec Ideal S1048576x128 .f32) : FVec Ideal S65536x128 .f32 :=
  Host.scatterAdd scatter_S65536x128_S1048576x1_S1048576x128_1_0_0_1
    (broadcastInDim S65536x128 ![] bcast_S_S65536x128 (constant S_ .f32 0x00000000#32)) (dst ei) msg

/-- The features of each edge's source node. -/
def gatherSrc (ei : IVec S2x1048576 32) (x : FVec Ideal S65536x128 .bf16) : FVec Ideal S1048576x128 .bf16 :=
  Host.gather gather_S65536x128_S1048576x1_S1048576x128_1_0_n_n_0_1_1128 x (src ei)

/-- How many nodes each graph has. -/
def count (batch : IVec S65536 32) : FVec Ideal S64 .f32 :=
  Host.scatterAdd scatter_S64_S65536x1_S65536_n_0_0_1
    (broadcastInDim S64 ![] bcast_S_S64 (constant S_ .f32 0x00000000#32))
    (broadcastInDim S65536x1 ![0] bcast_S65536_S65536x1_0 batch)
    (broadcastInDim S65536 ![] bcast_S_S65536 (constant S_ .f32 0x3F800000#32))

/-- The node features after the first convolution. -/
def hidden (x : FVec Ideal S65536x128 .f32) (ei : IVec S2x1048576 32) (ea : FVec Ideal S1048576x32 .f32)
    (We1 : FVec Ideal S32x128 .f32) (be1 : FVec Ideal S128 .f32) (W1 : FVec Ideal S128x128 .f32)
    (b1 g1 bt1 m1 v1 : FVec Ideal S128 .f32) : FVec Ideal S65536x128 .bf16 :=
  let xb : FVec Ideal S65536x128 .bf16 := truncf .bf16 x bitsLt_bf16_f32
  let eab : FVec Ideal S1048576x32 .bf16 := truncf .bf16 ea bitsLt_bf16_f32
  let sc1 := scale g1 v1
  let msg1 : FVec Ideal S1048576x128 .f32 := Cert.Spec.edgeMsg (gatherSrc ei xb) eab (truncf .bf16 We1 bitsLt_bf16_f32) (row128 be1)
  Cert.Spec.nodeUpd xb (aggregate ei msg1) (foldW W1 sc1) (row128 (foldB b1 sc1 (shift bt1 m1 sc1)))

/-- The per-graph sums of the squashed second-convolution features. -/
def pooledSum (h : FVec Ideal S65536x128 .bf16) (ei : IVec S2x1048576 32) (ea : FVec Ideal S1048576x32 .f32) (batch : IVec S65536 32)
    (We2 : FVec Ideal S32x128 .f32) (be2 : FVec Ideal S128 .f32) (W2 : FVec Ideal S128x128 .f32)
    (b2 g2 bt2 m2 v2 : FVec Ideal S128 .f32) : FVec Ideal S64x128 .f32 :=
  let eab : FVec Ideal S1048576x32 .bf16 := truncf .bf16 ea bitsLt_bf16_f32
  let sc2 := scale g2 v2
  let msg2 : FVec Ideal S1048576x128 .f32 := Cert.Spec.edgeMsg (gatherSrc ei h) eab (truncf .bf16 We2 bitsLt_bf16_f32) (row128 be2)
  let part : FVec Ideal S2x64x128 .f32 := Cert.Spec.poolPart h (aggregate ei msg2) (foldW W2 sc2) (row128 (foldB b2 sc2 (shift bt2 m2 sc2)))
    (shapeCast S65536x1 batch shapeCasts_S65536_S65536x1)
  Host.reduceAdd part (constant S_ .f32 0x00000000#32) reducesTo_S2x64x128_S64x128_d0 h_S_

/-- The per-graph means. -/
def pooled (psum : FVec Ideal S64x128 .f32) (batch : IVec S65536 32) : FVec Ideal S64x128 .f32 :=
  Host.divf psum (broadcastInDim S64x128 ![0, 1] bcast_S64x1_S64x128_0_1 (broadcastInDim S64x1 ![0] bcast_S64_S64x1_0 (count batch)))

/-- The program's result. -/
def out (x : FVec Ideal S65536x128 .f32) (ei : IVec S2x1048576 32) (ea : FVec Ideal S1048576x32 .f32) (batch : IVec S65536 32)
    (We1 : FVec Ideal S32x128 .f32) (be1 : FVec Ideal S128 .f32) (W1 : FVec Ideal S128x128 .f32) (b1 g1 bt1 m1 v1 : FVec Ideal S128 .f32)
    (We2 : FVec Ideal S32x128 .f32) (be2 : FVec Ideal S128 .f32) (W2 : FVec Ideal S128x128 .f32) (b2 g2 bt2 m2 v2 : FVec Ideal S128 .f32)
    (Wa1 : FVec Ideal S128x128 .f32) (ba1 ga1 bta1 ma1 va1 : FVec Ideal S128 .f32)
    (Wa2 : FVec Ideal S128x128 .f32) (ba2 ga2 bta2 ma2 va2 : FVec Ideal S128 .f32)
    (Wa3 : FVec Ideal S128x32 .f32) (ba3 : FVec Ideal S32 .f32) : FVec Ideal S64x32 .f32 :=
  let h := hidden x ei ea We1 be1 W1 b1 g1 bt1 m1 v1
  let p := pooled (pooledSum h ei ea batch We2 be2 W2 b2 g2 bt2 m2 v2) batch
  let sa1 := scale ga1 va1
  let sa2 := scale ga2 va2
  Cert.Spec.head (truncf .bf16 p bitsLt_bf16_f32)
    (foldW Wa1 sa1) (row128 (foldB ba1 sa1 (shift bta1 ma1 sa1)))
    (foldW Wa2 sa2) (row128 (foldB ba2 sa2 (shift bta2 ma2 sa2)))
    (truncf .bf16 Wa3 bitsLt_bf16_f32) (row32 ba3)

end Cert.KernelIdeal.KSpec

end
-- ==== Proof.KW1.lean ====
import proofs.«427628_j74397423501380_3_alg».proof.Proof.Gen.KernelIdeal.Frame
import proofs.«427628_j74397423501380_3_alg».proof.Proof.KSpec

import Idealize.ShloMosaic.Lib.StableHlo.Run

set_option maxRecDepth 16384

noncomputable section

namespace Cert.KernelIdeal.KW1

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A buffer's contents after a line of operations, read back to the launch contents: an operation that does not
    write the buffer leaves it (its written set is one reference, told apart from the buffer's as references), and
    the one that writes it applies its function to its operands' contents. -/
local macro "read_back" : tactic =>
  `(tactic| (simp only [StableHlo.after_cons, StableHlo.after_nil]
             repeat (first
               | simp (disch := exact Finset.notMem_singleton.mpr (StableHlo.devRef_ne_of_ne (by decide))) only
                   [HloOp.result_of_not_mem]
               | simp only [StableHlo.nullary_result', StableHlo.unary_result', StableHlo.binary_result',
                   StableHlo.ternary_result', StableHlo.reshape_result'])))

/-! What the buffers written before the first tiled stage hold when it starts, as functions of the launch arrays. -/

theorem v14 (c : Dev nD) : W1 m ρ c (Proc.devRef .tc main_v14) = KSpec.foldW (m ((c : Thread nD τ).loc main_arg6)) (KSpec.scale (m ((c : Thread nD τ).loc main_arg8)) (m ((c : Thread nD τ).loc main_arg11))) := by
  show StableHlo.after hostOps0 (W0 m ρ c) (Proc.devRef .tc main_v14) = _
  read_back
  first | done | rfl
theorem v16 (c : Dev nD) : W1 m ρ c (Proc.devRef .tc main_v16) = KSpec.foldB (m ((c : Thread nD τ).loc main_arg7)) (KSpec.scale (m ((c : Thread nD τ).loc main_arg8)) (m ((c : Thread nD τ).loc main_arg11))) (KSpec.shift (m ((c : Thread nD τ).loc main_arg9)) (m ((c : Thread nD τ).loc main_arg10)) (KSpec.scale (m ((c : Thread nD τ).loc main_arg8)) (m ((c : Thread nD τ).loc main_arg11)))) := by
  show StableHlo.after hostOps0 (W0 m ρ c) (Proc.devRef .tc main_v16) = _
  read_back
  first | done | rfl
theorem v26 (c : Dev nD) : W1 m ρ c (Proc.devRef .tc main_v26) = KSpec.foldW (m ((c : Thread nD τ).loc main_arg14)) (KSpec.scale (m ((c : Thread nD τ).loc main_arg16)) (m ((c : Thread nD τ).loc main_arg19))) := by
  show StableHlo.after hostOps0 (W0 m ρ c) (Proc.devRef .tc main_v26) = _
  read_back
  first | done | rfl
theorem v28 (c : Dev nD) : W1 m ρ c (Proc.devRef .tc main_v28) = KSpec.foldB (m ((c : Thread nD τ).loc main_arg15)) (KSpec.scale (m ((c : Thread nD τ).loc main_arg16)) (m ((c : Thread nD τ).loc main_arg19))) (KSpec.shift (m ((c : Thread nD τ).loc main_arg17)) (m ((c : Thread nD τ).loc main_arg18)) (KSpec.scale (m ((c : Thread nD τ).loc main_arg16)) (m ((c : Thread nD τ).loc main_arg19)))) := by
  show StableHlo.after hostOps0 (W0 m ρ c) (Proc.devRef .tc main_v28) = _
  read_back
  first | done | rfl
theorem v38 (c : Dev nD) : W1 m ρ c (Proc.devRef .tc main_v38) = KSpec.foldW (m ((c : Thread nD τ).loc main_arg20)) (KSpec.scale (m ((c : Thread nD τ).loc main_arg22)) (m ((c : Thread nD τ).loc main_arg25))) := by
  show StableHlo.after hostOps0 (W0 m ρ c) (Proc.devRef .tc main_v38) = _
  read_back
  first | done | rfl
theorem v40 (c : Dev nD) : W1 m ρ c (Proc.devRef .tc main_v40) = KSpec.foldB (m ((c : Thread nD τ).loc main_arg21)) (KSpec.scale (m ((c : Thread nD τ).loc main_arg22)) (m ((c : Thread nD τ).loc main_arg25))) (KSpec.shift (m ((c : Thread nD τ).loc main_arg23)) (m ((c : Thread nD τ).loc main_arg24)) (KSpec.scale (m ((c : Thread nD τ).loc main_arg22)) (m ((c : Thread nD τ).loc main_arg25)))) := by
  show StableHlo.after hostOps0 (W0 m ρ c) (Proc.devRef .tc main_v40) = _
  read_back
  first | done | rfl
theorem v50 (c : Dev nD) : W1 m ρ c (Proc.devRef .tc main_v50) = KSpec.foldW (m ((c : Thread nD τ).loc main_arg26)) (KSpec.scale (m ((c : Thread nD τ).loc main_arg28)) (m ((c : Thread nD τ).loc main_arg31))) := by
  show StableHlo.after hostOps0 (W0 m ρ c) (Proc.devRef .tc main_v50) = _
  read_back
  first | done | rfl
theorem v52 (c : Dev nD) : W1 m ρ c (Proc.devRef .tc main_v52) = KSpec.foldB (m ((c : Thread nD τ).loc main_arg27)) (KSpec.scale (m ((c : Thread nD τ).loc main_arg28)) (m ((c : Thread nD τ).loc main_arg31))) (KSpec.shift (m ((c : Thread nD τ).loc main_arg29)) (m ((c : Thread nD τ).loc main_arg30)) (KSpec.scale (m ((c : Thread nD τ).loc main_arg28)) (m ((c : Thread nD τ).loc main_arg31)))) := by
  show StableHlo.after hostOps0 (W0 m ρ c) (Proc.devRef .tc main_v52) = _
  read_back
  first | done | rfl
theorem v53 (c : Dev nD) : W1 m ρ c (Proc.devRef .tc main_v53) = (truncf .bf16 ((m ((c : Thread nD τ).loc main_arg4)) : FVec Ideal S32x128 .f32) Cert.KernelIdeal.Facts₀.bitsLt_bf16_f32 : FVec Ideal S32x128 .bf16) := by
  show StableHlo.after hostOps0 (W0 m ρ c) (Proc.devRef .tc main_v53) = _
  read_back
  first | done | rfl
theorem v54 (c : Dev nD) : W1 m ρ c (Proc.devRef .tc main_v54) = (truncf .bf16 ((m ((c : Thread nD τ).loc main_arg12)) : FVec Ideal S32x128 .f32) Cert.KernelIdeal.Facts₀.bitsLt_bf16_f32 : FVec Ideal S32x128 .bf16) := by
  show StableHlo.after hostOps0 (W0 m ρ c) (Proc.devRef .tc main_v54) = _
  read_back
  first | done | rfl
theorem v55 (c : Dev nD) : W1 m ρ c (Proc.devRef .tc main_v55) = (truncf .bf16 ((m ((c : Thread nD τ).loc main_arg2)) : FVec Ideal S1048576x32 .f32) Cert.KernelIdeal.Facts₀.bitsLt_bf16_f32 : FVec Ideal S1048576x32 .bf16) := by
  show StableHlo.after hostOps0 (W0 m ρ c) (Proc.devRef .tc main_v55) = _
  read_back
  first | done | rfl
theorem v56 (c : Dev nD) : W1 m ρ c (Proc.devRef .tc main_v56) = (truncf .bf16 ((m ((c : Thread nD τ).loc main_arg0)) : FVec Ideal S65536x128 .f32) Cert.KernelIdeal.Facts₀.bitsLt_bf16_f32 : FVec Ideal S65536x128 .bf16) := by
  show StableHlo.after hostOps0 (W0 m ρ c) (Proc.devRef .tc main_v56) = _
  read_back
  first | done | rfl
theorem v63 (c : Dev nD) : W1 m ρ c (Proc.devRef .tc main_v63) = KSpec.gatherSrc (m ((c : Thread nD τ).loc main_arg1)) (truncf .bf16 (m ((c : Thread nD τ).loc main_arg0)) Cert.KernelIdeal.Facts₀.bitsLt_bf16_f32) := by
  show StableHlo.after hostOps0 (W0 m ρ c) (Proc.devRef .tc main_v63) = _
  read_back
  first | done | rfl
theorem v64 (c : Dev nD) : W1 m ρ c (Proc.devRef .tc main_v64) = KSpec.row128 (m ((c : Thread nD τ).loc main_arg5)) := by
  show StableHlo.after hostOps0 (W0 m ρ c) (Proc.devRef .tc main_v64) = _
  read_back
  first | done | rfl
theorem v4 (c : Dev nD) : W1 m ρ c (Proc.devRef .tc main_v4) = shapeCast S65536x1 (m ((c : Thread nD τ).loc main_arg3)) Cert.KernelIdeal.Facts₀.shapeCasts_S65536_S65536x1 := by
  show StableHlo.after hostOps0 (W0 m ρ c) (Proc.devRef .tc main_v4) = _
  read_back
  first | done | rfl
/-- The edge list's two rows, flattened: what the later gathers and scatter-adds index with. -/
theorem v1 (c : Dev nD) : W1 m ρ c (Proc.devRef .tc main_v1) = shapeCast S1048576 (extractStridedSlice S1x1048576 ![0, 0] (m ((c : Thread nD τ).loc main_arg1)) Cert.KernelIdeal.Facts₀.slices_S2x1048576_S1x1048576_0_0) Cert.KernelIdeal.Facts₀.shapeCasts_S1x1048576_S1048576 := by
  show StableHlo.after hostOps0 (W0 m ρ c) (Proc.devRef .tc main_v1) = _
  read_back
  first | done | rfl
theorem v3 (c : Dev nD) : W1 m ρ c (Proc.devRef .tc main_v3) = shapeCast S1048576 (extractStridedSlice S1x1048576 ![1, 0] (m ((c : Thread nD τ).loc main_arg1)) Cert.KernelIdeal.Facts₀.slices_S2x1048576_S1x1048576_1_0) Cert.KernelIdeal.Facts₀.shapeCasts_S1x1048576_S1048576 := by
  show StableHlo.after hostOps0 (W0 m ρ c) (Proc.devRef .tc main_v3) = _
  read_back
  first | done | rfl
/-- An argument array is never written: at the first stage's start it holds its launch contents. -/
theorem arg (c : Dev nD) (b : Ref sig .tc) (hb : b ∈ [main_arg1, main_arg3, main_arg13, main_arg32, main_arg33]) :
    W1 m ρ c (Proc.devRef .tc b) = m ((c : Thread nD τ).loc b) := by
  simp only [List.mem_cons, List.not_mem_nil, or_false] at hb
  rcases hb with rfl | rfl | rfl | rfl | rfl <;>
  · show StableHlo.after hostOps0 (W0 m ρ c) (Proc.devRef .tc _) = _
    read_back
    first | done | rfl

end Cert.KernelIdeal.KW1

end
-- ==== Proof.Reg0.lean ====
import proofs.«427628_j74397423501380_3_alg».proof.Proof.Gen.KernelIdeal.Frame
import proofs.«427628_j74397423501380_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-buffer load or store, however spelt. -/
theorem zeroOffsets : (![0, 0] : Fin 2 → Nat) = fun _ => 0 := funext fun a => by fin_cases a <;> rfl

/-! ## The edge's linear image: a block of 8192 attribute rows times the 32×128 weights -/

/-- The attribute operand is read at the output's row. -/
theorem lhs_edgeLin_0 (i : S8192x128.Idx) (q : dot_S8192x32_S32x128_S8192x128_1_0_0_1_n_n.contr.Idx) :
    (dot_S8192x32_S32x128_S8192x128_1_0_0_1_n_n.lhsIdx i q 0).val = (i 0).val := by
  unfold DotDims.lhsIdx
  rw [dif_neg (show ¬(0 : Fin S8192x32.rank) ∈ dot_S8192x32_S32x128_S8192x128_1_0_0_1_n_n.lhsBatch by decide), dif_pos (show (0 : Fin S8192x32.rank) ∈ dot_S8192x32_S32x128_S8192x128_1_0_0_1_n_n.lhsNonContracting by decide)]
  rfl
/-- The attribute operand's column is the summation position. -/
theorem lhs_edgeLin_1 (i : S8192x128.Idx) (q : dot_S8192x32_S32x128_S8192x128_1_0_0_1_n_n.contr.Idx) :
    (dot_S8192x32_S32x128_S8192x128_1_0_0_1_n_n.lhsIdx i q 1).val = (q ⟨0, by decide⟩).val :=
  dot_S8192x32_S32x128_S8192x128_1_0_0_1_n_n.lhsIdx_val_of_single rfl i q
/-- The weights' row is the summation position. -/
theorem rhs_edgeLin_0 (i : S8192x128.Idx) (q : dot_S8192x32_S32x128_S8192x128_1_0_0_1_n_n.contr.Idx) :
    (dot_S8192x32_S32x128_S8192x128_1_0_0_1_n_n.rhsIdx i q 0).val = (q ⟨0, by decide⟩).val :=
  dot_S8192x32_S32x128_S8192x128_1_0_0_1_n_n.rhsIdx_val_of_single rfl i q
/-- The weights are read at the output's column. -/
theorem rhs_edgeLin_1 (i : S8192x128.Idx) (q : dot_S8192x32_S32x128_S8192x128_1_0_0_1_n_n.contr.Idx) :
    (dot_S8192x32_S32x128_S8192x128_1_0_0_1_n_n.rhsIdx i q 1).val = (i 1).val := by
  unfold DotDims.rhsIdx
  rw [dif_neg (show ¬(1 : Fin S32x128.rank) ∈ dot_S8192x32_S32x128_S8192x128_1_0_0_1_n_n.rhsBatch by decide), dif_pos (show (1 : Fin S32x128.rank) ∈ dot_S8192x32_S32x128_S8192x128_1_0_0_1_n_n.rhsNonContracting by decide)]
  rfl

/-- The block product into a zero accumulator, at row `p` and column `q`, is row `p` of the attributes times
    column `q` of the weights. -/
theorem edgeLin_apply (a : FVec Ideal S8192x32 .bf16) (w : FVec Ideal S32x128 .bf16) (p : Fin 8192) (q : Fin 128) :
    matmul dot_S8192x32_S32x128_S8192x128_1_0_0_1_n_n none a w (constant (F := Ideal) S8192x128 .f32 0x00000000#32) (ix2 p q)
      = ∑ k : Fin 32, a (ix2 p k) * w (ix2 k q) := by
  show FloatOps.matmul dot_S8192x32_S32x128_S8192x128_1_0_0_1_n_n none a w (constant (F := Ideal) S8192x128 .f32 0x00000000#32) (ix2 p q) = _
  rw [Ideal.matmul_constant_zero_apply, ← Equiv.sum_comp (ValueIdx.contrEquiv1 dot_S8192x32_S32x128_S8192x128_1_0_0_1_n_n 32 rfl rfl).symm]
  refine Finset.sum_congr rfl fun k _ => ?_
  have hk := ValueIdx.contrEquiv1_symm_val dot_S8192x32_S32x128_S8192x128_1_0_0_1_n_n 32 rfl rfl k
  have el : dot_S8192x32_S32x128_S8192x128_1_0_0_1_n_n.lhsIdx (ix2 p q) ((ValueIdx.contrEquiv1 dot_S8192x32_S32x128_S8192x128_1_0_0_1_n_n 32 rfl rfl).symm k) = ix2 p k := funext fun ax => Fin.ext (by
    match ax with
    | ⟨0, _⟩ => exact lhs_edgeLin_0 _ _
    | ⟨1, _⟩ => exact (lhs_edgeLin_1 _ _).trans hk)
  have er : dot_S8192x32_S32x128_S8192x128_1_0_0_1_n_n.rhsIdx (ix2 p q) ((ValueIdx.contrEquiv1 dot_S8192x32_S32x128_S8192x128_1_0_0_1_n_n 32 rfl rfl).symm k) = ix2 k q := funext fun ax => Fin.ext (by
    match ax with
    | ⟨0, _⟩ => exact (rhs_edgeLin_0 _ _).trans hk
    | ⟨1, _⟩ => exact rhs_edgeLin_1 _ _)
  rw [el, er]

/-! ## The body's arithmetic at an entry -/

/-- What the body stores at row `p`, column `q` of its block: the gathered entry plus the attribute row's linear image
    plus the bias entry of that column, clipped at zero. -/
theorem blockMsg_apply (g : Vec Ideal S8192x128 .bf16) (ea : Vec Ideal S8192x32 .bf16) (we : Vec Ideal S32x128 .bf16)
    (be : Vec Ideal S1x128 .f32) (p : Fin 8192) (q : Fin 128) :
    (k0_pay1 (F := Ideal) ea we g be) (ix2 p q)
      = max (g (ix2 p q) + (∑ k : Fin 32, ea (ix2 p k) * we (ix2 k q)) + be (ix2 0 q)) 0 := by
  unfold k0_pay1
  simp only [shapeCast_self]
  rw [maximumf_apply, addf_apply, addf_apply, extf_apply, broadcast_apply, edgeLin_apply, broadcastTo_1b_ab_apply]
  show max _ (Ideal.ofBits .f32 0x00000000#32) = _
  rw [Ideal.ofBits_zero_f32]

/-! ## Which rows each grid point sees -/

/-- The printed index maps over the 128 grid points: the gathered rows, the edge attributes and the output move with
    the point along the rows; the weights and the bias stay at their one block. -/
theorem gridIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The gathered block at point `t` is rows `8192·t … 8192·t + 8191` of the gathered array. -/
theorem gatheredBlock_apply (c : Dev nD) (t : Fin cfg0.N) (x : S8192x128.Idx) (k : S1048576x128.Idx)
    (hk0 : (k 0).val = 8192 * t.val + (x 0).val) (hk1 : (k 1).val = (x 1).val) :
    (iblk0 V c 0 t : Vec Ideal S8192x128 .bf16) x = (V c main_v63 : S1048576x128.Idx → EReal) k := by
  obtain ⟨e0, e1, -⟩ := gridIndex t
  unfold iblk0
  rw [View.read_apply]
  show V c main_v63 _ = V c main_v63 _
  congr 1
  funext a
  apply Fin.ext
  match a with
  | ⟨0, _⟩ => show win0_0.index t (0 : Fin 2) * 8192 + 1 * (x 0).val = (k 0).val; rw [e0, hk0]; omega
  | ⟨1, _⟩ => show win0_0.index t (1 : Fin 2) * 128 + 1 * (x 1).val = (k 1).val; rw [e1, hk1]; omega

/-- The attribute block at point `t` is the same rows of the edge attributes. -/
theorem attrBlock_apply (c : Dev nD) (t : Fin cfg0.N) (x : S8192x32.Idx) (k : S1048576x32.Idx)
    (hk0 : (k 0).val = 8192 * t.val + (x 0).val) (hk1 : (k 1).val = (x 1).val) :
    (iblk0 V c 1 t : Vec Ideal S8192x32 .bf16) x = (V c main_v55 : S1048576x32.Idx → EReal) k := by
  obtain ⟨-, -, e0, e1, -⟩ := gridIndex t
  unfold iblk0
  rw [View.read_apply]
  show V c main_v55 _ = V c main_v55 _
  congr 1
  funext a
  apply Fin.ext
  match a with
  | ⟨0, _⟩ => show win0_1.index t (0 : Fin 2) * 8192 + 1 * (x 0).val = (k 0).val; rw [e0, hk0]; omega
  | ⟨1, _⟩ => show win0_1.index t (1 : Fin 2) * 32 + 1 * (x 1).val = (k 1).val; rw [e1, hk1]; omega

/-- The weights' block at every point is the whole weight matrix. -/
theorem weightBlock_apply (c : Dev nD) (t : Fin cfg0.N) (x : S32x128.Idx) :
    (iblk0 V c 2 t : Vec Ideal S32x128 .bf16) x = (V c main_v53 : S32x128.Idx → EReal) x := by
  obtain ⟨-, -, -, -, e0, e1, -⟩ := gridIndex t
  unfold iblk0
  rw [View.read_apply]
  show V c main_v53 _ = V c main_v53 _
  congr 1
  funext a
  apply Fin.ext
  match a with
  | ⟨0, _⟩ => show win0_2.index t (0 : Fin 2) * 32 + 1 * (x 0).val = (x 0).val; rw [e0]; omega
  | ⟨1, _⟩ => show win0_2.index t (1 : Fin 2) * 128 + 1 * (x 1).val = (x 1).val; rw [e1]; omega

/-- The bias block at every point is the whole bias row. -/
theorem biasBlock_apply (c : Dev nD) (t : Fin cfg0.N) (x : S1x128.Idx) :
    (iblk0 V c 3 t : Vec Ideal S1x128 .f32) x = (V c main_v64 : S1x128.Idx → EReal) x := by
  obtain ⟨-, -, -, -, -, -, e0, e1, -⟩ := gridIndex t
  unfold iblk0
  rw [View.read_apply]
  show V c main_v64 _ = V c main_v64 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 128 + 1 * (x 1).val = (x 1).val; rw [e1]; omega

/-! ## What a grid point writes back -/

/-- If the four loaded blocks are the rows of edge `r` and the whole weights and bias, the body's entry at row `p`,
    column `q` is edge `r`'s message at `q`. -/
theorem msg_of_blocks (g : Vec Ideal S8192x128 .bf16) (ea : Vec Ideal S8192x32 .bf16) (we : Vec Ideal S32x128 .bf16)
    (be : Vec Ideal S1x128 .f32) (G : Cert.Spec.Arr2 1048576 128) (EA : Cert.Spec.Arr2 1048576 32)
    (WE : Cert.Spec.Arr2 32 128) (BE : Cert.Spec.Arr2 1 128) (p : Fin 8192) (q : Fin 128) (r : Fin 1048576)
    (hg : g (ix2 p q) = G (ix2 r q)) (hea : ∀ k : Fin 32, ea (ix2 p k) = EA (ix2 r k))
    (hwe : ∀ k : Fin 32, we (ix2 k q) = WE (ix2 k q)) (hbe : be (ix2 0 q) = BE (ix2 0 q)) :
    (k0_pay1 (F := Ideal) ea we g be) (ix2 p q) = Cert.Spec.edgeMsg G EA WE BE (ix2 r q) := by
  rw [blockMsg_apply, hg, hbe]
  simp only [hea, hwe]
  rfl

/-- Row `p` of point `t`'s result is edge `8192·t + p`'s message. -/
theorem blockMsg_eq_edgeMsg (c : Dev nD) (t : Fin cfg0.N) (p : Fin 8192) (q : Fin 128) (r : Fin 1048576)
    (hr : r.val = 8192 * t.val + p.val) :
    k0_pay1 (F := Ideal) (iblk0 V c 1 t) (iblk0 V c 2 t) (iblk0 V c 0 t) (iblk0 V c 3 t) (ix2 p q)
      = Cert.Spec.edgeMsg (V c main_v63) (V c main_v55) (V c main_v53) (V c main_v64) (ix2 r q) :=
  msg_of_blocks (iblk0 V c 0 t) (iblk0 V c 1 t) (iblk0 V c 2 t) (iblk0 V c 3 t)
    (V c main_v63) (V c main_v55) (V c main_v53) (V c main_v64) p q r
    (gatheredBlock_apply V c t (ix2 p q) (ix2 r q) hr rfl)
    (fun k => attrBlock_apply V c t (ix2 p k) (ix2 r k) hr rfl)
    (fun k => weightBlock_apply V c t (ix2 k q))
    (biasBlock_apply V c t (ix2 0 q))

/-- WHAT POINT `t` WRITES BACK is block `t` of the edge messages of the arrays as the region finds them. -/
theorem writeback_eq (c : Dev nD) (t : Fin cfg0.N) :
    (dat0 (F := Ideal) V c).flushed 4 t = ((cfg0.win 4).blk t).view.read (Elt Ideal)
      (Cert.Spec.edgeMsg (V c main_v63) (V c main_v55) (V c main_v53) (V c main_v64)) := by
  show (cfg0.win 4).cut (grid0.coords t) ((dat0 V c).after 4 t) = _
  rw [after0_4]
  unfold out0_4
  rw [View.canon_unit_zero zeroOffsets]
  simp only [View.ld_unit_zero (S := S8192x128) zeroOffsets, View.ld_unit_zero (S := S8192x32) zeroOffsets,
    View.ld_unit_zero (S := S32x128) zeroOffsets, View.ld_unit_zero (S := S1x128) zeroOffsets]
  obtain ⟨-, -, -, -, -, -, -, -, e0, e1⟩ := gridIndex t
  funext j
  obtain ⟨p, q, rfl⟩ : ∃ (p : Fin 8192) (q : Fin 128), j = ix2 p q := ⟨j 0, j 1, eq_ix2 j⟩
  have hp : p.val < 8192 := p.isLt
  have ht : t.val < 128 := by have h := t.isLt; have hN : cfg0.N = 128 := N_0; omega
  show k0_pay1 (F := Ideal) (iblk0 V c 1 t) (iblk0 V c 2 t) (iblk0 V c 0 t) (iblk0 V c 3 t) (ix2 p q)
      = Cert.Spec.edgeMsg (V c main_v63) (V c main_v55) (V c main_v53) (V c main_v64) (((cfg0.win 4).blk t).view.emb (ix2 p q))
  have hi : ((cfg0.win 4).blk t).view.emb (ix2 p q) = (ix2 (⟨8192 * t.val + p.val, by omega⟩ : Fin 1048576) q : S1048576x128.Idx) := by
    funext a
    apply Fin.ext
    match a with
    | ⟨0, _⟩ => show win0_4.index t (0 : Fin 2) * 8192 + 1 * p.val = 8192 * t.val + p.val; rw [e0]; omega
    | ⟨1, _⟩ => show win0_4.index t (1 : Fin 2) * 128 + 1 * q.val = q.val; rw [e1]; omega
  rw [hi]
  exact blockMsg_eq_edgeMsg V c t p q _ rfl

/-! ## The blocks tile the array -/

/-- An index of the output array is in point `t`'s block iff each coordinate is in the block's range on its axis. -/
theorem mem_outBlock (t : Fin cfg0.N) (i : S1048576x128.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole main_v65).slice (win0_4.rect t)).set ↔ _
  rw [View.set_slice_whole, Rect.mem_set_unit]
  exact Iff.rfl

/-- Row `r` is written by point `r / 8192`. -/
theorem covered (i : S1048576x128.Idx) :
    ∃ t : Fin cfg0.N, (cfg0.win 4).flush t = true ∧ i ∈ ((cfg0.win 4).blk t).view.set := by
  have hi0 : (i 0).val < 1048576 := (i 0).isLt
  have hi1 : (i 1).val < 128 := (i 1).isLt
  have hN : cfg0.N = 128 := N_0
  let t : Fin cfg0.N := ⟨(i 0).val / 8192, by rw [hN]; omega⟩
  have htv : t.val = (i 0).val / 8192 := rfl
  obtain ⟨-, -, -, -, -, -, -, -, e0, e1⟩ := gridIndex t
  refine ⟨t, flush0_4 t, ?_⟩
  rw [mem_outBlock]
  intro a
  match a with
  | ⟨0, _⟩ => show win0_4.index t (0 : Fin 2) * 8192 ≤ (i 0).val ∧ (i 0).val < win0_4.index t (0 : Fin 2) * 8192 + 8192; rw [e0, htv]; omega
  | ⟨1, _⟩ => show win0_4.index t (1 : Fin 2) * 128 ≤ (i 1).val ∧ (i 1).val < win0_4.index t (1 : Fin 2) * 128 + 128; rw [e1]; omega

/-- After the first message stage the output array holds, edge by edge, the clipped sum of the gathered row, the edge's
    linear image and the bias: each of the 128 grid points writes rows 8192·t … 8192·t + 8191. -/
theorem final (c : Dev nD) :
    (dat0 (F := Ideal) V c).arrAt 4 cfg0.N
      = Cert.Spec.edgeMsg (V c main_v63) (V c main_v55) (V c main_v53) (V c main_v64) :=
  (dat0 (F := Ideal) V c).arrAt_eq_of_cover 4 _ (fun t _ => writeback_eq V c t) covered

end Cert.KernelIdeal.Reg0

end
-- ==== Proof.Reg1.lean ====
/-
  Region 1, the first node update: each of the 8 grid points takes 8192 rows of the feature array and of the aggregate
  array, adds them, multiplies the sum by the 128×128 weights, adds the bias row and clips at zero; the 8 blocks of rows
  tile the 65536-row output, so the output array is the node update of the four arrays, entry by entry.
-/
import proofs.«427628_j74397423501380_3_alg».proof.Proof.Gen.KernelIdeal.Frame
import proofs.«427628_j74397423501380_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg1

open Idealize.ShloMosaic Idealize.ShloMosaic.TcCoe Idealize.SL.Sem
open Idealize.ShloMosaic.Pipeline (Dat Cfg Window)
open Cert.KernelIdeal Cert.KernelIdeal.Gen
open Idealize.ShloMosaic.ValueIdx

variable (V : (c : Dev nD) → (b : Ref sig .tc) → Buf (Elt Ideal) ((c : Thread nD τ).loc b))

/-! ## The weight product at an entry -/

/-- The left operand's row coordinate at output entry `i` is the entry's row. -/
theorem lhs_axis0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
/-- The left operand's column coordinate is the summation index. -/
theorem lhs_axis1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- The right operand's row coordinate is the summation index. -/
theorem rhs_axis0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- The right operand's column coordinate at output entry `i` is the entry's column. -/
theorem rhs_axis1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A block of 8192 rows times the 128×128 weights, accumulated into zeros, read at row `p` and column `q`: the sum over
    `k` of the row's `k`-th entry times the weights' entry `(k, q)`. -/
theorem rowsTimesWeights_at (a : FVec Ideal S8192x128 .bf16) (w : FVec Ideal S128x128 .bf16) (p : Fin 8192) (q : Fin 128) :
    matmul dot_S8192x128_S128x128_S8192x128_1_0_0_1_n_n none a w (constant (F := Ideal) S8192x128 .f32 0x00000000#32) (ix2 p q)
      = ∑ k : Fin 128, a (ix2 p k) * w (ix2 k q) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 p q) ((ValueIdx.contrEquiv1 dot_S8192x128_S128x128_S8192x128_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S8192x128_S128x128_S8192x128_1_0_0_1_n_n.rhsIdx (ix2 p q) ((ValueIdx.contrEquiv1 dot_S8192x128_S128x128_S8192x128_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-! ## The body's arithmetic at an entry -/

/-- The body's result at row `p`, column `q` of a block: the features' row plus the aggregate's row, times the weights'
    column, plus the bias at `q`, clipped at zero (the two format changes are the identity on the extended reals). -/
theorem body_at (x : Vec Ideal S8192x128 .bf16) (g : Vec Ideal S8192x128 .f32) (w : Vec Ideal S128x128 .bf16) (b : Vec Ideal S1x128 .f32)
    (p : Fin 8192) (q : Fin 128) :
    k1_pay1 (F := Ideal) x g w b (ix2 p q)
      = max ((∑ k : Fin 128, (x (ix2 p k) + g (ix2 p k)) * w (ix2 k q)) + b (ix2 (0 : Fin 1) q)) 0 := by
  unfold k1_pay1
  simp only [shapeCast_self]
  rw [truncf_apply, maximumf_apply, addf_apply, broadcast_apply]
  rw [rowsTimesWeights_at, broadcastTo_1b_ab_apply]
  simp only [truncf_apply, addf_apply, extf_apply]
  exact congrArg (max _) Ideal.ofBits_zero_f32

/-! ## Which rows a block holds -/

/-- The zero offsets of a whole-buffer access, as the constant function. -/
theorem hz : (![0, 0] : Fin 2 → Nat) = fun _ => 0 := funext fun a => by fin_cases a <;> rfl

/-- The printed index maps over the 8 grid points: the feature, aggregate and output windows sit at block row `t`, column
    block 0; the weights and the bias stay at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature window's block at point `t` is rows `8192·t … 8192·t + 8191` of the feature array. -/
theorem featBlock_at (c : Dev nD) (t : Fin cfg1.N) (p : Fin 8192) (k : Fin 128) (r : Fin 65536)
    (hr : r.val = 8192 * t.val + p.val) :
    (iblk1 (F := Ideal) V c 0 t : Vec Ideal S8192x128 .bf16) (ix2 p k) = (V c main_v56 : Spec.Arr2 65536 128) (ix2 r k) := by
  obtain ⟨e0, e1, -⟩ := index_facts t
  unfold iblk1
  rw [View.read_apply]
  show V c main_v56 _ = V c main_v56 _
  congr 1
  funext a
  apply Fin.ext
  match a with
  | ⟨0, _⟩ => show win1_0.index t (0 : Fin 2) * 8192 + 1 * p.val = r.val; rw [e0, hr]; omega
  | ⟨1, _⟩ => show win1_0.index t (1 : Fin 2) * 128 + 1 * k.val = k.val; rw [e1]; omega

/-- The aggregate window's block at point `t` is the same rows of the aggregate array. -/
theorem aggBlock_at (c : Dev nD) (t : Fin cfg1.N) (p : Fin 8192) (k : Fin 128) (r : Fin 65536)
    (hr : r.val = 8192 * t.val + p.val) :
    (iblk1 (F := Ideal) V c 1 t : Vec Ideal S8192x128 .f32) (ix2 p k) = (V c main_v68 : Spec.Arr2 65536 128) (ix2 r k) := by
  obtain ⟨-, -, e0, e1, -⟩ := index_facts t
  unfold iblk1
  rw [View.read_apply]
  show V c main_v68 _ = V c main_v68 _
  congr 1
  funext a
  apply Fin.ext
  match a with
  | ⟨0, _⟩ => show win1_1.index t (0 : Fin 2) * 8192 + 1 * p.val = r.val; rw [e0, hr]; omega
  | ⟨1, _⟩ => show win1_1.index t (1 : Fin 2) * 128 + 1 * k.val = k.val; rw [e1]; omega

/-- The weight window's block is the whole weight array at every point. -/
theorem weightBlock_at (c : Dev nD) (t : Fin cfg1.N) (k q : Fin 128) :
    (iblk1 (F := Ideal) V c 2 t : Vec Ideal S128x128 .bf16) (ix2 k q) = (V c main_v14 : Spec.Arr2 128 128) (ix2 k q) := by
  obtain ⟨-, -, -, -, e0, e1, -⟩ := index_facts t
  unfold iblk1
  rw [View.read_apply]
  show V c main_v14 _ = V c main_v14 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias window's block is the whole bias row at every point. -/
theorem biasBlock_at (c : Dev nD) (t : Fin cfg1.N) (q : Fin 128) :
    (iblk1 (F := Ideal) V c 3 t : Vec Ideal S1x128 .f32) (ix2 (0 : Fin 1) q) = (V c main_v69 : Spec.Arr2 1 128) (ix2 (0 : Fin 1) q) := by
  obtain ⟨-, -, -, -, -, -, e0, e1, -⟩ := index_facts t
  unfold iblk1
  rw [View.read_apply]
  show V c main_v69 _ = V c main_v69 _
  congr 1
  funext a
  apply Fin.ext
  match a with
  | ⟨0, _⟩ => show win1_3.index t (0 : Fin 2) * 1 + 1 * (0 : Fin 1).val = (0 : Fin 1).val; rw [e0]; rfl
  | ⟨1, _⟩ => show win1_3.index t (1 : Fin 2) * 128 + 1 * q.val = q.val; rw [e1]; omega

/-! ## A block of the result -/

/-- If a feature block and an aggregate block hold rows `8192·n …` of their arrays, and the weight and bias blocks are
    their arrays, the body's result at an entry of the block is the node update of the arrays at that row. -/
theorem block_entry (X A : Spec.Arr2 65536 128) (Wt : Spec.Arr2 128 128) (B : Spec.Arr2 1 128)
    (x : Vec Ideal S8192x128 .bf16) (g : Vec Ideal S8192x128 .f32) (w : Vec Ideal S128x128 .bf16) (b : Vec Ideal S1x128 .f32)
    (n : Nat) (hn : n < 8)
    (hx : ∀ (p : Fin 8192) (k : Fin 128), x (ix2 p k) = X (ix2 (⟨8192 * n + p.val, by omega⟩ : Fin 65536) k))
    (hg : ∀ (p : Fin 8192) (k : Fin 128), g (ix2 p k) = A (ix2 (⟨8192 * n + p.val, by omega⟩ : Fin 65536) k))
    (hw : ∀ k q : Fin 128, w (ix2 k q) = Wt (ix2 k q)) (hb : ∀ q : Fin 128, b (ix2 (0 : Fin 1) q) = B (ix2 (0 : Fin 1) q))
    (p : Fin 8192) (q : Fin 128) :
    k1_pay1 (F := Ideal) x g w b (ix2 p q) = Spec.nodeUpd X A Wt B (ix2 (⟨8192 * n + p.val, by omega⟩ : Fin 65536) q) := by
  rw [body_at]
  simp only [hx, hg, hw, hb]
  rfl

/-- What point `t` writes back is block `t` of the node update of the arrays as the region finds them. -/
theorem flushed_eq (c : Dev nD) (t : Fin cfg1.N) :
    (dat1 (F := Ideal) V c).flushed 4 t
      = ((cfg1.win 4).blk t).view.read (Elt Ideal)
          (Cert.Spec.nodeUpd (V c main_v56) (V c main_v68) (V c main_v14) (V c main_v69)) := by
  show (cfg1.win 4).cut (grid1.coords t) ((dat1 V c).after 4 t) = _
  rw [after1_4]
  unfold out1_4
  rw [View.canon_unit_zero hz]
  simp only [View.ld_unit_zero (S := S8192x128) hz, View.ld_unit_zero (S := S128x128) hz, View.ld_unit_zero (S := S1x128) hz]
  have ht : t.val < 8 := Nat.lt_of_lt_of_eq t.isLt (show cfg1.N = 8 from N_1)
  obtain ⟨-, -, -, -, -, -, -, -, e0, e1⟩ := index_facts t
  funext j
  rw [View.read_apply]
  have hj0 : (j 0).val < 8192 := (j 0).isLt
  have hj1 : (j 1).val < 128 := (j 1).isLt
  refine (block_entry (V c main_v56) (V c main_v68) (V c main_v14) (V c main_v69)
    (iblk1 V c 0 t) (iblk1 V c 1 t) (iblk1 V c 2 t) (iblk1 V c 3 t) t.val ht
    (fun p k => featBlock_at V c t p k _ rfl) (fun p k => aggBlock_at V c t p k _ rfl)
    (fun k q => weightBlock_at V c t k q) (fun q => biasBlock_at V c t q) ⟨(j 0).val, hj0⟩ ⟨(j 1).val, hj1⟩).trans ?_
  refine congrArg (Cert.Spec.nodeUpd (V c main_v56) (V c main_v68) (V c main_v14) (V c main_v69)) ?_
  funext a
  apply Fin.ext
  match a with
  | ⟨0, _⟩ => show 8192 * t.val + (j 0).val = win1_4.index t (0 : Fin 2) * 8192 + 1 * (j 0).val; rw [e0]; omega
  | ⟨1, _⟩ => show (j 1).val = win1_4.index t (1 : Fin 2) * 128 + 1 * (j 1).val; rw [e1]; omega

/-! ## From blocks to the array -/

/-- An index of the output array is in point `t`'s block iff each coordinate is in the block's range on its axis. -/
theorem mem_block (t : Fin cfg1.N) (i : S65536x128.Idx) :
    i ∈ ((cfg1.win 4).blk t).view.set ↔ ∀ a : Fin 2, win1_4.index t a * S8192x128.size a ≤ (i a).val ∧ (i a).val < win1_4.index t a * S8192x128.size a + S8192x128.size a := by
  show i ∈ ((View.whole main_v70).slice (win1_4.rect t)).set ↔ _
  rw [View.set_slice_whole, Rect.mem_set_unit]
  exact Iff.rfl

/-- Every entry of the output array is written: row `r` by the point `r / 8192`. -/
theorem covered (i : S65536x128.Idx) :
    ∃ t : Fin cfg1.N, (cfg1.win 4).flush t = true ∧ i ∈ ((cfg1.win 4).blk t).view.set := by
  have hi0 : (i 0).val < 65536 := (i 0).isLt
  have hi1 : (i 1).val < 128 := (i 1).isLt
  have hN : cfg1.N = 8 := N_1
  obtain ⟨t, ht⟩ : ∃ t : Fin cfg1.N, t.val = (i 0).val / 8192 := ⟨⟨(i 0).val / 8192, by rw [hN]; omega⟩, rfl⟩
  obtain ⟨-, -, -, -, -, -, -, -, e0, e1⟩ := index_facts t
  refine ⟨t, flush1_4 t, ?_⟩
  rw [mem_block]
  intro a
  match a with
  | ⟨0, _⟩ => show win1_4.index t (0 : Fin 2) * 8192 ≤ (i 0).val ∧ (i 0).val < win1_4.index t (0 : Fin 2) * 8192 + 8192; rw [e0, ht]; omega
  | ⟨1, _⟩ => show win1_4.index t (1 : Fin 2) * 128 ≤ (i 1).val ∧ (i 1).val < win1_4.index t (1 : Fin 2) * 128 + 128; rw [e1]; omega

/-- After the first node update the output array holds, node by node, the clipped dense layer of the node's features plus
    its aggregated messages: each of the 8 grid points writes rows 8192·t … 8192·t + 8191. -/
theorem final (c : Dev nD) :
    (dat1 (F := Ideal) V c).arrAt 4 cfg1.N
      = Cert.Spec.nodeUpd (V c main_v56) (V c main_v68) (V c main_v14) (V c main_v69) :=
  (dat1 (F := Ideal) V c).arrAt_eq_of_cover 4
    (Cert.Spec.nodeUpd (V c main_v56) (V c main_v68) (V c main_v14) (V c main_v69))
    (fun t _ => flushed_eq V c t) covered

end Cert.KernelIdeal.Reg1

end
-- ==== Proof.HiddenV.lean ====
import proofs.«427628_j74397423501380_3_alg».proof.Proof.Gen.KernelIdeal.Frame
import proofs.«427628_j74397423501380_3_alg».proof.Proof.KSpec
import proofs.«427628_j74397423501380_3_alg».proof.Proof.KW1
import proofs.«427628_j74397423501380_3_alg».proof.Proof.Reg0
import proofs.«427628_j74397423501380_3_alg».proof.Proof.Reg1
import Idealize.ShloMosaic.Lib.StableHlo.Run

set_option maxRecDepth 16384

noncomputable section

namespace Cert.KernelIdeal.HiddenV

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The first message stage's output array -/

/-- The first message stage's output array is its fourth window's. -/
theorem arr0_4 : Pipeline.arrRef spec0 4 = main_v65 := by decide

/-- After the first message stage its output array holds the stage's function of the four operand arrays as they
    stood when it started. -/
theorem W2_v65 (c : Dev nD) :
    W2 m ρ c (Proc.devRef .tc main_v65)
      = Cert.Spec.edgeMsg (W1 m ρ c (Proc.devRef .tc main_v63)) (W1 m ρ c (Proc.devRef .tc main_v55))
          (W1 m ρ c (Proc.devRef .tc main_v53)) (W1 m ρ c (Proc.devRef .tc main_v64)) := by
  have h := W2_arr m ρ c 4
  rw [Reg0.final (V1 m ρ) c] at h
  exact h

/-! ## Buffers written before the first stage and read after it

Neither the first message stage (whose arrays are its four operands and its output) nor the five host operations after it
write these: each holds at the first node update's start what it held at the first message stage's. -/

theorem W2_v3 (c : Dev nD) : W2 m ρ c (Proc.devRef .tc main_v3) = W1 m ρ c (Proc.devRef .tc main_v3) :=
  W2_of_ne m ρ c main_v3 (by decide)

theorem W2_v16 (c : Dev nD) : W2 m ρ c (Proc.devRef .tc main_v16) = W1 m ρ c (Proc.devRef .tc main_v16) :=
  W2_of_ne m ρ c main_v16 (by decide)

theorem W3_v56 (c : Dev nD) : W3 m ρ c (Proc.devRef .tc main_v56) = W1 m ρ c (Proc.devRef .tc main_v56) :=
  calc W3 m ρ c (Proc.devRef .tc main_v56)
    _ = W2 m ρ c (Proc.devRef .tc main_v56) := StableHlo.after_of_forall_not_mem (b := Proc.devRef .tc main_v56) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v56) := W2_of_ne m ρ c main_v56 (by decide)

theorem W3_v14 (c : Dev nD) : W3 m ρ c (Proc.devRef .tc main_v14) = W1 m ρ c (Proc.devRef .tc main_v14) :=
  calc W3 m ρ c (Proc.devRef .tc main_v14)
    _ = W2 m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v14) := W2_of_ne m ρ c main_v14 (by decide)

/-! ## The two buffers the host writes between the stages -/

/-- The folded bias as one row: a reshape of the vector computed before the first stage. -/
theorem W3_v69 (c : Dev nD) :
    W3 m ρ c (Proc.devRef .tc main_v69) = KSpec.row128 (W2 m ρ c (Proc.devRef .tc main_v16)) := by
  show StableHlo.after hostOps1 (W2 m ρ c) (Proc.devRef .tc main_v69) = _
  after_results
  rfl

/-- The messages summed into their destination nodes: a scatter-add, into zeros, of the first message stage's output
    array at the column of the edge list's second row. -/
theorem W3_v68 (c : Dev nD) :
    W3 m ρ c (Proc.devRef .tc main_v68)
      = Host.scatterAdd scatter_S65536x128_S1048576x1_S1048576x128_1_0_0_1
          (broadcastInDim S65536x128 ![] Facts₀.bcast_S_S65536x128 (constant (F := Ideal) S_ .f32 0x00000000#32))
          (broadcastInDim S1048576x1 ![0] Facts₀.bcast_S1048576_S1048576x1_0 (W2 m ρ c (Proc.devRef .tc main_v3)))
          (W2 m ρ c (Proc.devRef .tc main_v65)) := by
  show StableHlo.after hostOps1 (W2 m ρ c) (Proc.devRef .tc main_v68) = _
  after_results

/-! ## The first node update's output array -/

/-- The first node update's output array is its fourth window's. -/
theorem arr1_4 : Pipeline.arrRef spec1 4 = main_v70 := by decide

/-- After the first node update its output array holds the stage's function of the four operand arrays as they stood
    when it started. -/
theorem W4_v70 (c : Dev nD) :
    W4 m ρ c (Proc.devRef .tc main_v70)
      = Cert.Spec.nodeUpd (W3 m ρ c (Proc.devRef .tc main_v56)) (W3 m ρ c (Proc.devRef .tc main_v68))
          (W3 m ρ c (Proc.devRef .tc main_v14)) (W3 m ρ c (Proc.devRef .tc main_v69)) := by
  have h := W4_arr m ρ c 4
  rw [Reg1.final (V3 m ρ) c] at h
  exact h

/-! ## The four operands of the first node update, as functions of the launch arrays -/

/-- The node features, rounded. -/
theorem in_x (c : Dev nD) :
    W3 m ρ c (Proc.devRef .tc main_v56)
      = (truncf .bf16 ((m ((c : Thread nD τ).loc main_arg0)) : FVec Ideal S65536x128 .f32) Facts₀.bitsLt_bf16_f32 : FVec Ideal S65536x128 .bf16) :=
  (W3_v56 m ρ c).trans (KW1.v56 m ρ c)

/-- The folded weights. -/
theorem in_w (c : Dev nD) :
    W3 m ρ c (Proc.devRef .tc main_v14)
      = KSpec.foldW (m ((c : Thread nD τ).loc main_arg6)) (KSpec.scale (m ((c : Thread nD τ).loc main_arg8)) (m ((c : Thread nD τ).loc main_arg11))) :=
  (W3_v14 m ρ c).trans (KW1.v14 m ρ c)

/-- The folded bias, as one row. -/
theorem in_b (c : Dev nD) :
    W3 m ρ c (Proc.devRef .tc main_v69)
      = KSpec.row128 (KSpec.foldB (m ((c : Thread nD τ).loc main_arg7)) (KSpec.scale (m ((c : Thread nD τ).loc main_arg8)) (m ((c : Thread nD τ).loc main_arg11))) (KSpec.shift (m ((c : Thread nD τ).loc main_arg9)) (m ((c : Thread nD τ).loc main_arg10)) (KSpec.scale (m ((c : Thread nD τ).loc main_arg8)) (m ((c : Thread nD τ).loc main_arg11))))) :=
  (W3_v69 m ρ c).trans (congrArg KSpec.row128 ((W2_v16 m ρ c).trans (KW1.v16 m ρ c)))

/-- The first message stage's output array, edge by edge. -/
theorem msg1 (c : Dev nD) :
    W2 m ρ c (Proc.devRef .tc main_v65)
      = Cert.Spec.edgeMsg
          (KSpec.gatherSrc (m ((c : Thread nD τ).loc main_arg1)) (truncf .bf16 (m ((c : Thread nD τ).loc main_arg0)) Facts₀.bitsLt_bf16_f32))
          (truncf .bf16 ((m ((c : Thread nD τ).loc main_arg2)) : FVec Ideal S1048576x32 .f32) Facts₀.bitsLt_bf16_f32 : FVec Ideal S1048576x32 .bf16)
          (truncf .bf16 ((m ((c : Thread nD τ).loc main_arg4)) : FVec Ideal S32x128 .f32) Facts₀.bitsLt_bf16_f32 : FVec Ideal S32x128 .bf16)
          (KSpec.row128 (m ((c : Thread nD τ).loc main_arg5))) :=
  (W2_v65 m ρ c).trans
    (congr (congr (congr (congrArg Cert.Spec.edgeMsg (KW1.v63 m ρ c)) (KW1.v55 m ρ c)) (KW1.v53 m ρ c)) (KW1.v64 m ρ c))

/-- The aggregated messages. -/
theorem in_agg (c : Dev nD) :
    W3 m ρ c (Proc.devRef .tc main_v68)
      = KSpec.aggregate (m ((c : Thread nD τ).loc main_arg1))
          (Cert.Spec.edgeMsg
            (KSpec.gatherSrc (m ((c : Thread nD τ).loc main_arg1)) (truncf .bf16 (m ((c : Thread nD τ).loc main_arg0)) Facts₀.bitsLt_bf16_f32))
            (truncf .bf16 ((m ((c : Thread nD τ).loc main_arg2)) : FVec Ideal S1048576x32 .f32) Facts₀.bitsLt_bf16_f32 : FVec Ideal S1048576x32 .bf16)
            (truncf .bf16 ((m ((c : Thread nD τ).loc main_arg4)) : FVec Ideal S32x128 .f32) Facts₀.bitsLt_bf16_f32 : FVec Ideal S32x128 .bf16)
            (KSpec.row128 (m ((c : Thread nD τ).loc main_arg5)))) := by
  refine (W3_v68 m ρ c).trans ?_
  rw [msg1 m ρ c, W2_v3 m ρ c, KW1.v3 m ρ c]
  rfl

/-- After the first node update its output array holds the hidden node features as the function `KSpec.hidden` of the
    launch arrays: the first message stage's array, the scatter-add after it, and the update itself. -/
theorem hidden (c : Dev nD) :
    W4 m ρ c (Proc.devRef .tc main_v70) = KSpec.hidden (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W4_v70 m ρ c).trans
    (congr (congr (congr (congrArg Cert.Spec.nodeUpd (in_x m ρ c)) (in_agg m ρ c)) (in_w m ρ c)) (in_b m ρ c))

end Cert.KernelIdeal.HiddenV

end
-- ==== Proof.Reg2.lean ====
import proofs.«427628_j74397423501380_3_alg».proof.Proof.Gen.KernelIdeal.Frame
import proofs.«427628_j74397423501380_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-buffer load or store, however spelt. -/
theorem zeroOffsets : (![0, 0] : Fin 2 → Nat) = fun _ => 0 := funext fun a => by fin_cases a <;> rfl

/-! ## The edge's linear image: a block of 8192 attribute rows times the 32×128 weights -/

/-- The attribute operand is read at the output's row. -/
theorem lhs_edgeLin_0 (i : S8192x128.Idx) (q : dot_S8192x32_S32x128_S8192x128_1_0_0_1_n_n.contr.Idx) :
    (dot_S8192x32_S32x128_S8192x128_1_0_0_1_n_n.lhsIdx i q 0).val = (i 0).val := by
  unfold DotDims.lhsIdx
  rw [dif_neg (show ¬(0 : Fin S8192x32.rank) ∈ dot_S8192x32_S32x128_S8192x128_1_0_0_1_n_n.lhsBatch by decide), dif_pos (show (0 : Fin S8192x32.rank) ∈ dot_S8192x32_S32x128_S8192x128_1_0_0_1_n_n.lhsNonContracting by decide)]
  rfl
/-- The attribute operand's column is the summation position. -/
theorem lhs_edgeLin_1 (i : S8192x128.Idx) (q : dot_S8192x32_S32x128_S8192x128_1_0_0_1_n_n.contr.Idx) :
    (dot_S8192x32_S32x128_S8192x128_1_0_0_1_n_n.lhsIdx i q 1).val = (q ⟨0, by decide⟩).val :=
  dot_S8192x32_S32x128_S8192x128_1_0_0_1_n_n.lhsIdx_val_of_single rfl i q
/-- The weights' row is the summation position. -/
theorem rhs_edgeLin_0 (i : S8192x128.Idx) (q : dot_S8192x32_S32x128_S8192x128_1_0_0_1_n_n.contr.Idx) :
    (dot_S8192x32_S32x128_S8192x128_1_0_0_1_n_n.rhsIdx i q 0).val = (q ⟨0, by decide⟩).val :=
  dot_S8192x32_S32x128_S8192x128_1_0_0_1_n_n.rhsIdx_val_of_single rfl i q
/-- The weights are read at the output's column. -/
theorem rhs_edgeLin_1 (i : S8192x128.Idx) (q : dot_S8192x32_S32x128_S8192x128_1_0_0_1_n_n.contr.Idx) :
    (dot_S8192x32_S32x128_S8192x128_1_0_0_1_n_n.rhsIdx i q 1).val = (i 1).val := by
  unfold DotDims.rhsIdx
  rw [dif_neg (show ¬(1 : Fin S32x128.rank) ∈ dot_S8192x32_S32x128_S8192x128_1_0_0_1_n_n.rhsBatch by decide), dif_pos (show (1 : Fin S32x128.rank) ∈ dot_S8192x32_S32x128_S8192x128_1_0_0_1_n_n.rhsNonContracting by decide)]
  rfl

/-- The block product into a zero accumulator, at row `p` and column `q`, is row `p` of the attributes times
    column `q` of the weights. -/
theorem edgeLin_apply (a : FVec Ideal S8192x32 .bf16) (w : FVec Ideal S32x128 .bf16) (p : Fin 8192) (q : Fin 128) :
    matmul dot_S8192x32_S32x128_S8192x128_1_0_0_1_n_n none a w (constant (F := Ideal) S8192x128 .f32 0x00000000#32) (ix2 p q)
      = ∑ k : Fin 32, a (ix2 p k) * w (ix2 k q) := by
  show FloatOps.matmul dot_S8192x32_S32x128_S8192x128_1_0_0_1_n_n none a w (constant (F := Ideal) S8192x128 .f32 0x00000000#32) (ix2 p q) = _
  rw [Ideal.matmul_constant_zero_apply, ← Equiv.sum_comp (ValueIdx.contrEquiv1 dot_S8192x32_S32x128_S8192x128_1_0_0_1_n_n 32 rfl rfl).symm]
  refine Finset.sum_congr rfl fun k _ => ?_
  have hk := ValueIdx.contrEquiv1_symm_val dot_S8192x32_S32x128_S8192x128_1_0_0_1_n_n 32 rfl rfl k
  have el : dot_S8192x32_S32x128_S8192x128_1_0_0_1_n_n.lhsIdx (ix2 p q) ((ValueIdx.contrEquiv1 dot_S8192x32_S32x128_S8192x128_1_0_0_1_n_n 32 rfl rfl).symm k) = ix2 p k := funext fun ax => Fin.ext (by
    match ax with
    | ⟨0, _⟩ => exact lhs_edgeLin_0 _ _
    | ⟨1, _⟩ => exact (lhs_edgeLin_1 _ _).trans hk)
  have er : dot_S8192x32_S32x128_S8192x128_1_0_0_1_n_n.rhsIdx (ix2 p q) ((ValueIdx.contrEquiv1 dot_S8192x32_S32x128_S8192x128_1_0_0_1_n_n 32 rfl rfl).symm k) = ix2 k q := funext fun ax => Fin.ext (by
    match ax with
    | ⟨0, _⟩ => exact (rhs_edgeLin_0 _ _).trans hk
    | ⟨1, _⟩ => exact rhs_edgeLin_1 _ _)
  rw [el, er]

/-! ## The body's arithmetic at an entry -/

/-- What the body stores at row `p`, column `q` of its block: the gathered entry plus the attribute row's linear image
    plus the bias entry of that column, clipped at zero. -/
theorem blockMsg_apply (g : Vec Ideal S8192x128 .bf16) (ea : Vec Ideal S8192x32 .bf16) (we : Vec Ideal S32x128 .bf16)
    (be : Vec Ideal S1x128 .f32) (p : Fin 8192) (q : Fin 128) :
    (k2_pay1 (F := Ideal) ea we g be) (ix2 p q)
      = max (g (ix2 p q) + (∑ k : Fin 32, ea (ix2 p k) * we (ix2 k q)) + be (ix2 0 q)) 0 := by
  unfold k2_pay1
  simp only [shapeCast_self]
  rw [maximumf_apply, addf_apply, addf_apply, extf_apply, broadcast_apply, edgeLin_apply, broadcastTo_1b_ab_apply]
  show max _ (Ideal.ofBits .f32 0x00000000#32) = _
  rw [Ideal.ofBits_zero_f32]

/-! ## Which rows each grid point sees -/

/-- The printed index maps over the 128 grid points: the gathered rows, the edge attributes and the output move with
    the point along the rows; the weights and the bias stay at their one block. -/
theorem gridIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The gathered block at point `t` is rows `8192·t … 8192·t + 8191` of the gathered array. -/
theorem gatheredBlock_apply (c : Dev nD) (t : Fin cfg2.N) (x : S8192x128.Idx) (k : S1048576x128.Idx)
    (hk0 : (k 0).val = 8192 * t.val + (x 0).val) (hk1 : (k 1).val = (x 1).val) :
    (iblk2 V c 0 t : Vec Ideal S8192x128 .bf16) x = (V c main_v77 : S1048576x128.Idx → EReal) k := by
  obtain ⟨e0, e1, -⟩ := gridIndex t
  unfold iblk2
  rw [View.read_apply]
  show V c main_v77 _ = V c main_v77 _
  congr 1
  funext a
  apply Fin.ext
  match a with
  | ⟨0, _⟩ => show win2_0.index t (0 : Fin 2) * 8192 + 1 * (x 0).val = (k 0).val; rw [e0, hk0]; omega
  | ⟨1, _⟩ => show win2_0.index t (1 : Fin 2) * 128 + 1 * (x 1).val = (k 1).val; rw [e1, hk1]; omega

/-- The attribute block at point `t` is the same rows of the edge attributes. -/
theorem attrBlock_apply (c : Dev nD) (t : Fin cfg2.N) (x : S8192x32.Idx) (k : S1048576x32.Idx)
    (hk0 : (k 0).val = 8192 * t.val + (x 0).val) (hk1 : (k 1).val = (x 1).val) :
    (iblk2 V c 1 t : Vec Ideal S8192x32 .bf16) x = (V c main_v55 : S1048576x32.Idx → EReal) k := by
  obtain ⟨-, -, e0, e1, -⟩ := gridIndex t
  unfold iblk2
  rw [View.read_apply]
  show V c main_v55 _ = V c main_v55 _
  congr 1
  funext a
  apply Fin.ext
  match a with
  | ⟨0, _⟩ => show win2_1.index t (0 : Fin 2) * 8192 + 1 * (x 0).val = (k 0).val; rw [e0, hk0]; omega
  | ⟨1, _⟩ => show win2_1.index t (1 : Fin 2) * 32 + 1 * (x 1).val = (k 1).val; rw [e1, hk1]; omega

/-- The weights' block at every point is the whole weight matrix. -/
theorem weightBlock_apply (c : Dev nD) (t : Fin cfg2.N) (x : S32x128.Idx) :
    (iblk2 V c 2 t : Vec Ideal S32x128 .bf16) x = (V c main_v54 : S32x128.Idx → EReal) x := by
  obtain ⟨-, -, -, -, e0, e1, -⟩ := gridIndex t
  unfold iblk2
  rw [View.read_apply]
  show V c main_v54 _ = V c main_v54 _
  congr 1
  funext a
  apply Fin.ext
  match a with
  | ⟨0, _⟩ => show win2_2.index t (0 : Fin 2) * 32 + 1 * (x 0).val = (x 0).val; rw [e0]; omega
  | ⟨1, _⟩ => show win2_2.index t (1 : Fin 2) * 128 + 1 * (x 1).val = (x 1).val; rw [e1]; omega

/-- The bias block at every point is the whole bias row. -/
theorem biasBlock_apply (c : Dev nD) (t : Fin cfg2.N) (x : S1x128.Idx) :
    (iblk2 V c 3 t : Vec Ideal S1x128 .f32) x = (V c main_v78 : S1x128.Idx → EReal) x := by
  obtain ⟨-, -, -, -, -, -, e0, e1, -⟩ := gridIndex t
  unfold iblk2
  rw [View.read_apply]
  show V c main_v78 _ = V c main_v78 _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-! ## What a grid point writes back -/

/-- If the four loaded blocks are the rows of edge `r` and the whole weights and bias, the body's entry at row `p`,
    column `q` is edge `r`'s message at `q`. -/
theorem msg_of_blocks (g : Vec Ideal S8192x128 .bf16) (ea : Vec Ideal S8192x32 .bf16) (we : Vec Ideal S32x128 .bf16)
    (be : Vec Ideal S1x128 .f32) (G : Cert.Spec.Arr2 1048576 128) (EA : Cert.Spec.Arr2 1048576 32)
    (WE : Cert.Spec.Arr2 32 128) (BE : Cert.Spec.Arr2 1 128) (p : Fin 8192) (q : Fin 128) (r : Fin 1048576)
    (hg : g (ix2 p q) = G (ix2 r q)) (hea : ∀ k : Fin 32, ea (ix2 p k) = EA (ix2 r k))
    (hwe : ∀ k : Fin 32, we (ix2 k q) = WE (ix2 k q)) (hbe : be (ix2 0 q) = BE (ix2 0 q)) :
    (k2_pay1 (F := Ideal) ea we g be) (ix2 p q) = Cert.Spec.edgeMsg G EA WE BE (ix2 r q) := by
  rw [blockMsg_apply, hg, hbe]
  simp only [hea, hwe]
  rfl

/-- Row `p` of point `t`'s result is edge `8192·t + p`'s message. -/
theorem blockMsg_eq_edgeMsg (c : Dev nD) (t : Fin cfg2.N) (p : Fin 8192) (q : Fin 128) (r : Fin 1048576)
    (hr : r.val = 8192 * t.val + p.val) :
    k2_pay1 (F := Ideal) (iblk2 V c 1 t) (iblk2 V c 2 t) (iblk2 V c 0 t) (iblk2 V c 3 t) (ix2 p q)
      = Cert.Spec.edgeMsg (V c main_v77) (V c main_v55) (V c main_v54) (V c main_v78) (ix2 r q) :=
  msg_of_blocks (iblk2 V c 0 t) (iblk2 V c 1 t) (iblk2 V c 2 t) (iblk2 V c 3 t)
    (V c main_v77) (V c main_v55) (V c main_v54) (V c main_v78) p q r
    (gatheredBlock_apply V c t (ix2 p q) (ix2 r q) hr rfl)
    (fun k => attrBlock_apply V c t (ix2 p k) (ix2 r k) hr rfl)
    (fun k => weightBlock_apply V c t (ix2 k q))
    (biasBlock_apply V c t (ix2 0 q))

/-- WHAT POINT `t` WRITES BACK is block `t` of the edge messages of the arrays as the region finds them. -/
theorem writeback_eq (c : Dev nD) (t : Fin cfg2.N) :
    (dat2 (F := Ideal) V c).flushed 4 t = ((cfg2.win 4).blk t).view.read (Elt Ideal)
      (Cert.Spec.edgeMsg (V c main_v77) (V c main_v55) (V c main_v54) (V c main_v78)) := by
  show (cfg2.win 4).cut (grid2.coords t) ((dat2 V c).after 4 t) = _
  rw [after2_4]
  unfold out2_4
  rw [View.canon_unit_zero zeroOffsets]
  simp only [View.ld_unit_zero (S := S8192x128) zeroOffsets, View.ld_unit_zero (S := S8192x32) zeroOffsets,
    View.ld_unit_zero (S := S32x128) zeroOffsets, View.ld_unit_zero (S := S1x128) zeroOffsets]
  obtain ⟨-, -, -, -, -, -, -, -, e0, e1⟩ := gridIndex t
  funext j
  obtain ⟨p, q, rfl⟩ : ∃ (p : Fin 8192) (q : Fin 128), j = ix2 p q := ⟨j 0, j 1, eq_ix2 j⟩
  have hp : p.val < 8192 := p.isLt
  have ht : t.val < 128 := by have h := t.isLt; have hN : cfg2.N = 128 := N_2; omega
  show k2_pay1 (F := Ideal) (iblk2 V c 1 t) (iblk2 V c 2 t) (iblk2 V c 0 t) (iblk2 V c 3 t) (ix2 p q)
      = Cert.Spec.edgeMsg (V c main_v77) (V c main_v55) (V c main_v54) (V c main_v78) (((cfg2.win 4).blk t).view.emb (ix2 p q))
  have hi : ((cfg2.win 4).blk t).view.emb (ix2 p q) = (ix2 (⟨8192 * t.val + p.val, by omega⟩ : Fin 1048576) q : S1048576x128.Idx) := by
    funext a
    apply Fin.ext
    match a with
    | ⟨0, _⟩ => show win2_4.index t (0 : Fin 2) * 8192 + 1 * p.val = 8192 * t.val + p.val; rw [e0]; omega
    | ⟨1, _⟩ => show win2_4.index t (1 : Fin 2) * 128 + 1 * q.val = q.val; rw [e1]; omega
  rw [hi]
  exact blockMsg_eq_edgeMsg V c t p q _ rfl

/-! ## The blocks tile the array -/

/-- An index of the output array is in point `t`'s block iff each coordinate is in the block's range on its axis. -/
theorem mem_outBlock (t : Fin cfg2.N) (i : S1048576x128.Idx) :
    i ∈ ((cfg2.win 4).blk t).view.set ↔ ∀ a : Fin 2, win2_4.index t a * S8192x128.size a ≤ (i a).val ∧ (i a).val < win2_4.index t a * S8192x128.size a + S8192x128.size a := by
  show i ∈ ((View.whole main_v79).slice (win2_4.rect t)).set ↔ _
  rw [View.set_slice_whole, Rect.mem_set_unit]
  exact Iff.rfl

/-- Row `r` is written by point `r / 8192`. -/
theorem covered (i : S1048576x128.Idx) :
    ∃ t : Fin cfg2.N, (cfg2.win 4).flush t = true ∧ i ∈ ((cfg2.win 4).blk t).view.set := by
  have hi0 : (i 0).val < 1048576 := (i 0).isLt
  have hi1 : (i 1).val < 128 := (i 1).isLt
  have hN : cfg2.N = 128 := N_2
  let t : Fin cfg2.N := ⟨(i 0).val / 8192, by rw [hN]; omega⟩
  have htv : t.val = (i 0).val / 8192 := rfl
  obtain ⟨-, -, -, -, -, -, -, -, e0, e1⟩ := gridIndex t
  refine ⟨t, flush2_4 t, ?_⟩
  rw [mem_outBlock]
  intro a
  match a with
  | ⟨0, _⟩ => show win2_4.index t (0 : Fin 2) * 8192 ≤ (i 0).val ∧ (i 0).val < win2_4.index t (0 : Fin 2) * 8192 + 8192; rw [e0, htv]; omega
  | ⟨1, _⟩ => show win2_4.index t (1 : Fin 2) * 128 ≤ (i 1).val ∧ (i 1).val < win2_4.index t (1 : Fin 2) * 128 + 128; rw [e1]; omega

/-- After the second message stage the output array holds, edge by edge, the clipped sum of the gathered row, the edge's
    linear image and the bias: each of the 128 grid points writes rows 8192·t … 8192·t + 8191. -/
theorem final (c : Dev nD) :
    (dat2 (F := Ideal) V c).arrAt 4 cfg2.N
      = Cert.Spec.edgeMsg (V c main_v77) (V c main_v55) (V c main_v54) (V c main_v78) :=
  (dat2 (F := Ideal) V c).arrAt_eq_of_cover 4 _ (fun t _ => writeback_eq V c t) covered

end Cert.KernelIdeal.Reg2

end
-- ==== Proof.Reg3.lean ====
import proofs.«427628_j74397423501380_3_alg».proof.Proof.Gen.KernelIdeal.Frame
import proofs.«427628_j74397423501380_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg3

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## What each control case leaves in the carried block -/

/-- The zero offsets of a whole block, on three axes and on two. -/
theorem zeros3 : (![0, 0, 0] : Fin 3 → Nat) = fun _ => 0 := funext fun a => by fin_cases a <;> rfl
theorem zeros2 : (![0, 0] : Fin 2 → Nat) = fun _ => 0 := funext fun a => by fin_cases a <;> rfl

section Pieces
variable {F : FTy → Type} [FloatOps F]

/-- A point that is not the first of its half leaves in the carried block the body's term of its five input blocks and
    of the block it found there: one store of the whole block. -/
theorem carried_step (c : Dev nD) (i : grid3.Coords)
    (a2 : Memref sig .tc .vmem S4096x128 .bf16) (h2 : a2.IsWhole) (a3 : Memref sig .tc .vmem S4096x128 .f32) (h3 : a3.IsWhole)
    (a4 : Memref sig .tc .vmem S128x128 .bf16) (h4 : a4.IsWhole) (a5 : Memref sig .tc .vmem S1x128 .f32) (h5 : a5.IsWhole)
    (a6 : Memref sig .tc .vmem S4096x1 .i32) (h6 : a6.IsWhole) (a7 : Memref sig .tc .vmem S1x64x128 .f32) (h7 : a7.IsWhole)
    (hc : ¬cond3_0 i)
    (x0 : Vec F S4096x128 .bf16) (x1 : Vec F S4096x128 .f32) (x2 : Vec F S128x128 .bf16) (x3 : Vec F S1x128 .f32)
    (x4 : Vec F S4096x1 .i32) (xo : Vec F S1x64x128 .f32) :
    out3_B_5 c i a2 h2 a3 h3 a4 h4 a5 h5 a6 h6 a7 h7 hc x0 x1 x2 x3 x4 xo = k3_pay2 x0 x1 x2 x3 x4 xo := by
  unfold out3_B_5
  rw [View.read_writes_eq_canon _ _ _ (cover3_B_5 c i a2 h2 a3 h3 a4 h4 a5 h5 a6 h6 a7 h7 hc x0 x1 x2 x3 x4 xo)]
  unfold kernelRun3_B
  dsimp only
  sl_unfold_words
  rw [View.canon_unit_zero (S := S1x64x128) zeros3]
  simp only [View.readAt_eq_ld, h2.read_unread, h3.read_unread, h4.read_unread, h5.read_unread, h6.read_unread, h7.read_unread,
    View.ld_unit_zero (S := S4096x128) zeros2, View.ld_unit_zero (S := S128x128) zeros2, View.ld_unit_zero (S := S1x128) zeros2,
    View.ld_unit_zero (S := S4096x1) zeros2, View.ld_unit_zero (S := S1x64x128) zeros3]

/-- The first point of a half leaves the same term over the zero block: it stores zeros, reads them back, and stores
    the term over them; the later store covers the block. -/
theorem carried_first (c : Dev nD) (i : grid3.Coords)
    (a2 : Memref sig .tc .vmem S4096x128 .bf16) (h2 : a2.IsWhole) (a3 : Memref sig .tc .vmem S4096x128 .f32) (h3 : a3.IsWhole)
    (a4 : Memref sig .tc .vmem S128x128 .bf16) (h4 : a4.IsWhole) (a5 : Memref sig .tc .vmem S1x128 .f32) (h5 : a5.IsWhole)
    (a6 : Memref sig .tc .vmem S4096x1 .i32) (h6 : a6.IsWhole) (a7 : Memref sig .tc .vmem S1x64x128 .f32) (h7 : a7.IsWhole)
    (hc : cond3_0 i)
    (x0 : Vec F S4096x128 .bf16) (x1 : Vec F S4096x128 .f32) (x2 : Vec F S128x128 .bf16) (x3 : Vec F S1x128 .f32)
    (x4 : Vec F S4096x1 .i32) :
    out3_A_5 c i a2 h2 a3 h3 a4 h4 a5 h5 a6 h6 a7 h7 hc x0 x1 x2 x3 x4 = k3_pay2 x0 x1 x2 x3 x4 (k3_pay1 (F := F)) := by
  unfold out3_A_5
  rw [View.read_writes_eq_canon _ _ _ (cover3_A_5 c i a2 h2 a3 h3 a4 h4 a5 h5 a6 h6 a7 h7 hc x0 x1 x2 x3 x4)]
  unfold kernelRun3_A
  dsimp only
  sl_unfold_words
  rw [View.canon_cons_unit_zero (S := S1x64x128) zeros3, View.readCov_unit_zero (S := S1x64x128) _ zeros3]
  simp only [View.readAt_eq_ld, h2.read_unread, h3.read_unread, h4.read_unread, h5.read_unread, h6.read_unread,
    View.ld_unit_zero (S := S4096x128) zeros2, View.ld_unit_zero (S := S128x128) zeros2, View.ld_unit_zero (S := S1x128) zeros2,
    View.ld_unit_zero (S := S4096x1) zeros2]

end Pieces

open Idealize.ShloMosaic.ValueIdx

/-! ## The operations of the body's one term, read at an index -/

section Ops
variable {α : Type}

/-- Entry (g, f) of the block seen without its leading unit axis is entry (0, g, f) of the block. -/
theorem dropLead_apply (x : S1x64x128.Idx → α) (h : S1x64x128.ShapeCasts S64x128) (z : Fin 1) (g : Fin 64) (f : Fin 128) :
    shapeCast S64x128 x h (ix2 g f) = x (ix3 z g f) := by
  refine shapeCast_apply x h (ix2 g f) (ix3 z g f) ?_
  rw [Shape.rowMajor_val_three, Shape.rowMajor_val_two]
  show (z.val * 64 + g.val) * 128 + f.val = g.val * 128 + f.val
  have := z.isLt; omega

/-- Entry (0, g, f) of a 64×128 value given a leading unit axis is its entry (g, f). -/
theorem addLead_apply (x : S64x128.Idx → α) (h : S64x128.ShapeCasts S1x64x128) (z : Fin 1) (g : Fin 64) (f : Fin 128) :
    shapeCast S1x64x128 x h (ix3 z g f) = x (ix2 g f) := by
  refine shapeCast_apply x h (ix3 z g f) (ix2 g f) ?_
  rw [Shape.rowMajor_val_three, Shape.rowMajor_val_two]
  show g.val * 128 + f.val = (z.val * 64 + g.val) * 128 + f.val
  have := z.isLt; omega

/-- The bias row repeated down the 4096 rows: entry (r, f) is the row's entry f. -/
theorem biasRows_apply (b : S1x128.Idx → α) (h : S1x128.Broadcasts S4096x128) (r : Fin 4096) (f : Fin 128) :
    broadcastTo S4096x128 b h (ix2 r f) = b (ix2 0 f) := by
  refine broadcastTo_apply b h (ix2 r f) (ix2 0 f) fun a => ?_
  match a with
  | ⟨0, _⟩ => rfl
  | ⟨1, _⟩ => rfl

/-- The column of graph numbers repeated across the 64 graphs: entry (r, g) is the column's entry r. -/
theorem graphCols_apply (col : S4096x1.Idx → α) (h : S4096x1.Broadcasts S4096x64) (r : Fin 4096) (g : Fin 64) :
    broadcastTo S4096x64 col h (ix2 r g) = col (ix2 r 0) := by
  refine broadcastTo_apply col h (ix2 r g) (ix2 r 0) fun a => ?_
  match a with
  | ⟨0, _⟩ => rfl
  | ⟨1, _⟩ => rfl

end Ops

/-- The counter along the graph axis: entry (r, g) is the word g. -/
theorem graphIota_apply (h : S4096x64.Iotas .tc 32 [1]) (r : Fin 4096) (g : Fin 64) :
    iota .tc S4096x64 32 [1] h (ix2 r g) = BitVec.ofNat 32 g.val :=
  iota_single_apply .tc S4096x64 32 1 h (ix2 r g)

/-- The membership word turned into a number: 1 where the two words agree, 0 elsewhere. -/
theorem member_number (x y : BitVec 32) :
    FloatOps.sitofp (F := Ideal) .f32 ((IntOp.cmpi .eq x y).setWidth 32) = if x = y then (1 : EReal) else 0 := by
  show (((BitVec.setWidth 32 (IntOp.cmpi .eq x y)).toInt : ℝ) : EReal) = _
  by_cases h : x = y
  · rw [if_pos h]
    simp [IntOp.cmpi, h]
  · rw [if_neg h]
    have hb : (x == y) = false := by simpa using h
    simp [IntOp.cmpi, hb]

theorem sigm_eq_logistic (x : EReal) : Cert.Spec.sigm x = Ideal.logistic x := rfl

/-! ## The two products, read at an index -/

/-- The dense layer's product: on the left operand the row is the result's row and the column is the summation index; -/
theorem dense_lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem dense_lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- on the right operand the row is the summation index and the column is the result's column. -/
theorem dense_rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem dense_rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The dense layer's product into zeros at (r, f): the sum over k of the row's entry k times the weight at (k, f). -/
theorem dense_matmul_apply (A : FVec Ideal S4096x128 .bf16) (W : FVec Ideal S128x128 .bf16) (r : Fin 4096) (f : Fin 128) :
    matmul dot_S4096x128_S128x128_S4096x128_1_0_0_1_n_n none A W (constant S4096x128 .f32 0x00000000#32) (ix2 r f)
      = ∑ k : Fin 128, A (ix2 r k) * W (ix2 k f) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r f) ((ValueIdx.contrEquiv1 dot_S4096x128_S128x128_S4096x128_1_0_0_1_n_n 128 rfl rfl).symm k) = ix2 r k := funext fun a => Fin.ext (by
    match a with
    | ⟨0, _⟩ => exact dense_lhs_0 _ _
    | ⟨1, _⟩ => exact (dense_lhs_1 _ _).trans hk)
  have er : dot_S4096x128_S128x128_S4096x128_1_0_0_1_n_n.rhsIdx (ix2 r f) ((ValueIdx.contrEquiv1 dot_S4096x128_S128x128_S4096x128_1_0_0_1_n_n 128 rfl rfl).symm k) = ix2 k f := funext fun a => Fin.ext (by
    match a with
    | ⟨0, _⟩ => exact (dense_rhs_0 _ _).trans hk
    | ⟨1, _⟩ => exact dense_rhs_1 _ _)
  rw [el, er]

/-- The pooling product sums over the ROWS of both operands: on the left (the membership matrix) the row is the
    summation index and the column is the result's row (the graph); -/
theorem pool_lhs_0 (i : S64x128.Idx) (q : dot_S4096x64_S4096x128_S64x128_0_0_1_1_n_n.contr.Idx) :
    (dot_S4096x64_S4096x128_S64x128_0_0_1_1_n_n.lhsIdx i q 0).val = (q ⟨0, by decide⟩).val :=
  dot_S4096x64_S4096x128_S64x128_0_0_1_1_n_n.lhsIdx_val_of_single rfl i q
theorem pool_lhs_1 (i : S64x128.Idx) (q : dot_S4096x64_S4096x128_S64x128_0_0_1_1_n_n.contr.Idx) :
    (dot_S4096x64_S4096x128_S64x128_0_0_1_1_n_n.lhsIdx i q 1).val = (i 0).val := by
  unfold DotDims.lhsIdx
  rw [dif_neg (show ¬(1 : Fin S4096x64.rank) ∈ dot_S4096x64_S4096x128_S64x128_0_0_1_1_n_n.lhsBatch by decide), dif_pos (show (1 : Fin S4096x64.rank) ∈ dot_S4096x64_S4096x128_S64x128_0_0_1_1_n_n.lhsNonContracting by decide)]
  rfl
/-- on the right (the squashed updates) the row is the summation index and the column is the result's column. -/
theorem pool_rhs_0 (i : S64x128.Idx) (q : dot_S4096x64_S4096x128_S64x128_0_0_1_1_n_n.contr.Idx) :
    (dot_S4096x64_S4096x128_S64x128_0_0_1_1_n_n.rhsIdx i q 0).val = (q ⟨0, by decide⟩).val :=
  dot_S4096x64_S4096x128_S64x128_0_0_1_1_n_n.rhsIdx_val_of_single rfl i q
theorem pool_rhs_1 (i : S64x128.Idx) (q : dot_S4096x64_S4096x128_S64x128_0_0_1_1_n_n.contr.Idx) :
    (dot_S4096x64_S4096x128_S64x128_0_0_1_1_n_n.rhsIdx i q 1).val = (i 1).val := by
  unfold DotDims.rhsIdx
  rw [dif_neg (show ¬(1 : Fin S4096x128.rank) ∈ dot_S4096x64_S4096x128_S64x128_0_0_1_1_n_n.rhsBatch by decide), dif_pos (show (1 : Fin S4096x128.rank) ∈ dot_S4096x64_S4096x128_S64x128_0_0_1_1_n_n.rhsNonContracting by decide)]
  rfl

/-- The pooling product into zeros at (g, f): the sum over the tile's rows r of the membership of row r in graph g
    times the row's squashed update at f. -/
theorem pool_matmul_apply (M : FVec Ideal S4096x64 .f32) (Y : FVec Ideal S4096x128 .f32) (g : Fin 64) (f : Fin 128) :
    matmul dot_S4096x64_S4096x128_S64x128_0_0_1_1_n_n none M Y (constant S64x128 .f32 0x00000000#32) (ix2 g f)
      = ∑ r : Fin 4096, M (ix2 r g) * Y (ix2 r f) := by
  simp only [matmul]
  rw [Ideal.matmul_constant_zero_apply, ← Equiv.sum_comp (ValueIdx.contrEquiv1 dot_S4096x64_S4096x128_S64x128_0_0_1_1_n_n 4096 rfl rfl).symm]
  refine Finset.sum_congr rfl fun r _ => ?_
  have hr := ValueIdx.contrEquiv1_symm_val dot_S4096x64_S4096x128_S64x128_0_0_1_1_n_n 4096 rfl rfl r
  have el : dot_S4096x64_S4096x128_S64x128_0_0_1_1_n_n.lhsIdx (ix2 g f) ((ValueIdx.contrEquiv1 dot_S4096x64_S4096x128_S64x128_0_0_1_1_n_n 4096 rfl rfl).symm r) = ix2 r g := funext fun a => Fin.ext (by
    match a with
    | ⟨0, _⟩ => exact (pool_lhs_0 _ _).trans hr
    | ⟨1, _⟩ => exact pool_lhs_1 _ _)
  have er : dot_S4096x64_S4096x128_S64x128_0_0_1_1_n_n.rhsIdx (ix2 g f) ((ValueIdx.contrEquiv1 dot_S4096x64_S4096x128_S64x128_0_0_1_1_n_n 4096 rfl rfl).symm r) = ix2 r f := funext fun a => Fin.ext (by
    match a with
    | ⟨0, _⟩ => exact (pool_rhs_0 _ _).trans hr
    | ⟨1, _⟩ => exact pool_rhs_1 _ _)
  rw [el, er]

/-! ## The body's term, read at an index -/

/-- The zero block the first point of a half stores. -/
theorem zeroBlock_apply (j : S1x64x128.Idx) : k3_pay1 (F := Ideal) j = 0 := by
  unfold k3_pay1
  exact Ideal.ofBits_zero_f32

/-- What a point stores, at (0, g, f): the block it found there plus, over the tile's 4096 rows, the membership of the row
    in graph g times the squashed clipped dense layer of the row's features plus aggregate, at column f. -/
theorem step_apply (x0 : Vec Ideal S4096x128 .bf16) (x1 : Vec Ideal S4096x128 .f32) (x2 : Vec Ideal S128x128 .bf16)
    (x3 : Vec Ideal S1x128 .f32) (x4 : Vec Ideal S4096x1 .i32) (xo : Vec Ideal S1x64x128 .f32)
    (z : Fin 1) (g : Fin 64) (f : Fin 128) :
    k3_pay2 (F := Ideal) x0 x1 x2 x3 x4 xo (ix3 z g f)
      = xo (ix3 z g f) + ∑ r : Fin 4096, (if x4 (ix2 r 0) = BitVec.ofNat 32 g.val then (1 : EReal) else 0)
          * Cert.Spec.sigm (max ((∑ k : Fin 128, (x0 (ix2 r k) + x1 (ix2 r k)) * x2 (ix2 k f)) + x3 (ix2 0 f)) 0) := by
  unfold k3_pay2
  dsimp only
  refine (addLead_apply _ _ z g f).trans ?_
  refine (addf_apply _ _ _).trans ?_
  refine congrArg₂ (· + ·) (dropLead_apply xo _ z g f) ?_
  refine (pool_matmul_apply _ _ g f).trans ?_
  refine Finset.sum_congr rfl fun r _ => ?_
  refine congrArg₂ (· * ·) ?_ ?_
  · refine (member_number _ _).trans ?_
    rw [graphCols_apply, graphIota_apply, shapeCast_self]
  · rw [sigm_eq_logistic]
    refine congrArg Ideal.logistic ?_
    refine (maximumf_apply _ _ _).trans ?_
    refine congrArg₂ max ?_ Ideal.ofBits_zero_f32
    refine (addf_apply _ _ _).trans ?_
    refine congrArg₂ (· + ·) ?_ ?_
    · refine (dense_matmul_apply _ _ r f).trans ?_
      refine Finset.sum_congr rfl fun k _ => ?_
      rw [shapeCast_self, shapeCast_self, shapeCast_self]
      rfl
    · refine (biasRows_apply _ _ r f).trans ?_
      rw [shapeCast_self]

/-! ## The windows' blocks as parts of the arrays the region finds -/

/-- The grid has 16 points. -/
theorem N16 (t : Fin cfg3.N) : t.val < 16 := lt_of_lt_of_eq t.isLt N_3

/-- The windows' block indices at each of the 16 grid points t: the three node-range windows sit at block t, the weight
    and bias windows at block 0, the output window at block (t / 8, 0, 0), the point's half. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 3) = t.val / 8 ∧ win3_5.index t (1 : Fin 3) = 0 ∧ win3_5.index t (2 : Fin 3) = 0 :=
  (by decide +kernel : ∀ t : Fin grid3.N, _)

/-- Row r of the n-th tile of 4096 rows, as a row of the 65536-row arrays (the residue only makes the definition total:
    below 16 tiles it changes nothing). -/
def tileRow (n : ℕ) (r : Fin 4096) : Fin 65536 := ⟨(n * 4096 + r.val) % 65536, Nat.mod_lt _ (by decide)⟩

/-- The five input arrays as the region finds them, and their blocks at a grid point, at their literal types. -/
abbrev featArr (c : Dev nD) : Vec Ideal S65536x128 .bf16 := V c main_v70
abbrev aggArr (c : Dev nD) : Vec Ideal S65536x128 .f32 := V c main_v82
abbrev wArr (c : Dev nD) : Vec Ideal S128x128 .bf16 := V c main_v26
abbrev biasArr (c : Dev nD) : Vec Ideal S1x128 .f32 := V c main_v83
abbrev batchArr (c : Dev nD) : Vec Ideal S65536x1 .i32 := V c main_v4
abbrev featBlk (c : Dev nD) (t : Fin cfg3.N) : Vec Ideal S4096x128 .bf16 := iblk3 V c 0 t
abbrev aggBlk (c : Dev nD) (t : Fin cfg3.N) : Vec Ideal S4096x128 .f32 := iblk3 V c 1 t
abbrev wBlk (c : Dev nD) (t : Fin cfg3.N) : Vec Ideal S128x128 .bf16 := iblk3 V c 2 t
abbrev biasBlk (c : Dev nD) (t : Fin cfg3.N) : Vec Ideal S1x128 .f32 := iblk3 V c 3 t
abbrev batchBlk (c : Dev nD) (t : Fin cfg3.N) : Vec Ideal S4096x1 .i32 := iblk3 V c 4 t

/-- Each block read at an index is its array read at the block's place: rows 4096·t … 4096·t + 4095 for the node-range
    windows, the whole array for the weights and the bias. -/
theorem featBlk_apply (c : Dev nD) (t : Fin cfg3.N) (r : Fin 4096) (k : Fin 128) :
    featBlk V c t (ix2 r k) = featArr V c (ix2 (tileRow t.val r) k) := by
  have h : ((cfg3.win 0).blk t).view.emb (ix2 r k) = ix2 (tileRow t.val r) k := by
    obtain ⟨e0, e1, -⟩ := idx_facts t
    have hN := N16 t
    funext a; apply Fin.ext
    match a with
    | ⟨0, _⟩ => show win3_0.index t (0 : Fin 2) * 4096 + 1 * r.val = (t.val * 4096 + r.val) % 65536; rw [e0]; omega
    | ⟨1, _⟩ => show win3_0.index t (1 : Fin 2) * 128 + 1 * k.val = k.val; rw [e1]; omega
  show V c main_v70 (((cfg3.win 0).blk t).view.emb (ix2 r k)) = V c main_v70 (ix2 (tileRow t.val r) k)
  rw [h]

theorem aggBlk_apply (c : Dev nD) (t : Fin cfg3.N) (r : Fin 4096) (k : Fin 128) :
    aggBlk V c t (ix2 r k) = aggArr V c (ix2 (tileRow t.val r) k) := by
  have h : ((cfg3.win 1).blk t).view.emb (ix2 r k) = ix2 (tileRow t.val r) k := by
    obtain ⟨-, -, e0, e1, -⟩ := idx_facts t
    have hN := N16 t
    funext a; apply Fin.ext
    match a with
    | ⟨0, _⟩ => show win3_1.index t (0 : Fin 2) * 4096 + 1 * r.val = (t.val * 4096 + r.val) % 65536; rw [e0]; omega
    | ⟨1, _⟩ => show win3_1.index t (1 : Fin 2) * 128 + 1 * k.val = k.val; rw [e1]; omega
  show V c main_v82 (((cfg3.win 1).blk t).view.emb (ix2 r k)) = V c main_v82 (ix2 (tileRow t.val r) k)
  rw [h]

theorem wBlk_apply (c : Dev nD) (t : Fin cfg3.N) (k : Fin 128) (f : Fin 128) :
    wBlk V c t (ix2 k f) = wArr V c (ix2 k f) := by
  have h : ((cfg3.win 2).blk t).view.emb (ix2 k f) = ix2 k f := by
    obtain ⟨-, -, -, -, e0, e1, -⟩ := idx_facts t
    funext a; apply Fin.ext
    match a with
    | ⟨0, _⟩ => show win3_2.index t (0 : Fin 2) * 128 + 1 * k.val = k.val; rw [e0]; omega
    | ⟨1, _⟩ => show win3_2.index t (1 : Fin 2) * 128 + 1 * f.val = f.val; rw [e1]; omega
  show V c main_v26 (((cfg3.win 2).blk t).view.emb (ix2 k f)) = V c main_v26 (ix2 k f)
  rw [h]

theorem biasBlk_apply (c : Dev nD) (t : Fin cfg3.N) (z : Fin 1) (f : Fin 128) :
    biasBlk V c t (ix2 z f) = biasArr V c (ix2 z f) := by
  have h : ((cfg3.win 3).blk t).view.emb (ix2 z f) = ix2 z f := by
    obtain ⟨-, -, -, -, -, -, e0, e1, -⟩ := idx_facts t
    funext a; apply Fin.ext
    match a with
    | ⟨0, _⟩ => show win3_3.index t (0 : Fin 2) * 1 + 1 * z.val = z.val; rw [e0]; omega
    | ⟨1, _⟩ => show win3_3.index t (1 : Fin 2) * 128 + 1 * f.val = f.val; rw [e1]; omega
  show V c main_v83 (((cfg3.win 3).blk t).view.emb (ix2 z f)) = V c main_v83 (ix2 z f)
  rw [h]

theorem batchBlk_apply (c : Dev nD) (t : Fin cfg3.N) (r : Fin 4096) (z : Fin 1) :
    batchBlk V c t (ix2 r z) = batchArr V c (ix2 (tileRow t.val r) z) := by
  have h : ((cfg3.win 4).blk t).view.emb (ix2 r z) = ix2 (tileRow t.val r) z := by
    obtain ⟨-, -, -, -, -, -, -, -, e0, e1, -⟩ := idx_facts t
    have hN := N16 t
    funext a; apply Fin.ext
    match a with
    | ⟨0, _⟩ => show win3_4.index t (0 : Fin 2) * 4096 + 1 * r.val = (t.val * 4096 + r.val) % 65536; rw [e0]; omega
    | ⟨1, _⟩ => show win3_4.index t (1 : Fin 2) * 1 + 1 * z.val = z.val; rw [e1]; omega
  show V c main_v4 (((cfg3.win 4).blk t).view.emb (ix2 r z)) = V c main_v4 (ix2 (tileRow t.val r) z)
  rw [h]

/-! ## The carried block after each point: the partial sum over the half's tiles so far -/

/-- What tile n adds to entry (g, f) of its half's block: over the tile's rows, the membership of the row in graph g
    times the row's squashed update at column f. -/
def tileSum (c : Dev nD) (n : ℕ) (g : Fin 64) (f : Fin 128) : EReal :=
  ∑ r : Fin 4096, (if batchArr V c (ix2 (tileRow n r) 0) = BitVec.ofNat 32 g.val then (1 : EReal) else 0)
    * Cert.Spec.sigm (Cert.Spec.nodeUpd (featArr V c) (aggArr V c) (wArr V c) (biasArr V c) (ix2 (tileRow n r) f))

/-- The body's term on point t's blocks adds tile t's sum to the block it found. -/
theorem step_at (c : Dev nD) (t : Fin cfg3.N) (xo : Vec Ideal S1x64x128 .f32) (z : Fin 1) (g : Fin 64) (f : Fin 128) :
    k3_pay2 (F := Ideal) (featBlk V c t) (aggBlk V c t) (wBlk V c t) (biasBlk V c t) (batchBlk V c t) xo (ix3 z g f)
      = xo (ix3 z g f) + tileSum V c t.val g f := by
  refine (step_apply (featBlk V c t) (aggBlk V c t) (wBlk V c t) (biasBlk V c t) (batchBlk V c t) xo z g f).trans ?_
  refine congrArg (xo (ix3 z g f) + ·) ?_
  unfold tileSum
  refine Finset.sum_congr rfl fun r _ => ?_
  simp only [featBlk_apply, aggBlk_apply, wBlk_apply, biasBlk_apply, batchBlk_apply]
  rfl

/-- At the first point of a half the carried block is the tile's own sum: the body starts it from zero. -/
theorem first_at (c : Dev nD) (t : Fin cfg3.N) (h0 : t.val % 8 = 0) (z : Fin 1) (g : Fin 64) (f : Fin 128) :
    outsAt3 V c t.val t.isLt (ix3 z g f) = tileSum V c t.val g f := by
  rw [outsAt3_A V c t h0]
  refine (congrFun (carried_first (F := Ideal) c (grid3.coords t) (ms3_0 t) (hs3_0 t) (ms3_1 t) (hs3_1 t) (ms3_2 t) (hs3_2 t)
    (ms3_3 t) (hs3_3 t) (ms3_4 t) (hs3_4 t) (ms3_5 t) (hs3_5 t) ((hcond3_0 t).mpr h0)
    (featBlk V c t) (aggBlk V c t) (wBlk V c t) (biasBlk V c t) (batchBlk V c t)) (ix3 z g f)).trans ?_
  refine (step_at V c t (k3_pay1 (F := Ideal)) z g f).trans ?_
  rw [zeroBlock_apply, zero_add]

/-- At every other point it is what the point before left plus the tile's sum. -/
theorem next_at (c : Dev nD) (t : Fin cfg3.N) (h0 : ¬t.val % 8 = 0) (z : Fin 1) (g : Fin 64) (f : Fin 128) :
    outsAt3 V c t.val t.isLt (ix3 z g f)
      = outsAt3 V c (t.val - 1) (Nat.lt_of_le_of_lt (Nat.sub_le _ _) t.isLt) (ix3 z g f) + tileSum V c t.val g f := by
  rw [outsAt3_B V c t h0]
  refine (congrFun (carried_step (F := Ideal) c (grid3.coords t) (ms3_0 t) (hs3_0 t) (ms3_1 t) (hs3_1 t) (ms3_2 t) (hs3_2 t)
    (ms3_3 t) (hs3_3 t) (ms3_4 t) (hs3_4 t) (ms3_5 t) (hs3_5 t) (fun h => h0 ((hcond3_0 t).mp h))
    (featBlk V c t) (aggBlk V c t) (wBlk V c t) (biasBlk V c t) (batchBlk V c t)
    (outsAt3 V c (t.val - 1) (Nat.lt_of_le_of_lt (Nat.sub_le _ _) t.isLt))) (ix3 z g f)).trans ?_
  exact step_at V c t (outsAt3 V c (t.val - 1) (Nat.lt_of_le_of_lt (Nat.sub_le _ _) t.isLt)) z g f

/-- THE INVARIANT: after point n the carried block holds, at (0, g, f), the sum of the tiles of n's half up to n. -/
theorem carried_eq (c : Dev nD) (z : Fin 1) (g : Fin 64) (f : Fin 128) :
    ∀ (n : ℕ) (hn : n < cfg3.N),
      outsAt3 V c n hn (ix3 z g f) = ∑ s ∈ Finset.range (n % 8 + 1), tileSum V c (n - n % 8 + s) g f
  | 0, hn => by
    refine (first_at V c ⟨0, hn⟩ rfl z g f).trans ?_
    simp
  | n + 1, hn => by
    by_cases h0 : (n + 1) % 8 = 0
    · refine (first_at V c ⟨n + 1, hn⟩ h0 z g f).trans ?_
      show tileSum V c (n + 1) g f = _
      rw [h0]
      simp
    · refine (next_at V c ⟨n + 1, hn⟩ h0 z g f).trans ?_
      show outsAt3 V c n _ (ix3 z g f) + tileSum V c (n + 1) g f = _
      rw [carried_eq c z g f n (Nat.lt_of_succ_lt hn)]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]

/-! ## From the carried block to the output array -/

/-- The specification's entry (q, g, f) is the sum of half q's eight tile sums. -/
theorem poolPart_eq (c : Dev nD) (q : Fin 2) (g : Fin 64) (f : Fin 128) :
    Cert.Spec.poolPart (V c main_v70) (V c main_v82) (V c main_v26) (V c main_v83) (V c main_v4) (ix3 q g f)
      = ∑ s ∈ Finset.range 8, tileSum V c (q.val * 8 + s) g f := by
  rw [Finset.sum_range]
  unfold Cert.Spec.poolPart tileSum
  refine Finset.sum_congr rfl fun s _ => Finset.sum_congr rfl fun r _ => ?_
  have e : Cert.Spec.nodeRow q s r = tileRow (q.val * 8 + s.val) r := Fin.ext (by
    show (q.val * 8 + s.val) * 4096 + r.val = ((q.val * 8 + s.val) * 4096 + r.val) % 65536
    have := q.isLt; have := s.isLt; have := r.isLt; omega)
  show (if V c main_v4 (ix2 (Cert.Spec.nodeRow q s r) 0) = BitVec.ofNat 32 g.val then (1 : EReal) else 0)
      * Cert.Spec.sigm (Cert.Spec.nodeUpd (V c main_v70) (V c main_v82) (V c main_v26) (V c main_v83) (ix2 (Cert.Spec.nodeRow q s r) f)) = _
  rw [e]

/-- What a point that ends a half writes back is its block of the specification's array. -/
theorem flushed_eq (c : Dev nD) (t : Fin cfg3.N) (hf : (cfg3.win 5).flush t = true) :
    (dat3 V c).flushed 5 t = ((cfg3.win 5).blk t).view.read (Elt Ideal)
      (Cert.Spec.poolPart (V c main_v70) (V c main_v82) (V c main_v26) (V c main_v83) (V c main_v4)) := by
  have h7 : t.val % 8 = 7 := (flush3_5 t).mp hf
  have hN := N16 t
  have hq : t.val / 8 < 2 := by omega
  show (cfg3.win 5).cut (grid3.coords t) ((dat3 V c).after 5 t) = _
  rw [after3_5]
  funext j
  obtain ⟨z, g, f, rfl⟩ : ∃ (z : Fin 1) (g : Fin 64) (f : Fin 128), j = ix3 z g f := ⟨j 0, j 1, j 2, eq_ix3 j⟩
  have hemb : ((cfg3.win 5).blk t).view.emb (ix3 z g f) = ix3 (⟨t.val / 8, hq⟩ : Fin 2) g f := by
    obtain ⟨-, -, -, -, -, -, -, -, -, -, e0, e1, e2⟩ := idx_facts t
    funext a; apply Fin.ext
    match a with
    | ⟨0, _⟩ => show win3_5.index t (0 : Fin 3) * 1 + 1 * z.val = t.val / 8; rw [e0]; have := z.isLt; omega
    | ⟨1, _⟩ => show win3_5.index t (1 : Fin 3) * 64 + 1 * g.val = g.val; rw [e1]; omega
    | ⟨2, _⟩ => show win3_5.index t (2 : Fin 3) * 128 + 1 * f.val = f.val; rw [e2]; omega
  show outsAt3 V c t.val t.isLt (ix3 z g f)
    = Cert.Spec.poolPart (V c main_v70) (V c main_v82) (V c main_v26) (V c main_v83) (V c main_v4) (((cfg3.win 5).blk t).view.emb (ix3 z g f))
  rw [hemb, poolPart_eq, carried_eq V c z g f t.val t.isLt, h7]
  have e : t.val - 7 = t.val / 8 * 8 := by omega
  rw [e]

/-- An index of the output array is in point t's block iff each coordinate is in the block's range on its axis. -/
theorem mem_blk (t : Fin cfg3.N) (i : S2x64x128.Idx) :
    i ∈ ((cfg3.win 5).blk t).view.set ↔ ∀ a : Fin 3, win3_5.index t a * S1x64x128.size a ≤ (i a).val
      ∧ (i a).val < win3_5.index t a * S1x64x128.size a + S1x64x128.size a := by
  show i ∈ ((View.whole main_v84).slice (win3_5.rect t)).set ↔ _
  rw [View.set_slice_whole, Rect.mem_set_unit]
  exact Iff.rfl

/-- Every entry (q, g, f) of the output array is written back by the last point of half q. -/
theorem cover (i : S2x64x128.Idx) : ∃ t : Fin cfg3.N, (cfg3.win 5).flush t = true ∧ i ∈ ((cfg3.win 5).blk t).view.set := by
  have h0 : (i 0).val < 2 := (i 0).isLt
  have h1 : (i 1).val < 64 := (i 1).isLt
  have h2 : (i 2).val < 128 := (i 2).isLt
  have hT : (i 0).val * 8 + 7 < cfg3.N := by rw [show cfg3.N = 16 from N_3]; omega
  obtain ⟨T, hTv⟩ : ∃ T : Fin cfg3.N, T.val = (i 0).val * 8 + 7 := ⟨⟨_, hT⟩, rfl⟩
  refine ⟨T, (flush3_5 T).mpr (by omega), ?_⟩
  rw [mem_blk]
  obtain ⟨-, -, -, -, -, -, -, -, -, -, e0, e1, e2⟩ := idx_facts T
  intro a
  match a with
  | ⟨0, _⟩ => show win3_5.index T (0 : Fin 3) * 1 ≤ (i 0).val ∧ (i 0).val < win3_5.index T (0 : Fin 3) * 1 + 1; rw [e0]; omega
  | ⟨1, _⟩ => show win3_5.index T (1 : Fin 3) * 64 ≤ (i 1).val ∧ (i 1).val < win3_5.index T (1 : Fin 3) * 64 + 64; rw [e1]; omega
  | ⟨2, _⟩ => show win3_5.index T (2 : Fin 3) * 128 ≤ (i 2).val ∧ (i 2).val < win3_5.index T (2 : Fin 3) * 128 + 128; rw [e2]; omega

/-- After the pooled second node update the output array holds, per half of the node range and per graph, the sum of the
    squashed updates of the half's nodes that belong to the graph: the 8 grid points of a half accumulate into one block,
    the first of them from zero. -/
theorem final (c : Dev nD) :
    (dat3 (F := Ideal) V c).arrAt 5 cfg3.N
      = Cert.Spec.poolPart (V c main_v70) (V c main_v82) (V c main_v26) (V c main_v83) (V c main_v4) :=
  (dat3 V c).arrAt_eq_of_cover 5
    (Cert.Spec.poolPart (V c main_v70) (V c main_v82) (V c main_v26) (V c main_v83) (V c main_v4))
    (fun t hf => flushed_eq V c t hf) cover

end Cert.KernelIdeal.Reg3

end
-- ==== Proof.Reg4.lean ====
import proofs.«427628_j74397423501380_3_alg».proof.Proof.Gen.KernelIdeal.Frame
import proofs.«427628_j74397423501380_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg4

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-- A product into the zero accumulator whose record contracts the left operand's columns with the right operand's rows,
    read at an index, is the row-by-column sum. -/
theorem matmul_zero_apply {M K N : Nat} (d : DotDims (⟨2, ![M, K]⟩ : Shape) (⟨2, ![K, N]⟩ : Shape) (⟨2, ![M, N]⟩ : Shape))
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    {φ₁ φ₂ : FTy} (a : FVec Ideal (⟨2, ![M, K]⟩ : Shape) φ₁) (w : FVec Ideal (⟨2, ![K, N]⟩ : Shape) φ₂) (i : (⟨2, ![M, N]⟩ : Shape).Idx) :
    FloatOps.matmul d none a w (constant (F := Ideal) (⟨2, ![M, N]⟩ : Shape) .f32 0x00000000#32) i = Cert.Spec.dot a w (i 0) (i 1) := by
  rw [Ideal.matmul_constant_zero_apply, ← Equiv.sum_comp (contrEquiv1 d K hr hs).symm]
  unfold Cert.Spec.dot
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact hl0 _ _
    | ⟨1, _⟩ => exact (hl1 _ _).trans hk)
  have er : d.rhsIdx i ((contrEquiv1 d K hr hs).symm k) = ix2 k (i 1) := funext fun a => Fin.ext (by
    match a with
    | ⟨0, _⟩ => exact (hr0 _ _).trans hk
    | ⟨1, _⟩ => exact hr1 _ _)
  rw [el, er]
  rfl

/-! ## The two product records' operand indices, axis by axis -/

theorem lhs_hidden_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_hidden_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_hidden_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_hidden_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

theorem lhs_out_0 (i : S64x32.Idx) (q : dot_S64x128_S128x32_S64x32_1_0_0_1_n_n.contr.Idx) :
    (dot_S64x128_S128x32_S64x32_1_0_0_1_n_n.lhsIdx i q 0).val = (i 0).val := by
  unfold DotDims.lhsIdx
  rw [dif_neg (show ¬(0 : Fin S64x128.rank) ∈ dot_S64x128_S128x32_S64x32_1_0_0_1_n_n.lhsBatch by decide), dif_pos (show (0 : Fin S64x128.rank) ∈ dot_S64x128_S128x32_S64x32_1_0_0_1_n_n.lhsNonContracting by decide)]
  rfl
theorem lhs_out_1 (i : S64x32.Idx) (q : dot_S64x128_S128x32_S64x32_1_0_0_1_n_n.contr.Idx) :
    (dot_S64x128_S128x32_S64x32_1_0_0_1_n_n.lhsIdx i q 1).val = (q ⟨0, by decide⟩).val :=
  dot_S64x128_S128x32_S64x32_1_0_0_1_n_n.lhsIdx_val_of_single rfl i q
theorem rhs_out_0 (i : S64x32.Idx) (q : dot_S64x128_S128x32_S64x32_1_0_0_1_n_n.contr.Idx) :
    (dot_S64x128_S128x32_S64x32_1_0_0_1_n_n.rhsIdx i q 0).val = (q ⟨0, by decide⟩).val :=
  dot_S64x128_S128x32_S64x32_1_0_0_1_n_n.rhsIdx_val_of_single rfl i q
theorem rhs_out_1 (i : S64x32.Idx) (q : dot_S64x128_S128x32_S64x32_1_0_0_1_n_n.contr.Idx) :
    (dot_S64x128_S128x32_S64x32_1_0_0_1_n_n.rhsIdx i q 1).val = (i 1).val := by
  unfold DotDims.rhsIdx
  rw [dif_neg (show ¬(1 : Fin S128x32.rank) ∈ dot_S64x128_S128x32_S64x32_1_0_0_1_n_n.rhsBatch by decide), dif_pos (show (1 : Fin S128x32.rank) ∈ dot_S64x128_S128x32_S64x32_1_0_0_1_n_n.rhsNonContracting by decide)]
  rfl

/-! ## A layer: a product into zeros plus the bias row broadcast down the rows -/

/-- A hidden layer (128 features to 128) of the kernel is the specification's dense layer. -/
theorem hidden_layer (a : FVec Ideal S64x128 .bf16) (w : FVec Ideal S128x128 .bf16) (b : FVec Ideal S1x128 .f32) :
    addf (matmul dot_S64x128_S128x128_S64x128_1_0_0_1_n_n none a w (constant S64x128 .f32 0x00000000#32)) (broadcastTo S64x128 b broadcasts_S1x128_S64x128)
      = Cert.Spec.dense a w b := by
  funext i
  rw [addf_apply]
  show FloatOps.matmul dot_S64x128_S128x128_S64x128_1_0_0_1_n_n none a w (constant (F := Ideal) S64x128 .f32 0x00000000#32) i + _ = _
  rw [matmul_zero_apply dot_S64x128_S128x128_S64x128_1_0_0_1_n_n rfl rfl lhs_hidden_0 lhs_hidden_1 rhs_hidden_0 rhs_hidden_1 a w i]
  obtain ⟨p, q, rfl⟩ : ∃ (p : Fin 64) (q : Fin 128), i = ix2 p q := ⟨i 0, i 1, eq_ix2 i⟩
  rw [broadcastTo_1b_ab_apply]
  rfl

/-- The output layer (128 features to 32) of the kernel is the specification's dense layer. -/
theorem out_layer (a : FVec Ideal S64x128 .bf16) (w : FVec Ideal S128x32 .bf16) (b : FVec Ideal S1x32 .f32) :
    addf (matmul dot_S64x128_S128x32_S64x32_1_0_0_1_n_n none a w (constant S64x32 .f32 0x00000000#32)) (broadcastTo S64x32 b broadcasts_S1x32_S64x32)
      = Cert.Spec.dense a w b := by
  funext i
  rw [addf_apply]
  show FloatOps.matmul dot_S64x128_S128x32_S64x32_1_0_0_1_n_n none a w (constant (F := Ideal) S64x32 .f32 0x00000000#32) i + _ = _
  rw [matmul_zero_apply dot_S64x128_S128x32_S64x32_1_0_0_1_n_n rfl rfl lhs_out_0 lhs_out_1 rhs_out_0 rhs_out_1 a w i]
  obtain ⟨p, q, rfl⟩ : ∃ (p : Fin 64) (q : Fin 32), i = ix2 p q := ⟨i 0, i 1, eq_ix2 i⟩
  rw [broadcastTo_1b_ab_apply]
  rfl

/-! ## Clipping at zero -/

/-- The larger of a vector and the zero splat, narrowed (the narrowing is the identity on the extended reals), is the
    entrywise maximum with zero. -/
theorem clip_eq {s : Shape} (X : FVec Ideal s .f32) (h : FTy.bits .bf16 < FTy.bits .f32) :
    (truncf .bf16 (maximumf X (broadcast s (Scalar.ofBits (F := Ideal) .f32 0x00000000#32))) h : FVec Ideal s .bf16)
      = fun j => max (X j) 0 := by
  funext j
  show max (X j) (Ideal.ofBits .f32 0x00000000#32) = max (X j) 0
  rw [Ideal.ofBits_zero_f32]

/-! ## The body's arithmetic -/

/-- The body's one stored value, as a function of the seven loaded vectors, is the head of the specification. -/
theorem payload_eq (p : Vec Ideal S64x128 .bf16) (w1 : Vec Ideal S128x128 .bf16) (b1 : Vec Ideal S1x128 .f32)
    (w2 : Vec Ideal S128x128 .bf16) (b2 : Vec Ideal S1x128 .f32) (w3 : Vec Ideal S128x32 .bf16) (b3 : Vec Ideal S1x32 .f32) :
    k4_pay1 (F := Ideal) p w1 b1 w2 b2 w3 b3 = Cert.Spec.head p w1 b1 w2 b2 w3 b3 := by
  unfold k4_pay1
  simp only [shapeCast_self]
  rw [hidden_layer, clip_eq, hidden_layer, clip_eq, out_layer]
  rfl

/-! ## From the one block to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- At every grid point every window's block index is zero on both axes. -/
theorem block_index_zero : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Window 0's block at the one grid point is its whole array as the region finds it. -/
theorem pooled_block (c : Dev nD) (t : Fin cfg4.N) :
    (iblk4 V c 0 t : Vec Ideal S64x128 .bf16) = (V c main_v93 : S64x128.Idx → EReal) := by
  funext y
  unfold iblk4
  rw [View.read_apply]
  show V c main_v93 (((cfg4.win 0).blk t).view.emb y) = V c main_v93 y
  refine congrArg _ (funext fun a => Fin.ext ?_)
  have e0 : win4_0.index t (0 : Fin 2) = 0 := (block_index_zero t).1
  have e1 : win4_0.index t (1 : Fin 2) = 0 := (block_index_zero t).2.1
  match a with
  | ⟨0, _⟩ => show win4_0.index t (0 : Fin 2) * 64 + 1 * (y 0).val = (y 0).val; omega
  | ⟨1, _⟩ => show win4_0.index t (1 : Fin 2) * 128 + 1 * (y 1).val = (y 1).val; omega

/-- Window 1's block at the one grid point is its whole array as the region finds it. -/
theorem weights1_block (c : Dev nD) (t : Fin cfg4.N) :
    (iblk4 V c 1 t : Vec Ideal S128x128 .bf16) = (V c main_v38 : S128x128.Idx → EReal) := by
  funext y
  unfold iblk4
  rw [View.read_apply]
  show V c main_v38 (((cfg4.win 1).blk t).view.emb y) = V c main_v38 y
  refine congrArg _ (funext fun a => Fin.ext ?_)
  have e0 : win4_1.index t (0 : Fin 2) = 0 := (block_index_zero t).2.2.1
  have e1 : win4_1.index t (1 : Fin 2) = 0 := (block_index_zero t).2.2.2.1
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- Window 2's block at the one grid point is its whole array as the region finds it. -/
theorem bias1_block (c : Dev nD) (t : Fin cfg4.N) :
    (iblk4 V c 2 t : Vec Ideal S1x128 .f32) = (V c main_v95 : S1x128.Idx → EReal) := by
  funext y
  unfold iblk4
  rw [View.read_apply]
  show V c main_v95 (((cfg4.win 2).blk t).view.emb y) = V c main_v95 y
  refine congrArg _ (funext fun a => Fin.ext ?_)
  have e0 : win4_2.index t (0 : Fin 2) = 0 := (block_index_zero t).2.2.2.2.1
  have e1 : win4_2.index t (1 : Fin 2) = 0 := (block_index_zero t).2.2.2.2.2.1
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- Window 3's block at the one grid point is its whole array as the region finds it. -/
theorem weights2_block (c : Dev nD) (t : Fin cfg4.N) :
    (iblk4 V c 3 t : Vec Ideal S128x128 .bf16) = (V c main_v50 : S128x128.Idx → EReal) := by
  funext y
  unfold iblk4
  rw [View.read_apply]
  show V c main_v50 (((cfg4.win 3).blk t).view.emb y) = V c main_v50 y
  refine congrArg _ (funext fun a => Fin.ext ?_)
  have e0 : win4_3.index t (0 : Fin 2) = 0 := (block_index_zero t).2.2.2.2.2.2.1
  have e1 : win4_3.index t (1 : Fin 2) = 0 := (block_index_zero t).2.2.2.2.2.2.2.1
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Window 4's block at the one grid point is its whole array as the region finds it. -/
theorem bias2_block (c : Dev nD) (t : Fin cfg4.N) :
    (iblk4 V c 4 t : Vec Ideal S1x128 .f32) = (V c main_v96 : S1x128.Idx → EReal) := by
  funext y
  unfold iblk4
  rw [View.read_apply]
  show V c main_v96 (((cfg4.win 4).blk t).view.emb y) = V c main_v96 y
  refine congrArg _ (funext fun a => Fin.ext ?_)
  have e0 : win4_4.index t (0 : Fin 2) = 0 := (block_index_zero t).2.2.2.2.2.2.2.2.1
  have e1 : win4_4.index t (1 : Fin 2) = 0 := (block_index_zero t).2.2.2.2.2.2.2.2.2.1
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Window 5's block at the one grid point is its whole array as the region finds it. -/
theorem weights3_block (c : Dev nD) (t : Fin cfg4.N) :
    (iblk4 V c 5 t : Vec Ideal S128x32 .bf16) = (V c main_v94 : S128x32.Idx → EReal) := by
  funext y
  unfold iblk4
  rw [View.read_apply]
  show V c main_v94 (((cfg4.win 5).blk t).view.emb y) = V c main_v94 y
  refine congrArg _ (funext fun a => Fin.ext ?_)
  have e0 : win4_5.index t (0 : Fin 2) = 0 := (block_index_zero t).2.2.2.2.2.2.2.2.2.2.1
  have e1 : win4_5.index t (1 : Fin 2) = 0 := (block_index_zero t).2.2.2.2.2.2.2.2.2.2.2.1
  match a with
  | ⟨0, _⟩ => show win4_5.index t (0 : Fin 2) * 128 + 1 * (y 0).val = (y 0).val; omega
  | ⟨1, _⟩ => show win4_5.index t (1 : Fin 2) * 32 + 1 * (y 1).val = (y 1).val; omega

/-- Window 6's block at the one grid point is its whole array as the region finds it. -/
theorem bias3_block (c : Dev nD) (t : Fin cfg4.N) :
    (iblk4 V c 6 t : Vec Ideal S1x32 .f32) = (V c main_v97 : S1x32.Idx → EReal) := by
  funext y
  unfold iblk4
  rw [View.read_apply]
  show V c main_v97 (((cfg4.win 6).blk t).view.emb y) = V c main_v97 y
  refine congrArg _ (funext fun a => Fin.ext ?_)
  have e0 : win4_6.index t (0 : Fin 2) = 0 := (block_index_zero t).2.2.2.2.2.2.2.2.2.2.2.2.1
  have e1 : win4_6.index t (1 : Fin 2) = 0 := (block_index_zero t).2.2.2.2.2.2.2.2.2.2.2.2.2.1
  match a with
  | ⟨0, _⟩ => show win4_6.index t (0 : Fin 2) * 1 + 1 * (y 0).val = (y 0).val; omega
  | ⟨1, _⟩ => show win4_6.index t (1 : Fin 2) * 32 + 1 * (y 1).val = (y 1).val; omega

/-- What the grid point writes back is the block of the head of the arrays as the region finds them. -/
theorem written_back (c : Dev nD) (t : Fin cfg4.N) :
    (dat4 (F := Ideal) V c).flushed 7 t
      = ((cfg4.win 7).blk t).view.read (Elt Ideal) (Cert.Spec.head (V c main_v93) (V c main_v38) (V c main_v95) (V c main_v50) (V c main_v96) (V c main_v94) (V c main_v97)) := by
  show (cfg4.win 7).cut (grid4.coords t) ((dat4 V c).after 7 t) = _
  rw [after4_7]
  unfold out4_7
  rw [View.canon_unit_zero offsets_zero]
  simp only [View.ld_unit_zero (S := S64x128) offsets_zero, View.ld_unit_zero (S := S128x128) offsets_zero,
    View.ld_unit_zero (S := S1x128) offsets_zero, View.ld_unit_zero (S := S128x32) offsets_zero,
    View.ld_unit_zero (S := S1x32) offsets_zero]
  rw [pooled_block, weights1_block, bias1_block, weights2_block, bias2_block, weights3_block, bias3_block, payload_eq]
  funext j
  show Cert.Spec.head (V c main_v93) (V c main_v38) (V c main_v95) (V c main_v50) (V c main_v96) (V c main_v94) (V c main_v97) ((cfg4.win 7).xinj (grid4.coords t) j)
    = Cert.Spec.head (V c main_v93) (V c main_v38) (V c main_v95) (V c main_v50) (V c main_v96) (V c main_v94) (V c main_v97) (((cfg4.win 7).blk t).view.emb j)
  refine congrArg _ (funext fun a => Fin.ext ?_)
  have e0 : win4_7.index t (0 : Fin 2) = 0 := (block_index_zero t).2.2.2.2.2.2.2.2.2.2.2.2.2.2.1
  have e1 : win4_7.index t (1 : Fin 2) = 0 := (block_index_zero t).2.2.2.2.2.2.2.2.2.2.2.2.2.2.2
  match a with
  | ⟨0, _⟩ => show (j 0).val = win4_7.index t (0 : Fin 2) * 64 + 1 * (j 0).val; omega
  | ⟨1, _⟩ => show (j 1).val = win4_7.index t (1 : Fin 2) * 32 + 1 * (j 1).val; omega

/-- An index of the output array is in the point's block iff each coordinate is in the block's range on its axis. -/
theorem mem_block (t : Fin cfg4.N) (i : S64x32.Idx) :
    i ∈ ((cfg4.win 7).blk t).view.set ↔ ∀ a : Fin 2, win4_7.index t a * S64x32.size a ≤ (i a).val ∧ (i a).val < win4_7.index t a * S64x32.size a + S64x32.size a := by
  show i ∈ ((View.whole main_v98).slice (win4_7.rect t)).set ↔ _
  rw [View.set_slice_whole, Rect.mem_set_unit]
  exact Iff.rfl

/-- The one grid point's block is the whole output array. -/
theorem covered (i : S64x32.Idx) : ∃ t : Fin cfg4.N, (cfg4.win 7).flush t = true ∧ i ∈ ((cfg4.win 7).blk t).view.set := by
  refine ⟨t4_0, flush4_7 t4_0, ?_⟩
  rw [mem_block]
  have e0 : win4_7.index t4_0 (0 : Fin 2) = 0 := (block_index_zero t4_0).2.2.2.2.2.2.2.2.2.2.2.2.2.2.1
  have e1 : win4_7.index t4_0 (1 : Fin 2) = 0 := (block_index_zero t4_0).2.2.2.2.2.2.2.2.2.2.2.2.2.2.2
  have h0 : (i 0).val < 64 := (i 0).isLt
  have h1 : (i 1).val < 32 := (i 1).isLt
  intro a
  match a with
  | ⟨0, _⟩ => show win4_7.index t4_0 (0 : Fin 2) * 64 ≤ (i 0).val ∧ (i 0).val < win4_7.index t4_0 (0 : Fin 2) * 64 + 64; omega
  | ⟨1, _⟩ => show win4_7.index t4_0 (1 : Fin 2) * 32 ≤ (i 1).val ∧ (i 1).val < win4_7.index t4_0 (1 : Fin 2) * 32 + 32; omega

/-- After the head the output array holds the squashed third dense layer of the twice clipped dense layers of the pooled
    features: one grid point writes the whole array. -/
theorem final (c : Dev nD) :
    (dat4 (F := Ideal) V c).arrAt 7 cfg4.N
      = Cert.Spec.head (V c main_v93) (V c main_v38) (V c main_v95) (V c main_v50) (V c main_v96) (V c main_v94) (V c main_v97) :=
  (dat4 (F := Ideal) V c).arrAt_eq_of_cover 7 (Cert.Spec.head (V c main_v93) (V c main_v38) (V c main_v95) (V c main_v50) (V c main_v96) (V c main_v94) (V c main_v97))
    (fun t _ => written_back V c t) (fun i => covered i)

end Cert.KernelIdeal.Reg4

end
-- ==== Proof.KValue.lean ====
import proofs.«427628_j74397423501380_3_alg».proof.Proof.Gen.KernelIdeal.Frame
import proofs.«427628_j74397423501380_3_alg».proof.Proof.KSpec
import proofs.«427628_j74397423501380_3_alg».proof.Proof.KW1
import proofs.«427628_j74397423501380_3_alg».proof.Proof.HiddenV
import proofs.«427628_j74397423501380_3_alg».proof.Proof.Reg2
import proofs.«427628_j74397423501380_3_alg».proof.Proof.Reg3
import proofs.«427628_j74397423501380_3_alg».proof.Proof.Reg4
import Idealize.ShloMosaic.Lib.StableHlo.Run

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A buffer that none of the listed host operations writes holds after them what it held before. -/
local macro "keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Buffers that keep their contents

Each buffer below is written once, before the first tiled stage (or is a launch array, or a stage's output), and is read
much later. Between the two no host operation has it as its result and no stage has it as an output array, so at every
boundary in between it holds what it held at the earlier one. -/

/-- The flattened first row of the edge list, up to the second message stage's host operations. -/
theorem v1_W4 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by keeps hostOps1
    _ = W1 m ρ c (Proc.devRef .tc main_v1) := W2_of_ne m ρ c main_v1 (by decide)

/-- The second layer's edge bias, a launch array, up to the same point. -/
theorem arg13_W4 (c : Dev nD) : W4 m ρ c (Proc.devRef .tc main_arg13) = W1 m ρ c (Proc.devRef .tc main_arg13) :=
  calc W4 m ρ c (Proc.devRef .tc main_arg13)
    _ = W3 m ρ c (Proc.devRef .tc main_arg13) := W4_of_ne m ρ c main_arg13 (by decide)
    _ = W2 m ρ c (Proc.devRef .tc main_arg13) := by keeps hostOps1
    _ = W1 m ρ c (Proc.devRef .tc main_arg13) := W2_of_ne m ρ c main_arg13 (by decide)

/-- The rounded edge attributes: an input array of the first message stage, which leaves its inputs as entered, and
    untouched from there to the second message stage's start. -/
theorem v55_W5 (c : Dev nD) : W5 m ρ c (Proc.devRef .tc main_v55) = W1 m ρ c (Proc.devRef .tc main_v55) :=
  calc W5 m ρ c (Proc.devRef .tc main_v55)
    _ = W4 m ρ c (Proc.devRef .tc main_v55) := by keeps hostOps2
    _ = W3 m ρ c (Proc.devRef .tc main_v55) := W4_of_ne m ρ c main_v55 (by decide)
    _ = W2 m ρ c (Proc.devRef .tc main_v55) := by keeps hostOps1
    _ = (dat0 (V1 m ρ) c).arrAt 1 cfg0.N := W2_arr m ρ c 1
    _ = (dat0 (V1 m ρ) c).A 1 := (dat0 (V1 m ρ) c).arrAt_in 1 rfl _
    _ = W1 m ρ c (Proc.devRef .tc main_v55) := A_eq0 (V1 m ρ) c 1

/-- The rounded second edge weights, up to the second message stage's start. -/
theorem v54_W5 (c : Dev nD) : W5 m ρ c (Proc.devRef .tc main_v54) = W1 m ρ c (Proc.devRef .tc main_v54) :=
  calc W5 m ρ c (Proc.devRef .tc main_v54)
    _ = W4 m ρ c (Proc.devRef .tc main_v54) := by keeps hostOps2
    _ = W3 m ρ c (Proc.devRef .tc main_v54) := W4_of_ne m ρ c main_v54 (by decide)
    _ = W2 m ρ c (Proc.devRef .tc main_v54) := by keeps hostOps1
    _ = W1 m ρ c (Proc.devRef .tc main_v54) := W2_of_ne m ρ c main_v54 (by decide)

/-- The flattened second row of the edge list, up to the second aggregation. -/
theorem v3_W6 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by keeps hostOps2
    _ = W3 m ρ c (Proc.devRef .tc main_v3) := W4_of_ne m ρ c main_v3 (by decide)
    _ = W2 m ρ c (Proc.devRef .tc main_v3) := by keeps hostOps1
    _ = W1 m ρ c (Proc.devRef .tc main_v3) := W2_of_ne m ρ c main_v3 (by decide)

/-- The second layer's folded bias, up to the same point. -/
theorem v28_W6 (c : Dev nD) : W6 m ρ c (Proc.devRef .tc main_v28) = W1 m ρ c (Proc.devRef .tc main_v28) :=
  calc W6 m ρ c (Proc.devRef .tc main_v28)
    _ = W5 m ρ c (Proc.devRef .tc main_v28) := W6_of_ne m ρ c main_v28 (by decide)
    _ = W4 m ρ c (Proc.devRef .tc main_v28) := by keeps hostOps2
    _ = W3 m ρ c (Proc.devRef .tc main_v28) := W4_of_ne m ρ c main_v28 (by decide)
    _ = W2 m ρ c (Proc.devRef .tc main_v28) := by keeps hostOps1
    _ = W1 m ρ c (Proc.devRef .tc main_v28) := W2_of_ne m ρ c main_v28 (by decide)

/-- The second layer's folded weights, up to the pooled stage's start. -/
theorem v26_W7 (c : Dev nD) : W7 m ρ c (Proc.devRef .tc main_v26) = W1 m ρ c (Proc.devRef .tc main_v26) :=
  calc W7 m ρ c (Proc.devRef .tc main_v26)
    _ = W6 m ρ c (Proc.devRef .tc main_v26) := by keeps hostOps3
    _ = W5 m ρ c (Proc.devRef .tc main_v26) := W6_of_ne m ρ c main_v26 (by decide)
    _ = W4 m ρ c (Proc.devRef .tc main_v26) := by keeps hostOps2
    _ = W3 m ρ c (Proc.devRef .tc main_v26) := W4_of_ne m ρ c main_v26 (by decide)
    _ = W2 m ρ c (Proc.devRef .tc main_v26) := by keeps hostOps1
    _ = W1 m ρ c (Proc.devRef .tc main_v26) := W2_of_ne m ρ c main_v26 (by decide)

/-- The graph numbers as a column, up to the same point. -/
theorem v4_W7 (c : Dev nD) : W7 m ρ c (Proc.devRef .tc main_v4) = W1 m ρ c (Proc.devRef .tc main_v4) :=
  calc W7 m ρ c (Proc.devRef .tc main_v4)
    _ = W6 m ρ c (Proc.devRef .tc main_v4) := by keeps hostOps3
    _ = W5 m ρ c (Proc.devRef .tc main_v4) := W6_of_ne m ρ c main_v4 (by decide)
    _ = W4 m ρ c (Proc.devRef .tc main_v4) := by keeps hostOps2
    _ = W3 m ρ c (Proc.devRef .tc main_v4) := W4_of_ne m ρ c main_v4 (by decide)
    _ = W2 m ρ c (Proc.devRef .tc main_v4) := by keeps hostOps1
    _ = W1 m ρ c (Proc.devRef .tc main_v4) := W2_of_ne m ρ c main_v4 (by decide)

/-- The hidden node features, from the first node update's end to the pooled stage's start. -/
theorem v70_W7 (c : Dev nD) : W7 m ρ c (Proc.devRef .tc main_v70) = W4 m ρ c (Proc.devRef .tc main_v70) :=
  calc W7 m ρ c (Proc.devRef .tc main_v70)
    _ = W6 m ρ c (Proc.devRef .tc main_v70) := by keeps hostOps3
    _ = W5 m ρ c (Proc.devRef .tc main_v70) := W6_of_ne m ρ c main_v70 (by decide)
    _ = W4 m ρ c (Proc.devRef .tc main_v70) := by keeps hostOps2

/-- The graph numbers, a launch array, up to the host operations before the head. -/
theorem arg3_W8 (c : Dev nD) : W8 m ρ c (Proc.devRef .tc main_arg3) = W1 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := by keeps hostOps3
    _ = W5 m ρ c (Proc.devRef .tc main_arg3) := W6_of_ne m ρ c main_arg3 (by decide)
    _ = W4 m ρ c (Proc.devRef .tc main_arg3) := by keeps hostOps2
    _ = W3 m ρ c (Proc.devRef .tc main_arg3) := W4_of_ne m ρ c main_arg3 (by decide)
    _ = W2 m ρ c (Proc.devRef .tc main_arg3) := by keeps hostOps1
    _ = W1 m ρ c (Proc.devRef .tc main_arg3) := W2_of_ne m ρ c main_arg3 (by decide)

/-- The head's last weights, a launch array, up to the same point. -/
theorem arg32_W8 (c : Dev nD) : W8 m ρ c (Proc.devRef .tc main_arg32) = W1 m ρ c (Proc.devRef .tc main_arg32) :=
  calc W8 m ρ c (Proc.devRef .tc main_arg32)
    _ = W7 m ρ c (Proc.devRef .tc main_arg32) := W8_of_ne m ρ c main_arg32 (by decide)
    _ = W6 m ρ c (Proc.devRef .tc main_arg32) := by keeps hostOps3
    _ = W5 m ρ c (Proc.devRef .tc main_arg32) := W6_of_ne m ρ c main_arg32 (by decide)
    _ = W4 m ρ c (Proc.devRef .tc main_arg32) := by keeps hostOps2
    _ = W3 m ρ c (Proc.devRef .tc main_arg32) := W4_of_ne m ρ c main_arg32 (by decide)
    _ = W2 m ρ c (Proc.devRef .tc main_arg32) := by keeps hostOps1
    _ = W1 m ρ c (Proc.devRef .tc main_arg32) := W2_of_ne m ρ c main_arg32 (by decide)

/-- The head's last bias, a launch array, up to the same point. -/
theorem arg33_W8 (c : Dev nD) : W8 m ρ c (Proc.devRef .tc main_arg33) = W1 m ρ c (Proc.devRef .tc main_arg33) :=
  calc W8 m ρ c (Proc.devRef .tc main_arg33)
    _ = W7 m ρ c (Proc.devRef .tc main_arg33) := W8_of_ne m ρ c main_arg33 (by decide)
    _ = W6 m ρ c (Proc.devRef .tc main_arg33) := by keeps hostOps3
    _ = W5 m ρ c (Proc.devRef .tc main_arg33) := W6_of_ne m ρ c main_arg33 (by decide)
    _ = W4 m ρ c (Proc.devRef .tc main_arg33) := by keeps hostOps2
    _ = W3 m ρ c (Proc.devRef .tc main_arg33) := W4_of_ne m ρ c main_arg33 (by decide)
    _ = W2 m ρ c (Proc.devRef .tc main_arg33) := by keeps hostOps1
    _ = W1 m ρ c (Proc.devRef .tc main_arg33) := W2_of_ne m ρ c main_arg33 (by decide)

/-- The head's first folded bias, up to the same point. -/
theorem v40_W8 (c : Dev nD) : W8 m ρ c (Proc.devRef .tc main_v40) = W1 m ρ c (Proc.devRef .tc main_v40) :=
  calc W8 m ρ c (Proc.devRef .tc main_v40)
    _ = W7 m ρ c (Proc.devRef .tc main_v40) := W8_of_ne m ρ c main_v40 (by decide)
    _ = W6 m ρ c (Proc.devRef .tc main_v40) := by keeps hostOps3
    _ = W5 m ρ c (Proc.devRef .tc main_v40) := W6_of_ne m ρ c main_v40 (by decide)
    _ = W4 m ρ c (Proc.devRef .tc main_v40) := by keeps hostOps2
    _ = W3 m ρ c (Proc.devRef .tc main_v40) := W4_of_ne m ρ c main_v40 (by decide)
    _ = W2 m ρ c (Proc.devRef .tc main_v40) := by keeps hostOps1
    _ = W1 m ρ c (Proc.devRef .tc main_v40) := W2_of_ne m ρ c main_v40 (by decide)

/-- The head's second folded bias, up to the same point. -/
theorem v52_W8 (c : Dev nD) : W8 m ρ c (Proc.devRef .tc main_v52) = W1 m ρ c (Proc.devRef .tc main_v52) :=
  calc W8 m ρ c (Proc.devRef .tc main_v52)
    _ = W7 m ρ c (Proc.devRef .tc main_v52) := W8_of_ne m ρ c main_v52 (by decide)
    _ = W6 m ρ c (Proc.devRef .tc main_v52) := by keeps hostOps3
    _ = W5 m ρ c (Proc.devRef .tc main_v52) := W6_of_ne m ρ c main_v52 (by decide)
    _ = W4 m ρ c (Proc.devRef .tc main_v52) := by keeps hostOps2
    _ = W3 m ρ c (Proc.devRef .tc main_v52) := W4_of_ne m ρ c main_v52 (by decide)
    _ = W2 m ρ c (Proc.devRef .tc main_v52) := by keeps hostOps1
    _ = W1 m ρ c (Proc.devRef .tc main_v52) := W2_of_ne m ρ c main_v52 (by decide)

/-- The head's first folded weights, up to the head's start. -/
theorem v38_W9 (c : Dev nD) : W9 m ρ c (Proc.devRef .tc main_v38) = W1 m ρ c (Proc.devRef .tc main_v38) :=
  calc W9 m ρ c (Proc.devRef .tc main_v38)
    _ = W8 m ρ c (Proc.devRef .tc main_v38) := by keeps hostOps4
    _ = W7 m ρ c (Proc.devRef .tc main_v38) := W8_of_ne m ρ c main_v38 (by decide)
    _ = W6 m ρ c (Proc.devRef .tc main_v38) := by keeps hostOps3
    _ = W5 m ρ c (Proc.devRef .tc main_v38) := W6_of_ne m ρ c main_v38 (by decide)
    _ = W4 m ρ c (Proc.devRef .tc main_v38) := by keeps hostOps2
    _ = W3 m ρ c (Proc.devRef .tc main_v38) := W4_of_ne m ρ c main_v38 (by decide)
    _ = W2 m ρ c (Proc.devRef .tc main_v38) := by keeps hostOps1
    _ = W1 m ρ c (Proc.devRef .tc main_v38) := W2_of_ne m ρ c main_v38 (by decide)

/-- The head's second folded weights, up to the head's start. -/
theorem v50_W9 (c : Dev nD) : W9 m ρ c (Proc.devRef .tc main_v50) = W1 m ρ c (Proc.devRef .tc main_v50) :=
  calc W9 m ρ c (Proc.devRef .tc main_v50)
    _ = W8 m ρ c (Proc.devRef .tc main_v50) := by keeps hostOps4
    _ = W7 m ρ c (Proc.devRef .tc main_v50) := W8_of_ne m ρ c main_v50 (by decide)
    _ = W6 m ρ c (Proc.devRef .tc main_v50) := by keeps hostOps3
    _ = W5 m ρ c (Proc.devRef .tc main_v50) := W6_of_ne m ρ c main_v50 (by decide)
    _ = W4 m ρ c (Proc.devRef .tc main_v50) := by keeps hostOps2
    _ = W3 m ρ c (Proc.devRef .tc main_v50) := W4_of_ne m ρ c main_v50 (by decide)
    _ = W2 m ρ c (Proc.devRef .tc main_v50) := by keeps hostOps1
    _ = W1 m ρ c (Proc.devRef .tc main_v50) := W2_of_ne m ρ c main_v50 (by decide)

/-! ## The second convolution

The program gathers the hidden features along the edges' sources, runs the message stage, sums the messages into their
destinations, and runs the pooled node update; each buffer the two stages read is one of the launch arrays' functions
below. -/

/-- The hidden node features, as the function of the launch arrays the first convolution computes. -/
abbrev hid (c : Dev nD) : FVec Ideal S65536x128 .bf16 :=
  KSpec.hidden (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The second convolution's messages. -/
abbrev msg2 (c : Dev nD) : FVec Ideal S1048576x128 .f32 :=
  Cert.Spec.edgeMsg (KSpec.gatherSrc (m ((c : Thread nD τ).loc main_arg1)) (hid m c)) (truncf .bf16 ((m ((c : Thread nD τ).loc main_arg2)) : FVec Ideal S1048576x32 .f32) Cert.KernelIdeal.Facts₀.bitsLt_bf16_f32 : FVec Ideal S1048576x32 .bf16)
    (truncf .bf16 ((m ((c : Thread nD τ).loc main_arg12)) : FVec Ideal S32x128 .f32) Cert.KernelIdeal.Facts₀.bitsLt_bf16_f32 : FVec Ideal S32x128 .bf16) (KSpec.row128 (m ((c : Thread nD τ).loc main_arg13)))

/-- The per-half, per-graph partial sums of the squashed second node update. -/
abbrev part (c : Dev nD) : FVec Ideal S2x64x128 .f32 :=
  Cert.Spec.poolPart (hid m c) (KSpec.aggregate (m ((c : Thread nD τ).loc main_arg1)) (msg2 m c)) (KSpec.foldW (m ((c : Thread nD τ).loc main_arg14)) (KSpec.scale (m ((c : Thread nD τ).loc main_arg16)) (m ((c : Thread nD τ).loc main_arg19))))
    (KSpec.row128 (KSpec.foldB (m ((c : Thread nD τ).loc main_arg15)) (KSpec.scale (m ((c : Thread nD τ).loc main_arg16)) (m ((c : Thread nD τ).loc main_arg19))) (KSpec.shift (m ((c : Thread nD τ).loc main_arg17)) (m ((c : Thread nD τ).loc main_arg18)) (KSpec.scale (m ((c : Thread nD τ).loc main_arg16)) (m ((c : Thread nD τ).loc main_arg19)))))) (shapeCast S65536x1 (m ((c : Thread nD τ).loc main_arg3)) Cert.KernelIdeal.Facts₀.shapeCasts_S65536_S65536x1)

/-- The gather before the second message stage reads the hidden features at the edges' sources: the index column is
    the same chain of compare, add and select over the first row of the edge list as before the first stage. -/
theorem v77 (c : Dev nD) : W5 m ρ c (Proc.devRef .tc main_v77) = KSpec.gatherSrc (m ((c : Thread nD τ).loc main_arg1)) (hid m c) := by
  show StableHlo.after hostOps2 (W4 m ρ c) (Proc.devRef .tc main_v77) = _
  after_results
  rw [v1_W4 m ρ c, KW1.v1 m ρ c, HiddenV.hidden m ρ c]
  rfl

/-- The second edge bias as one row. -/
theorem v78 (c : Dev nD) : W5 m ρ c (Proc.devRef .tc main_v78) = KSpec.row128 (m ((c : Thread nD τ).loc main_arg13)) := by
  show StableHlo.after hostOps2 (W4 m ρ c) (Proc.devRef .tc main_v78) = _
  after_results
  rw [arg13_W4 m ρ c, KW1.arg m ρ c main_arg13 (by decide)]
  rfl

/-- The second message stage leaves the second convolution's messages in its output array. -/
theorem v79 (c : Dev nD) : W6 m ρ c (Proc.devRef .tc main_v79) = msg2 m c :=
  ((W6_arr m ρ c 4).trans (Reg2.final (V5 m ρ) c)).trans (by
    dsimp only [V5]
    rw [v77 m ρ c, v55_W5 m ρ c, KW1.v55 m ρ c, v54_W5 m ρ c, KW1.v54 m ρ c, v78 m ρ c])

/-- The scatter-add after it sums the messages into their destination nodes, from zero. -/
theorem v82 (c : Dev nD) : W7 m ρ c (Proc.devRef .tc main_v82) = KSpec.aggregate (m ((c : Thread nD τ).loc main_arg1)) (msg2 m c) := by
  show StableHlo.after hostOps3 (W6 m ρ c) (Proc.devRef .tc main_v82) = _
  after_results
  rw [v3_W6 m ρ c, KW1.v3 m ρ c, v79 m ρ c]
  rfl

/-- The second layer's folded bias as one row. -/
theorem v83 (c : Dev nD) : W7 m ρ c (Proc.devRef .tc main_v83) = KSpec.row128 (KSpec.foldB (m ((c : Thread nD τ).loc main_arg15)) (KSpec.scale (m ((c : Thread nD τ).loc main_arg16)) (m ((c : Thread nD τ).loc main_arg19))) (KSpec.shift (m ((c : Thread nD τ).loc main_arg17)) (m ((c : Thread nD τ).loc main_arg18)) (KSpec.scale (m ((c : Thread nD τ).loc main_arg16)) (m ((c : Thread nD τ).loc main_arg19))))) := by
  show StableHlo.after hostOps3 (W6 m ρ c) (Proc.devRef .tc main_v83) = _
  after_results
  rw [v28_W6 m ρ c, KW1.v28 m ρ c]
  rfl

/-- The pooled stage leaves the partial sums in its output array. -/
theorem v84 (c : Dev nD) : W8 m ρ c (Proc.devRef .tc main_v84) = part m c :=
  ((W8_arr m ρ c 5).trans (Reg3.final (V7 m ρ) c)).trans (by
    dsimp only [V7]
    rw [v70_W7 m ρ c, HiddenV.hidden m ρ c, v82 m ρ c, v26_W7 m ρ c, KW1.v26 m ρ c, v83 m ρ c, v4_W7 m ρ c,
      KW1.v4 m ρ c])

/-! ## The head's operands -/

/-- The two halves' partial sums added, divided graph by graph by the number of the graph's nodes (a scatter-add of
    ones over the graph numbers), and rounded: the rounded per-graph means. -/
theorem v93 (c : Dev nD) : W9 m ρ c (Proc.devRef .tc main_v93)
    = truncf .bf16 (KSpec.pooled (KSpec.pooledSum (hid m c) (m ((c : Thread nD τ).loc main_arg1)) (m ((c : Thread nD τ).loc main_arg2)) (m ((c : Thread nD τ).loc main_arg3)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (m ((c : Thread nD τ).loc main_arg3))) Cert.KernelIdeal.Facts₀.bitsLt_bf16_f32 := by
  show StableHlo.after hostOps4 (W8 m ρ c) (Proc.devRef .tc main_v93) = _
  after_results
  rw [v84 m ρ c, arg3_W8 m ρ c, KW1.arg m ρ c main_arg3 (by decide)]
  rfl

/-- The head's last weights, rounded. -/
theorem v94 (c : Dev nD) : W9 m ρ c (Proc.devRef .tc main_v94) = (truncf .bf16 ((m ((c : Thread nD τ).loc main_arg32)) : FVec Ideal S128x32 .f32) Cert.KernelIdeal.Facts₀.bitsLt_bf16_f32 : FVec Ideal S128x32 .bf16) := by
  show StableHlo.after hostOps4 (W8 m ρ c) (Proc.devRef .tc main_v94) = _
  after_results
  rw [arg32_W8 m ρ c, KW1.arg m ρ c main_arg32 (by decide)]

/-- The head's first folded bias as one row. -/
theorem v95 (c : Dev nD) : W9 m ρ c (Proc.devRef .tc main_v95) = KSpec.row128 (KSpec.foldB (m ((c : Thread nD τ).loc main_arg21)) (KSpec.scale (m ((c : Thread nD τ).loc main_arg22)) (m ((c : Thread nD τ).loc main_arg25))) (KSpec.shift (m ((c : Thread nD τ).loc main_arg23)) (m ((c : Thread nD τ).loc main_arg24)) (KSpec.scale (m ((c : Thread nD τ).loc main_arg22)) (m ((c : Thread nD τ).loc main_arg25))))) := by
  show StableHlo.after hostOps4 (W8 m ρ c) (Proc.devRef .tc main_v95) = _
  after_results
  rw [v40_W8 m ρ c, KW1.v40 m ρ c]
  rfl

/-- The head's second folded bias as one row. -/
theorem v96 (c : Dev nD) : W9 m ρ c (Proc.devRef .tc main_v96) = KSpec.row128 (KSpec.foldB (m ((c : Thread nD τ).loc main_arg27)) (KSpec.scale (m ((c : Thread nD τ).loc main_arg28)) (m ((c : Thread nD τ).loc main_arg31))) (KSpec.shift (m ((c : Thread nD τ).loc main_arg29)) (m ((c : Thread nD τ).loc main_arg30)) (KSpec.scale (m ((c : Thread nD τ).loc main_arg28)) (m ((c : Thread nD τ).loc main_arg31))))) := by
  show StableHlo.after hostOps4 (W8 m ρ c) (Proc.devRef .tc main_v96) = _
  after_results
  rw [v52_W8 m ρ c, KW1.v52 m ρ c]
  rfl

/-- The head's last bias as one row. -/
theorem v97 (c : Dev nD) : W9 m ρ c (Proc.devRef .tc main_v97) = KSpec.row32 (m ((c : Thread nD τ).loc main_arg33)) := by
  show StableHlo.after hostOps4 (W8 m ρ c) (Proc.devRef .tc main_v97) = _
  after_results
  rw [arg33_W8 m ρ c, KW1.arg m ρ c main_arg33 (by decide)]
  rfl

/-! ## The result -/

/-- The result buffer ends at the program's function `KSpec.out` of the launch arrays. -/
theorem value (c : Dev nD) :
    W10 m ρ c (Proc.devRef .tc main_v98) = KSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) :=
  ((W10_arr m ρ c 7).trans (Reg4.final (V9 m ρ) c)).trans (by
    dsimp only [V9]
    rw [v93 m ρ c, v38_W9 m ρ c, KW1.v38 m ρ c, v95 m ρ c, v50_W9 m ρ c, KW1.v50 m ρ c, v96 m ρ c, v94 m ρ c,
      v97 m ρ c]
    rfl)

end Cert.KernelIdeal.KValue

end
-- ==== Proof.Dom.lean ====
/-
  The domain on which the two programs agree: every float input a real number, the four running variances nonnegative
  (so that `1 / sqrt (v + eps)` is a positive real), and no graph without a node (so that the per-graph mean divides by
  a nonzero count).
-/
import proofs.«427628_j74397423501380_3_alg».proof.Proof.KSpec

noncomputable section

namespace Cert.KernelIdeal

open Idealize.ShloMosaic Cert.KernelIdeal Cert.Spec

variable [Cert.KernelIdeal.Facts]

/-- The domain of the equivalence. -/
structure Dom (x : FVec Ideal S65536x128 .f32) (ei : IVec S2x1048576 32) (ea : FVec Ideal S1048576x32 .f32) (batch : IVec S65536 32) (We1 : FVec Ideal S32x128 .f32) (be1 : FVec Ideal S128 .f32) (W1 : FVec Ideal S128x128 .f32) (b1 : FVec Ideal S128 .f32) (g1 : FVec Ideal S128 .f32) (bt1 : FVec Ideal S128 .f32) (m1 : FVec Ideal S128 .f32) (v1 : FVec Ideal S128 .f32) (We2 : FVec Ideal S32x128 .f32) (be2 : FVec Ideal S128 .f32) (W2 : FVec Ideal S128x128 .f32) (b2 : FVec Ideal S128 .f32) (g2 : FVec Ideal S128 .f32) (bt2 : FVec Ideal S128 .f32) (m2 : FVec Ideal S128 .f32) (v2 : FVec Ideal S128 .f32) (Wa1 : FVec Ideal S128x128 .f32) (ba1 : FVec Ideal S128 .f32) (ga1 : FVec Ideal S128 .f32) (bta1 : FVec Ideal S128 .f32) (ma1 : FVec Ideal S128 .f32) (va1 : FVec Ideal S128 .f32) (Wa2 : FVec Ideal S128x128 .f32) (ba2 : FVec Ideal S128 .f32) (ga2 : FVec Ideal S128 .f32) (bta2 : FVec Ideal S128 .f32) (ma2 : FVec Ideal S128 .f32) (va2 : FVec Ideal S128 .f32) (Wa3 : FVec Ideal S128x32 .f32) (ba3 : FVec Ideal S32 .f32) : Prop where
  x_real : ∀ i, IsReal (x i)
  ea_real : ∀ i, IsReal (ea i)
  We1_real : ∀ i, IsReal (We1 i)
  be1_real : ∀ i, IsReal (be1 i)
  W1_real : ∀ i, IsReal (W1 i)
  b1_real : ∀ i, IsReal (b1 i)
  g1_real : ∀ i, IsReal (g1 i)
  bt1_real : ∀ i, IsReal (bt1 i)
  m1_real : ∀ i, IsReal (m1 i)
  v1_real : ∀ i, IsReal (v1 i)
  We2_real : ∀ i, IsReal (We2 i)
  be2_real : ∀ i, IsReal (be2 i)
  W2_real : ∀ i, IsReal (W2 i)
  b2_real : ∀ i, IsReal (b2 i)
  g2_real : ∀ i, IsReal (g2 i)
  bt2_real : ∀ i, IsReal (bt2 i)
  m2_real : ∀ i, IsReal (m2 i)
  v2_real : ∀ i, IsReal (v2 i)
  Wa1_real : ∀ i, IsReal (Wa1 i)
  ba1_real : ∀ i, IsReal (ba1 i)
  ga1_real : ∀ i, IsReal (ga1 i)
  bta1_real : ∀ i, IsReal (bta1 i)
  ma1_real : ∀ i, IsReal (ma1 i)
  va1_real : ∀ i, IsReal (va1 i)
  Wa2_real : ∀ i, IsReal (Wa2 i)
  ba2_real : ∀ i, IsReal (ba2 i)
  ga2_real : ∀ i, IsReal (ga2 i)
  bta2_real : ∀ i, IsReal (bta2 i)
  ma2_real : ∀ i, IsReal (ma2 i)
  va2_real : ∀ i, IsReal (va2 i)
  Wa3_real : ∀ i, IsReal (Wa3 i)
  ba3_real : ∀ i, IsReal (ba3 i)
  v1_nonneg : ∀ i, 0 ≤ v1 i
  v2_nonneg : ∀ i, 0 ≤ v2 i
  va1_nonneg : ∀ i, 0 ≤ va1 i
  va2_nonneg : ∀ i, 0 ≤ va2 i
  count_pos : ∀ i, 0 < KSpec.count batch i

end Cert.KernelIdeal

end
-- ==== Proof.PreFacts.lean ====
import proofs.«427628_j74397423501380_3_alg».proof.Pre_finite_inputs
import proofs.«427628_j74397423501380_3_alg».proof.Proof.Gen.Pre_finite_inputs
import proofs.«427628_j74397423501380_3_alg».proof.Proof.Gen.KernelIdeal
import proofs.«427628_j74397423501380_3_alg».proof.Proof.Dom
import Idealize.ShloMosaic.Lib.ReduceAll
import Idealize.ShloMosaic.Lib.ValueIdx
import Idealize.ShloMosaic.PureOps.Ideal.Laws

noncomputable section

namespace Cert.KernelIdeal.PreFacts

open Idealize.ShloMosaic Cert.KernelIdeal Cert.Spec

/-- The scalar shape has one index. -/
instance : Subsingleton (⟨0, ![]⟩ : Shape).Idx := ⟨fun a b => funext fun d => d.elim0⟩

/-- The pattern `0x7F800000` (exponent field all ones, fraction zero, sign 0) is +∞. -/
theorem inf_val : Ideal.ofBits .f32 0x7F800000#32 = ⊤ := by
  simp [Ideal.ofBits, Ideal.ieee]

/-- A one-bit word made from a decision is 1 exactly when the decision is true. -/
theorem ofBool_one (b : Bool) : BitVec.ofBool b = 1#1 ↔ b = true := by cases b <;> decide

/-- An extended real whose absolute value `max x (-x)` is below +∞ is a real number. -/
theorem real_of_abs_lt {x : EReal} (h : Ideal.cmp .olt (max x (-x)) (Ideal.ofBits .f32 0x7F800000#32) = 1#1) : IsReal x := by
  rw [inf_val] at h
  unfold Ideal.cmp at h
  rw [ofBool_one, decide_eq_true_eq] at h
  induction x using EReal.rec with
  | bot => rw [EReal.neg_bot, max_eq_right bot_le] at h; exact absurd h (lt_irrefl _)
  | top => rw [max_eq_left le_top] at h; exact absurd h (lt_irrefl _)
  | coe r => exact ⟨r, rfl⟩

/-- The comparison `x ≥ 0` against the zero pattern, when it is 1, says `0 ≤ x`. -/
theorem nonneg_of_oge {x : EReal} (h : Ideal.cmp .oge x (Ideal.ofBits .f32 0x00000000#32) = 1#1) : 0 ≤ x := by
  rw [Ideal.ofBits_zero_f32] at h
  unfold Ideal.cmp at h
  rwa [ofBool_one, decide_eq_true_eq] at h

/-- The comparison `x > 0` against the zero pattern, when it is 1, says `0 < x`. -/
theorem pos_of_ogt {x : EReal} (h : Ideal.cmp .ogt x (Ideal.ofBits .f32 0x00000000#32) = 1#1) : 0 < x := by
  rw [Ideal.ofBits_zero_f32] at h
  unfold Ideal.cmp at h
  rwa [ofBool_one, decide_eq_true_eq] at h

/-- `all (|a| < +∞)` over an array of any shape: every entry is real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (h : Host.reduce IntOp.andi (cmpf .olt (Host.absf a) (broadcastInDim s ![] hb (constant ⟨0, ![]⟩ .f32 0x7F800000#32)))
      (constantI ⟨0, ![]⟩ 1 1#1) hr h0 ValueIdx.ix0 = 1#1) (i : s.Idx) : IsReal (a i) :=
  real_of_abs_lt (Host.reduce_andi_all _ _ hr h0 ValueIdx.ix0 h i)

/-- `all (v ≥ 0)`: every entry is nonnegative. -/
theorem nonneg_of_all {s : Shape} {axes : List (Fin s.rank)} (v : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (h : Host.reduce IntOp.andi (cmpf .oge v (broadcastInDim s ![] hb (constant ⟨0, ![]⟩ .f32 0x00000000#32)))
      (constantI ⟨0, ![]⟩ 1 1#1) hr h0 ValueIdx.ix0 = 1#1) (i : s.Idx) : 0 ≤ v i :=
  nonneg_of_oge (Host.reduce_andi_all _ _ hr h0 ValueIdx.ix0 h i)

/-- `all (c > 0)`: every entry is positive. -/
theorem pos_of_all {s : Shape} {axes : List (Fin s.rank)} (c : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (h : Host.reduce IntOp.andi (cmpf .ogt c (broadcastInDim s ![] hb (constant ⟨0, ![]⟩ .f32 0x00000000#32)))
      (constantI ⟨0, ![]⟩ 1 1#1) hr h0 ValueIdx.ix0 = 1#1) (i : s.Idx) : 0 < c i :=
  pos_of_ogt (Host.reduce_andi_all _ _ hr h0 ValueIdx.ix0 h i)

/-- A conjunction of two scalar bits is 1 exactly when both are. -/
theorem and_ix0 {A B : IVec ⟨0, ![]⟩ 1} (h : andi A B ValueIdx.ix0 = 1#1) : A ValueIdx.ix0 = 1#1 ∧ B ValueIdx.ix0 = 1#1 :=
  IntOp.andi_eq_one.1 h

/-- The printed precondition, all ones, puts the inputs in the domain: each `all (|a| < inf)` makes an array real, each
    `all (v ≥ 0)` a variance nonnegative, and `all (count > 0)` every graph nonempty. -/
theorem dom_of_pre (x : FVec Ideal S65536x128 .f32) (ei : IVec S2x1048576 32) (ea : FVec Ideal S1048576x32 .f32) (batch : IVec S65536 32) (We1 : FVec Ideal S32x128 .f32) (be1 : FVec Ideal S128 .f32) (W1 : FVec Ideal S128x128 .f32) (b1 : FVec Ideal S128 .f32) (g1 : FVec Ideal S128 .f32) (bt1 : FVec Ideal S128 .f32) (m1 : FVec Ideal S128 .f32) (v1 : FVec Ideal S128 .f32) (We2 : FVec Ideal S32x128 .f32) (be2 : FVec Ideal S128 .f32) (W2 : FVec Ideal S128x128 .f32) (b2 : FVec Ideal S128 .f32) (g2 : FVec Ideal S128 .f32) (bt2 : FVec Ideal S128 .f32) (m2 : FVec Ideal S128 .f32) (v2 : FVec Ideal S128 .f32) (Wa1 : FVec Ideal S128x128 .f32) (ba1 : FVec Ideal S128 .f32) (ga1 : FVec Ideal S128 .f32) (bta1 : FVec Ideal S128 .f32) (ma1 : FVec Ideal S128 .f32) (va1 : FVec Ideal S128 .f32) (Wa2 : FVec Ideal S128x128 .f32) (ba2 : FVec Ideal S128 .f32) (ga2 : FVec Ideal S128 .f32) (bta2 : FVec Ideal S128 .f32) (ma2 : FVec Ideal S128 .f32) (va2 : FVec Ideal S128 .f32) (Wa3 : FVec Ideal S128x32 .f32) (ba3 : FVec Ideal S32 .f32)
    (h : Cert.Pre_finite_inputs.fn (F := Ideal) x ei ea batch We1 be1 W1 b1 g1 bt1 m1 v1 We2 be2 W2 b2 g2 bt2 m2 v2 Wa1 ba1 ga1 bta1 ma1 va1 Wa2 ba2 ga2 bta2 ma2 va2 Wa3 ba3 = fun _ => 1#1) :
    Dom x ei ea batch We1 be1 W1 b1 g1 bt1 m1 v1 We2 be2 W2 b2 g2 bt2 m2 v2 Wa1 ba1 ga1 bta1 ma1 va1 Wa2 ba2 ga2 bta2 ma2 va2 Wa3 ba3 := by
  -- the precondition at its one index is a conjunction of 37 bits nested to the left, `(((c1 ∧ c2) ∧ c3) ∧ …) ∧ c37`:
  -- 32 times `all (|a| < +∞)`, four times `all (v ≥ 0)`, and `all (count > 0)`; split it from the last conjunct inward
  have h0 := congrFun h ValueIdx.ix0
  obtain ⟨h0, c37⟩ := and_ix0 h0
  obtain ⟨h0, c36⟩ := and_ix0 h0
  obtain ⟨h0, c35⟩ := and_ix0 h0
  obtain ⟨h0, c34⟩ := and_ix0 h0
  obtain ⟨h0, c33⟩ := and_ix0 h0
  obtain ⟨h0, c32⟩ := and_ix0 h0
  obtain ⟨h0, c31⟩ := and_ix0 h0
  obtain ⟨h0, c30⟩ := and_ix0 h0
  obtain ⟨h0, c29⟩ := and_ix0 h0
  obtain ⟨h0, c28⟩ := and_ix0 h0
  obtain ⟨h0, c27⟩ := and_ix0 h0
  obtain ⟨h0, c26⟩ := and_ix0 h0
  obtain ⟨h0, c25⟩ := and_ix0 h0
  obtain ⟨h0, c24⟩ := and_ix0 h0
  obtain ⟨h0, c23⟩ := and_ix0 h0
  obtain ⟨h0, c22⟩ := and_ix0 h0
  obtain ⟨h0, c21⟩ := and_ix0 h0
  obtain ⟨h0, c20⟩ := and_ix0 h0
  obtain ⟨h0, c19⟩ := and_ix0 h0
  obtain ⟨h0, c18⟩ := and_ix0 h0
  obtain ⟨h0, c17⟩ := and_ix0 h0
  obtain ⟨h0, c16⟩ := and_ix0 h0
  obtain ⟨h0, c15⟩ := and_ix0 h0
  obtain ⟨h0, c14⟩ := and_ix0 h0
  obtain ⟨h0, c13⟩ := and_ix0 h0
  obtain ⟨h0, c12⟩ := and_ix0 h0
  obtain ⟨h0, c11⟩ := and_ix0 h0
  obtain ⟨h0, c10⟩ := and_ix0 h0
  obtain ⟨h0, c9⟩ := and_ix0 h0
  obtain ⟨h0, c8⟩ := and_ix0 h0
  obtain ⟨h0, c7⟩ := and_ix0 h0
  obtain ⟨h0, c6⟩ := and_ix0 h0
  obtain ⟨h0, c5⟩ := and_ix0 h0
  obtain ⟨h0, c4⟩ := and_ix0 h0
  obtain ⟨h0, c3⟩ := and_ix0 h0
  obtain ⟨c1, c2⟩ := and_ix0 h0
  -- the scatter-add of ones the last conjunct compares with zero is, operation for operation, `KSpec.count batch`
  exact
    { x_real := real_of_all x _ _ _ c1
      ea_real := real_of_all ea _ _ _ c2
      We1_real := real_of_all We1 _ _ _ c3
      be1_real := real_of_all be1 _ _ _ c4
      W1_real := real_of_all W1 _ _ _ c5
      b1_real := real_of_all b1 _ _ _ c6
      g1_real := real_of_all g1 _ _ _ c7
      bt1_real := real_of_all bt1 _ _ _ c8
      m1_real := real_of_all m1 _ _ _ c9
      v1_real := real_of_all v1 _ _ _ c10
      We2_real := real_of_all We2 _ _ _ c11
      be2_real := real_of_all be2 _ _ _ c12
      W2_real := real_of_all W2 _ _ _ c13
      b2_real := real_of_all b2 _ _ _ c14
      g2_real := real_of_all g2 _ _ _ c15
      bt2_real := real_of_all bt2 _ _ _ c16
      m2_real := real_of_all m2 _ _ _ c17
      v2_real := real_of_all v2 _ _ _ c18
      Wa1_real := real_of_all Wa1 _ _ _ c19
      ba1_real := real_of_all ba1 _ _ _ c20
      ga1_real := real_of_all ga1 _ _ _ c21
      bta1_real := real_of_all bta1 _ _ _ c22
      ma1_real := real_of_all ma1 _ _ _ c23
      va1_real := real_of_all va1 _ _ _ c24
      Wa2_real := real_of_all Wa2 _ _ _ c25
      ba2_real := real_of_all ba2 _ _ _ c26
      ga2_real := real_of_all ga2 _ _ _ c27
      bta2_real := real_of_all bta2 _ _ _ c28
      ma2_real := real_of_all ma2 _ _ _ c29
      va2_real := real_of_all va2 _ _ _ c30
      Wa3_real := real_of_all Wa3 _ _ _ c31
      ba3_real := real_of_all ba3 _ _ _ c32
      v1_nonneg := nonneg_of_all v1 _ _ _ c33
      v2_nonneg := nonneg_of_all v2 _ _ _ c34
      va1_nonneg := nonneg_of_all va1 _ _ _ c35
      va2_nonneg := nonneg_of_all va2 _ _ _ c36
      count_pos := pos_of_all (KSpec.count batch) _ _ _ c37 }

end Cert.KernelIdeal.PreFacts

end
-- ==== Proof.Tool.lean ====
/-
  Real-number bookkeeping on the extended reals: sums, products, clipping, the logistic function, a quotient by a nonzero
  real and `1 / sqrt` of a positive real stay real; and the one law that joins the two programs: an affine map per output
  channel (a batch-norm in evaluation mode) applied after a linear layer is the linear layer with rescaled weights and bias.
-/
import proofs.«427628_j74397423501380_3_alg».proof.Proof.Spec
import Idealize.ShloMosaic.PureOps.Ideal.Laws
import Mathlib.Algebra.BigOperators.Ring.Finset
import Mathlib.Tactic.Ring
import Mathlib.Tactic.Linarith

noncomputable section

namespace Cert.Tool

open Idealize.ShloMosaic Cert.Spec

theorem isReal_add {a b : EReal} (ha : IsReal a) (hb : IsReal b) : IsReal (a + b) := by
  obtain ⟨r, rfl⟩ := ha
  obtain ⟨s, rfl⟩ := hb
  exact ⟨r + s, (EReal.coe_add r s).symm⟩
theorem isReal_sub {a b : EReal} (ha : IsReal a) (hb : IsReal b) : IsReal (a - b) := by
  obtain ⟨r, rfl⟩ := ha
  obtain ⟨s, rfl⟩ := hb
  exact ⟨r - s, (EReal.coe_sub r s).symm⟩
theorem isReal_mul {a b : EReal} (ha : IsReal a) (hb : IsReal b) : IsReal (a * b) := by
  obtain ⟨r, rfl⟩ := ha
  obtain ⟨s, rfl⟩ := hb
  exact ⟨r * s, (EReal.coe_mul r s).symm⟩
theorem isReal_max {a b : EReal} (ha : IsReal a) (hb : IsReal b) : IsReal (max a b) := by
  rcases le_total a b with h | h
  · rw [max_eq_right h]; exact hb
  · rw [max_eq_left h]; exact ha
theorem isReal_zero : IsReal (0 : EReal) := ⟨0, rfl⟩
theorem isReal_one : IsReal (1 : EReal) := ⟨1, rfl⟩
theorem isReal_sum {ι : Type*} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (hf a (Finset.mem_insert_self a s)) (ih fun i hi => hf i (Finset.mem_insert_of_mem hi))
theorem isReal_sigm {a : EReal} (ha : IsReal a) : IsReal (sigm a) := by
  obtain ⟨r, rfl⟩ := ha
  exact ⟨(1 + Real.exp (-r))⁻¹, Ideal.logistic_coe r⟩
/-- A real divided by a nonzero extended real is real (a quotient by an infinity is zero). -/
theorem isReal_div {a b : EReal} (ha : IsReal a) (hb : b ≠ 0) : IsReal (Ideal.div a b) := by
  obtain ⟨r, rfl⟩ := ha
  rw [Ideal.div, if_neg hb]
  induction b using EReal.rec with
  | bot => rw [EReal.inv_bot, mul_zero]; exact isReal_zero
  | top => rw [EReal.inv_top, mul_zero]; exact isReal_zero
  | coe s => rw [← EReal.coe_inv]; exact isReal_mul ⟨r, rfl⟩ ⟨s⁻¹, rfl⟩

/-- The pattern `0x3727C5AC` has sign 0, exponent field 110 and fraction field 2606508: a normal number,
    `(2^23 + 2606508) · 2^(110 - 127 - 23)`. -/
private theorem eps_val :
    Ideal.ofBits .f32 0x3727C5AC#32 = (((10995116 : ℝ) * (2 : ℝ) ^ (-40 : Int) : ℝ) : EReal) := by
  simp [Ideal.ofBits, Ideal.ieee]

/-- The printed epsilon `0x3727C5AC` (the binary value nearest 1e-5) is a positive real. -/
theorem eps_pos : ∃ e : ℝ, 0 < e ∧ Ideal.ofBits .f32 0x3727C5AC#32 = (e : EReal) :=
  ⟨_, by positivity, eps_val⟩
/-- `1 / sqrt (v + eps)` of a nonnegative real variance is real. -/
theorem isReal_rsqrt_eps {v : EReal} (hv : IsReal v) (h0 : 0 ≤ v) :
    IsReal (Ideal.rsqrt (v + Ideal.ofBits .f32 0x3727C5AC#32)) := by
  obtain ⟨r, rfl⟩ := hv
  obtain ⟨e, he, hE⟩ := eps_pos
  have hr : 0 ≤ r := EReal.coe_nonneg.mp h0
  have hpos : 0 < r + e := by linarith
  rw [hE, ← EReal.coe_add, Ideal.rsqrt_coe, if_neg (not_lt.mpr hpos.le), if_neg hpos.ne']
  exact ⟨_, rfl⟩
theorem isReal_ofBits_zero : Ideal.ofBits .f32 0x00000000#32 = 0 := Ideal.ofBits_zero_f32

/-- A finite sum of real numbers, taken in the extended reals, is the real sum. -/
private theorem coe_sum {ι : Type*} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The fold of an affine map per channel into the preceding linear layer: with every quantity real,
    `Σ z·(W·(g·r)) + (b·(g·r) + (bt − m·(g·r))) = g·((Σ z·W + b) − m)·r + bt`. -/
theorem bn_fold {K : Nat} (z W : Fin K → EReal) (b g bt mm r : EReal)
    (hz : ∀ k, IsReal (z k)) (hW : ∀ k, IsReal (W k)) (hb : IsReal b) (hg : IsReal g) (hbt : IsReal bt)
    (hm : IsReal mm) (hr : IsReal r) :
    (∑ k : Fin K, z k * (W k * (g * r))) + (b * (g * r) + (bt - mm * (g * r)))
      = g * (((∑ k : Fin K, z k * W k) + b) - mm) * r + bt := by
  choose zr hzr using hz
  choose Wr hWr using hW
  obtain ⟨b, rfl⟩ := hb
  obtain ⟨g, rfl⟩ := hg
  obtain ⟨bt, rfl⟩ := hbt
  obtain ⟨mm, rfl⟩ := hm
  obtain ⟨r, rfl⟩ := hr
  have hL : ∀ k, z k * (W k * ((g : EReal) * (r : EReal))) = ((zr k * (Wr k * (g * r)) : ℝ) : EReal) := fun k => by
    rw [hzr k, hWr k, ← EReal.coe_mul, ← EReal.coe_mul, ← EReal.coe_mul]
  have hR : ∀ k, z k * W k = ((zr k * Wr k : ℝ) : EReal) := fun k => by
    rw [hzr k, hWr k, ← EReal.coe_mul]
  rw [Finset.sum_congr rfl fun k _ => hL k, Finset.sum_congr rfl fun k _ => hR k, coe_sum, coe_sum]
  -- every term is now the image of a real number: move the image outward on both sides
  rw [← EReal.coe_mul, ← EReal.coe_mul, ← EReal.coe_mul, ← EReal.coe_sub, ← EReal.coe_add, ← EReal.coe_add,
    ← EReal.coe_add, ← EReal.coe_sub, ← EReal.coe_mul, ← EReal.coe_mul, ← EReal.coe_add]
  congr 1
  have hs : ∑ k : Fin K, zr k * (Wr k * (g * r)) = (∑ k : Fin K, zr k * Wr k) * (g * r) := by
    rw [Finset.sum_mul]
    exact Finset.sum_congr rfl fun k _ => (mul_assoc _ _ _).symm
  rw [hs]
  ring

/-- Both sides of `bn_fold` are real. -/
theorem bn_fold_real {K : Nat} (z W : Fin K → EReal) (b g bt mm r : EReal)
    (hz : ∀ k, IsReal (z k)) (hW : ∀ k, IsReal (W k)) (hb : IsReal b) (hg : IsReal g) (hbt : IsReal bt)
    (hm : IsReal mm) (hr : IsReal r) :
    IsReal (g * (((∑ k : Fin K, z k * W k) + b) - mm) * r + bt) :=
  isReal_add
    (isReal_mul
      (isReal_mul hg
        (isReal_sub (isReal_add (isReal_sum _ _ fun k _ => isReal_mul (hz k) (hW k)) hb) hm))
      hr)
    hbt

/-- Clipping at zero twice is clipping once. -/
theorem max_max_zero (a : EReal) : max (max a 0) 0 = max a 0 := by
  rw [max_assoc, max_self]

end Cert.Tool

end
-- ==== Proof.Fold.lean ====
/-
  The fold law at the level of arrays: a dense layer whose weights and bias carry the batch-norm's scale and shift is, entry
  by entry, the plain dense layer followed by the batch-norm, wherever the layer's input, the parameters and the running
  statistics are real and the variance is nonnegative; and the stages keep their entries real: a gather copies entries, a
  scatter-add and a dense layer add finitely many products, a clip and a squash keep a real real.
-/
import proofs.«427628_j74397423501380_3_alg».proof.Proof.KSpec
import proofs.«427628_j74397423501380_3_alg».proof.Proof.Tool
import Idealize.ShloMosaic.Lib.ValueIdx
import Idealize.ShloMosaic.Lib.ValueLayout
import Idealize.ShloMosaic.Lib.Pipeline.Value

noncomputable section

namespace Cert.Fold

open Idealize.ShloMosaic Idealize.ShloMosaic.ValueIdx Cert.Spec Cert.Tool Cert.KernelIdeal

variable [Cert.KernelIdeal.Facts]

open Cert.KernelIdeal.Facts₀ Cert.KernelIdeal.Facts

/-- `g / sqrt (v + eps)` at a channel. -/
theorem scale_apply (g v : FVec Ideal S128 .f32) (j : Fin 128) :
    KSpec.scale g v (ix1 j) = g (ix1 j) * Ideal.rsqrt (v (ix1 j) + Ideal.ofBits .f32 0x3727C5AC#32) := by
  unfold KSpec.scale
  rw [mulf_apply]
  show g (ix1 j) * Ideal.rsqrt (addf v (broadcastInDim S128 ![] bcast_S_S128 (constant (F := Ideal) S_ .f32 0x3727C5AC#32)) (ix1 j)) = _
  rw [addf_apply, broadcastInDim_apply _ bcast_S_S128 _ (ix1 j) ix0 (fun a => a.elim0), constant_apply]

/-- The shift at a channel: `bt - m * scale`. -/
theorem shift_apply (bt m sc : FVec Ideal S128 .f32) (i : S128.Idx) : KSpec.shift bt m sc i = bt i - m i * sc i := rfl

/-- The folded bias at a channel: `b * scale + shift`. -/
theorem foldB_apply (b sc sh : FVec Ideal S128 .f32) (i : S128.Idx) : KSpec.foldB b sc sh i = b i * sc i + sh i := rfl

/-- The folded weights at an entry: the weight times its output channel's scale. -/
theorem foldW_apply (W : FVec Ideal S128x128 .f32) (sc : FVec Ideal S128 .f32) (k j : Fin 128) :
    KSpec.foldW W sc (ix2 k j) = W (ix2 k j) * sc (ix1 j) := by
  unfold KSpec.foldW
  rw [truncf_apply, mulf_apply]
  congr 1
  rw [broadcastInDim_apply _ bcast_S1x128_S128x128_0_1 _ (ix2 k j) (ix2 (0 : Fin 1) j) (fun a => match a with
    | ⟨0, _⟩ => by show (0 : Nat) = if (1 : Nat) = 1 then 0 else _; rw [if_pos rfl]
    | ⟨1, _⟩ => by show j.val = if (128 : Nat) = 1 then 0 else j.val; rw [if_neg (by decide)])]
  exact broadcastInDim_apply _ bcast_S128_S1x128_1 sc (ix2 (0 : Fin 1) j) (ix1 j) (fun a => match a with
    | ⟨0, _⟩ => by show j.val = if (128 : Nat) = 1 then 0 else j.val; rw [if_neg (by decide)])

/-- The row form read at a column. -/
theorem row128_apply (b : FVec Ideal S128 .f32) (j : Fin 128) : KSpec.row128 b (ix2 0 j) = b (ix1 j) := by
  unfold KSpec.row128
  refine (shapeCast_addUnit_apply ![128] b shapeCasts_S128_S1x128 (ix2 0 j)).trans (congrArg b (funext fun a => ?_))
  match a with
  | ⟨0, _⟩ => rfl

theorem row32_apply (b : FVec Ideal S32 .f32) (j : Fin 32) : KSpec.row32 b (ix2 0 j) = b (ix1 j) := by
  unfold KSpec.row32
  refine (shapeCast_addUnit_apply ![32] b shapeCasts_S32_S1x32 (ix2 0 j)).trans (congrArg b (funext fun a => ?_))
  match a with
  | ⟨0, _⟩ => rfl

/-- The row form of a real vector is real. -/
theorem row128_real (b : FVec Ideal S128 .f32) (hb : ∀ i, IsReal (b i)) : ∀ i, IsReal (KSpec.row128 b i) := by
  intro i
  unfold KSpec.row128
  rw [shapeCast_addUnit_apply ![128] b shapeCasts_S128_S1x128 i]
  exact hb _

/-- A row-by-column sum of reals is real. -/
theorem dot_real {M K N : Nat} (a : Arr2 M K) (w : Arr2 K N) (ha : ∀ i, IsReal (a i)) (hw : ∀ i, IsReal (w i))
    (r : Fin M) (q : Fin N) : IsReal (dot a w r q) :=
  isReal_sum _ _ fun k _ => isReal_mul (ha _) (hw _)

/-- An edge message of real operands is real. -/
theorem edgeMsg_real {E K N : Nat} (g : Arr2 E N) (ea : Arr2 E K) (we : Arr2 K N) (be : Arr2 1 N)
    (hg : ∀ i, IsReal (g i)) (hea : ∀ i, IsReal (ea i)) (hwe : ∀ i, IsReal (we i)) (hbe : ∀ i, IsReal (be i)) :
    ∀ i, IsReal (edgeMsg g ea we be i) :=
  fun i => isReal_max (isReal_add (isReal_add (hg i) (dot_real ea we hea hwe _ _)) (hbe _)) isReal_zero

/-- A gather copies entries of its operand (an index outside the operand is clamped into it): real in, real out. -/
theorem gatherSrc_real (ei : IVec S2x1048576 32) (x : FVec Ideal S65536x128 .bf16) (hx : ∀ i, IsReal (x i)) :
    ∀ i, IsReal (KSpec.gatherSrc ei x i) := by
  intro i
  unfold KSpec.gatherSrc Host.gather
  exact hx _

/-- A scatter-add of real updates into a real operand is real: each entry is the operand's plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact isReal_add (hx i) (isReal_sum _ _ fun j _ => hu j)

/-- The zero splat is real everywhere. -/
theorem zeros_real {t : Shape} (h : S_.BroadcastsInDim t (![] : Fin 0 → Fin t.rank)) (i : t.Idx) :
    IsReal (broadcastInDim t ![] h (constant (F := Ideal) S_ .f32 0x00000000#32) i) := by
  rw [broadcastInDim_apply _ h _ i ix0 (fun a => a.elim0), constant_apply, isReal_ofBits_zero]
  exact isReal_zero

/-- A scatter-add into zeros of real updates is real. -/
theorem aggregate_real (ei : IVec S2x1048576 32) (msg : FVec Ideal S1048576x128 .f32) (hm : ∀ i, IsReal (msg i)) :
    ∀ i, IsReal (KSpec.aggregate ei msg i) := by
  unfold KSpec.aggregate
  exact scatterAdd_real _ _ _ _ (fun i => zeros_real _ i) hm

/-- The dense layer with folded weights and bias, at an entry, is the batch-norm of the plain dense layer, and is real. -/
theorem dense_fold {M : Nat} (z : Arr2 M 128) (W : FVec Ideal S128x128 .f32) (b g bt mm v : FVec Ideal S128 .f32)
    (hz : ∀ i, IsReal (z i)) (hW : ∀ i, IsReal (W i)) (hb : ∀ i, IsReal (b i)) (hg : ∀ i, IsReal (g i))
    (hbt : ∀ i, IsReal (bt i)) (hm : ∀ i, IsReal (mm i)) (hv : ∀ i, IsReal (v i)) (hvnn : ∀ i, 0 ≤ v i)
    (n : Fin M) (j : Fin 128) :
    dense z (KSpec.foldW W (KSpec.scale g v))
        (KSpec.row128 (KSpec.foldB b (KSpec.scale g v) (KSpec.shift bt mm (KSpec.scale g v)))) (ix2 n j)
      = g (ix1 j) * ((dot z W n j + b (ix1 j)) - mm (ix1 j))
          * Ideal.rsqrt (v (ix1 j) + Ideal.ofBits .f32 0x3727C5AC#32) + bt (ix1 j)
    ∧ IsReal (g (ix1 j) * ((dot z W n j + b (ix1 j)) - mm (ix1 j))
          * Ideal.rsqrt (v (ix1 j) + Ideal.ofBits .f32 0x3727C5AC#32) + bt (ix1 j)) := by
  have hr : IsReal (Ideal.rsqrt (v (ix1 j) + Ideal.ofBits .f32 0x3727C5AC#32)) := isReal_rsqrt_eps (hv _) (hvnn _)
  refine ⟨?_, bn_fold_real (fun k => z (ix2 n k)) (fun k => W (ix2 k j)) _ _ _ _ _ (fun k => hz _) (fun k => hW _) (hb _) (hg _) (hbt _) (hm _) hr⟩
  show (∑ k : Fin 128, z (ix2 n k) * KSpec.foldW W (KSpec.scale g v) (ix2 k j))
      + KSpec.row128 (KSpec.foldB b (KSpec.scale g v) (KSpec.shift bt mm (KSpec.scale g v))) (ix2 0 j) = _
  rw [row128_apply, foldB_apply, shift_apply, Finset.sum_congr rfl fun k _ => by rw [foldW_apply], scale_apply]
  exact bn_fold (fun k => z (ix2 n k)) (fun k => W (ix2 k j)) _ _ _ _ _ (fun k => hz _) (fun k => hW _) (hb _) (hg _) (hbt _) (hm _) hr

end Cert.Fold

end
-- ==== Proof.Bridge1.lean ====
/-
  The first convolution on both sides. An edge message is the same clipped sum; the scatter-add is the same host operation
  of equal operands; the node update with the batch-norm folded into its weights is the reference's linear layer followed
  by the batch-norm and two clips, by the fold law, the layer's input being real.
-/
import proofs.«427628_j74397423501380_3_alg».proof.Proof.KSpec
import proofs.«427628_j74397423501380_3_alg».proof.Proof.Tool
import proofs.«427628_j74397423501380_3_alg».proof.Proof.Fold

import proofs.«427628_j74397423501380_3_alg».proof.Proof.Gen.KernelIdeal
import proofs.«427628_j74397423501380_3_alg».proof.Proof.Gen.ReferenceIdeal.Read

noncomputable section

namespace Cert.Bridge1

open Idealize.ShloMosaic Idealize.ShloMosaic.ValueIdx Cert.Spec Cert.Tool Cert.KernelIdeal
open Cert.ReferenceIdeal.Read

/-! ## The index vectors and the gathered rows: the same host operations of the same edge list -/

/-- The gather indices: both programs take row 0 of the edge list and count a negative entry from the end. -/
theorem src_eq (ei : IVec S2x1048576 32) : KSpec.src ei = val_main_v9 (F := Ideal) ei := rfl

/-- The scatter indices: both programs take row 1 of the edge list. -/
theorem dst_eq (ei : IVec S2x1048576 32) : KSpec.dst ei = val_main_v18 (F := Ideal) ei := rfl

/-- The gathered source rows: the same gather of the node features by the same indices (narrowing the features is the
    identity on the extended reals). -/
theorem gathered_eq (x : FVec Ideal S65536x128 .f32) (ei : IVec S2x1048576 32) :
    KSpec.gatherSrc ei (truncf .bf16 x (by decide)) = val_main_v10 (F := Ideal) x ei := by
  unfold KSpec.gatherSrc val_main_v10
  rw [src_eq]
  rfl

/-! ## The edge messages, entry by entry -/

/-- The kernel's message of edge `e` at channel `j`: gathered entry plus the attribute row times the weight column plus
    the bias, clipped at zero. -/
theorem edgeMsg_entry (G : Arr2 1048576 128) (ea : FVec Ideal S1048576x32 .f32) (We1 : FVec Ideal S32x128 .f32)
    (be1 : FVec Ideal S128 .f32) (e : Fin 1048576) (j : Fin 128) :
    edgeMsg G (truncf .bf16 ea (by decide)) (truncf .bf16 We1 (by decide)) (KSpec.row128 be1) (ix2 e j)
      = max (G (ix2 e j) + (∑ k : Fin 32, ea (ix2 e k) * We1 (ix2 k j)) + be1 (ix1 j)) 0 := by
  show max (G (ix2 e j) + (∑ k : Fin 32, ea (ix2 e k) * We1 (ix2 k j)) + KSpec.row128 be1 (ix2 0 j)) 0 = _
  rw [Cert.Fold.row128_apply]

/-- The reference's message of edge `e` at channel `j` is the same expression of its gathered entry. -/
theorem ref_msg_entry (x : FVec Ideal S65536x128 .f32) (ei : IVec S2x1048576 32) (ea : FVec Ideal S1048576x32 .f32)
    (We1 : FVec Ideal S32x128 .f32) (be1 : FVec Ideal S128 .f32) (e : Fin 1048576) (j : Fin 128) :
    val_main_v16 (F := Ideal) x ei ea We1 be1 (ix2 e j)
      = max (val_main_v10 (F := Ideal) x ei (ix2 e j) + (∑ k : Fin 32, ea (ix2 e k) * We1 (ix2 k j)) + be1 (ix1 j)) 0 := by
  rw [val_main_v16_apply, val_main_v15_apply, val_main_v12_apply, val_main_v11_apply, val_main_v14_apply,
    val_main_v13_apply, val_main_call0_v0_apply, val_main_call0_cst_apply]
  have h1 : ∀ k : Fin 32, lidx_main_v11 (ix2 e j) k = ix2 e k := fun k => funext fun a => Fin.ext (by
    match a with
    | ⟨0, _⟩ => rfl
    | ⟨1, _⟩ => rfl)
  have h2 : ∀ k : Fin 32, ridx_main_v11 (ix2 e j) k = ix2 k j := fun k => funext fun a => Fin.ext (by
    match a with
    | ⟨0, _⟩ => rfl
    | ⟨1, _⟩ => rfl)
  have h3 : idx_main_v13 (idx_main_v14 (ix2 e j)) = ix1 j := funext fun a => Fin.ext (by
    match a with
    | ⟨0, _⟩ => rfl)
  simp only [h1, h2, h3, Ideal.maximumf_def, Ideal.addf_def, Ideal.ofBits_def, Ideal.ofBits_zero_f32]

/-- The messages of the first convolution are the same array in both programs. -/
theorem messages_eq (x : FVec Ideal S65536x128 .f32) (ei : IVec S2x1048576 32) (ea : FVec Ideal S1048576x32 .f32)
    (We1 : FVec Ideal S32x128 .f32) (be1 : FVec Ideal S128 .f32) :
    edgeMsg (KSpec.gatherSrc ei (truncf .bf16 x (by decide))) (truncf .bf16 ea (by decide)) (truncf .bf16 We1 (by decide)) (KSpec.row128 be1)
      = val_main_v16 (F := Ideal) x ei ea We1 be1 := by
  funext i
  obtain ⟨e, j, rfl⟩ : ∃ (e : Fin 1048576) (j : Fin 128), i = ix2 e j := ⟨i 0, i 1, eq_ix2 i⟩
  rw [gathered_eq]
  exact (edgeMsg_entry (val_main_v10 (F := Ideal) x ei) ea We1 be1 e j).trans (ref_msg_entry x ei ea We1 be1 e j).symm

/-! ## The aggregated messages -/

/-- Summing the messages into their destination nodes: the same scatter-add into zeros of equal operands. -/
theorem aggregated_eq (x : FVec Ideal S65536x128 .f32) (ei : IVec S2x1048576 32) (ea : FVec Ideal S1048576x32 .f32)
    (We1 : FVec Ideal S32x128 .f32) (be1 : FVec Ideal S128 .f32) :
    KSpec.aggregate ei (edgeMsg (KSpec.gatherSrc ei (truncf .bf16 x (by decide))) (truncf .bf16 ea (by decide)) (truncf .bf16 We1 (by decide)) (KSpec.row128 be1))
      = val_main_v19 (F := Ideal) x ei ea We1 be1 := by
  rw [messages_eq]
  unfold KSpec.aggregate val_main_v19
  rw [dst_eq]
  rfl

/-! ## The node update, entry by entry -/

/-- The batch-normed linear layer of the summed features at node `n`, channel `j`. -/
def bnLayer (x agg : Arr2 65536 128) (W1 : Arr2 128 128) (b1 g1 bt1 m1 v1 : FVec Ideal S128 .f32) (n : Fin 65536) (j : Fin 128) : EReal :=
  g1 (ix1 j) * (((∑ k : Fin 128, (x (ix2 n k) + agg (ix2 n k)) * W1 (ix2 k j)) + b1 (ix1 j)) - m1 (ix1 j))
    * Ideal.rsqrt (v1 (ix1 j) + Ideal.ofBits .f32 0x3727C5AC#32) + bt1 (ix1 j)

/-- The kernel's folded node update at an entry is the clipped batch-normed layer, which is real: the fold law, the
    layer's input being a sum of two reals. -/
theorem folded_update_entry (x agg : FVec Ideal S65536x128 .f32) (W1 : FVec Ideal S128x128 .f32)
    (b1 g1 bt1 m1 v1 : FVec Ideal S128 .f32)
    (hx : ∀ i, IsReal (x i)) (hagg : ∀ i, IsReal (agg i)) (hW1 : ∀ i, IsReal (W1 i)) (hb1 : ∀ i, IsReal (b1 i))
    (hg1 : ∀ i, IsReal (g1 i)) (hbt1 : ∀ i, IsReal (bt1 i)) (hm1 : ∀ i, IsReal (m1 i)) (hv1 : ∀ i, IsReal (v1 i))
    (hv1nn : ∀ i, 0 ≤ v1 i) (n : Fin 65536) (j : Fin 128) :
    nodeUpd (truncf .bf16 x (by decide)) agg (KSpec.foldW W1 (KSpec.scale g1 v1))
        (KSpec.row128 (KSpec.foldB b1 (KSpec.scale g1 v1) (KSpec.shift bt1 m1 (KSpec.scale g1 v1)))) (ix2 n j)
      = max (bnLayer x agg W1 b1 g1 bt1 m1 v1 n j) 0
    ∧ IsReal (bnLayer x agg W1 b1 g1 bt1 m1 v1 n j) := by
  have h := Cert.Fold.dense_fold (M := 65536) (fun i => x i + agg i) W1 b1 g1 bt1 m1 v1
    (fun i => isReal_add (hx i) (hagg i)) hW1 hb1 hg1 hbt1 hm1 hv1 hv1nn n j
  exact ⟨congrArg (fun t => max t 0) h.1, h.2⟩

/-- The reference's hidden features at an entry: the same batch-normed layer of its own aggregated messages, clipped
    twice. -/
theorem ref_hidden_entry (x : FVec Ideal S65536x128 .f32) (ei : IVec S2x1048576 32) (ea : FVec Ideal S1048576x32 .f32)
    (We1 : FVec Ideal S32x128 .f32) (be1 : FVec Ideal S128 .f32) (W1 : FVec Ideal S128x128 .f32)
    (b1 g1 bt1 m1 v1 : FVec Ideal S128 .f32) (n : Fin 65536) (j : Fin 128) :
    val_main_v41 (F := Ideal) x ei ea We1 be1 W1 b1 g1 bt1 m1 v1 (ix2 n j)
      = max (max (bnLayer x (val_main_v19 (F := Ideal) x ei ea We1 be1) W1 b1 g1 bt1 m1 v1 n j) 0) 0 := by
  rw [val_main_v41_apply, val_main_v40_apply, val_main_v39_apply, val_main_v36_apply, val_main_v30_apply,
    val_main_v27_apply, val_main_v24_apply, val_main_v21_apply,
    val_main_v23_apply, val_main_v22_apply, val_main_v26_apply, val_main_v25_apply, val_main_v29_apply, val_main_v28_apply,
    val_main_v35_apply, val_main_v34_apply, val_main_v33_apply, val_main_v32_apply, val_main_v31_apply, val_main_cst_1_apply,
    val_main_v38_apply, val_main_v37_apply,
    val_main_call1_v0_apply, val_main_call1_cst_apply, val_main_call2_v0_apply, val_main_call2_cst_apply]
  have h1 : ∀ k : Fin 128, lidx_main_v21 (ix2 n j) k = ix2 n k := fun k => funext fun a => Fin.ext (by
    match a with
    | ⟨0, _⟩ => rfl
    | ⟨1, _⟩ => rfl)
  have h2 : ∀ k : Fin 128, ridx_main_v21 (ix2 n j) k = ix2 k j := fun k => funext fun a => Fin.ext (by
    match a with
    | ⟨0, _⟩ => rfl
    | ⟨1, _⟩ => rfl)
  have c23 : idx_main_v22 (idx_main_v23 (ix2 n j)) = ix1 j := funext fun a => Fin.ext (by match a with | ⟨0, _⟩ => rfl)
  have c26 : idx_main_v25 (idx_main_v26 (ix2 n j)) = ix1 j := funext fun a => Fin.ext (by match a with | ⟨0, _⟩ => rfl)
  have c29 : idx_main_v28 (idx_main_v29 (ix2 n j)) = ix1 j := funext fun a => Fin.ext (by match a with | ⟨0, _⟩ => rfl)
  have c35 : idx_main_v34 (idx_main_v35 (ix2 n j)) = ix1 j := funext fun a => Fin.ext (by match a with | ⟨0, _⟩ => rfl)
  have c38 : idx_main_v37 (idx_main_v38 (ix2 n j)) = ix1 j := funext fun a => Fin.ext (by match a with | ⟨0, _⟩ => rfl)
  simp only [val_main_v20_apply, h1, h2, c23, c26, c29, c35, c38, Ideal.maximumf_def, Ideal.addf_def, Ideal.subf_def,
    Ideal.mulf_def, Ideal.hostUnary_rsqrt_def, Ideal.ofBits_def, Ideal.ofBits_zero_f32]
  rfl

/-! ## The hidden features -/

/-- The hidden node features: the kernel's folded node update is the reference's twice clipped batch-normed layer, and
    every entry is real. -/
theorem hidden_eq (x : FVec Ideal S65536x128 .f32) (ei : IVec S2x1048576 32) (ea : FVec Ideal S1048576x32 .f32) (We1 : FVec Ideal S32x128 .f32) (be1 : FVec Ideal S128 .f32) (W1 : FVec Ideal S128x128 .f32) (b1 : FVec Ideal S128 .f32) (g1 : FVec Ideal S128 .f32) (bt1 : FVec Ideal S128 .f32) (m1 : FVec Ideal S128 .f32) (v1 : FVec Ideal S128 .f32)
    (hx : ∀ i, IsReal (x i)) (hea : ∀ i, IsReal (ea i)) (hWe1 : ∀ i, IsReal (We1 i)) (hbe1 : ∀ i, IsReal (be1 i)) (hW1 : ∀ i, IsReal (W1 i)) (hb1 : ∀ i, IsReal (b1 i)) (hg1 : ∀ i, IsReal (g1 i)) (hbt1 : ∀ i, IsReal (bt1 i)) (hm1 : ∀ i, IsReal (m1 i)) (hv1 : ∀ i, IsReal (v1 i)) (hv1nn : ∀ i, 0 ≤ v1 i) :
    KSpec.hidden x ei ea We1 be1 W1 b1 g1 bt1 m1 v1 = Cert.ReferenceIdeal.Read.val_main_v41 (F := Ideal) x ei ea We1 be1 W1 b1 g1 bt1 m1 v1
      ∧ ∀ i, IsReal (KSpec.hidden x ei ea We1 be1 W1 b1 g1 bt1 m1 v1 i) := by
  -- the messages and their sums are real
  have hmsg : ∀ i, IsReal (edgeMsg (KSpec.gatherSrc ei (truncf .bf16 x (by decide))) (truncf .bf16 ea (by decide)) (truncf .bf16 We1 (by decide)) (KSpec.row128 be1) i) :=
    Cert.Fold.edgeMsg_real _ _ _ _ (Cert.Fold.gatherSrc_real ei (truncf .bf16 x (by decide)) hx) hea hWe1 (Cert.Fold.row128_real be1 hbe1)
  have hagg : ∀ i, IsReal (val_main_v19 (F := Ideal) x ei ea We1 be1 i) := by
    rw [← aggregated_eq]
    exact Cert.Fold.aggregate_real ei _ hmsg
  -- the kernel's hidden features are the folded update of the reference's aggregated messages
  have hk : KSpec.hidden x ei ea We1 be1 W1 b1 g1 bt1 m1 v1
      = nodeUpd (truncf .bf16 x (by decide)) (val_main_v19 (F := Ideal) x ei ea We1 be1) (KSpec.foldW W1 (KSpec.scale g1 v1))
          (KSpec.row128 (KSpec.foldB b1 (KSpec.scale g1 v1) (KSpec.shift bt1 m1 (KSpec.scale g1 v1)))) := by
    rw [← aggregated_eq]
    rfl
  have hent := folded_update_entry x (val_main_v19 (F := Ideal) x ei ea We1 be1) W1 b1 g1 bt1 m1 v1 hx hagg hW1 hb1 hg1 hbt1 hm1 hv1 hv1nn
  refine ⟨?_, ?_⟩
  · funext i
    obtain ⟨n, j, rfl⟩ : ∃ (n : Fin 65536) (j : Fin 128), i = ix2 n j := ⟨i 0, i 1, eq_ix2 i⟩
    rw [hk, (hent n j).1, ref_hidden_entry, max_max_zero]
  · intro i
    obtain ⟨n, j, rfl⟩ : ∃ (n : Fin 65536) (j : Fin 128), i = ix2 n j := ⟨i 0, i 1, eq_ix2 i⟩
    rw [hk, (hent n j).1]
    exact isReal_max (hent n j).2 isReal_zero

end Cert.Bridge1

end
-- ==== Proof.PoolMath.lean ====
/-
  The per-graph sum two ways. The tiled stage adds, for each half of the node range and each tile of the half, every row
  of the tile weighted by 1 where the row's graph number is the graph and by 0 elsewhere; the host's scatter-add adds every
  row whose graph number, read as a signed integer, is the graph's row index. Both are the sum of the rows of the graph's
  nodes: the halves and tiles partition the 65536 nodes, and a graph number selects row `g` exactly when its word is `g`.
-/
import proofs.«427628_j74397423501380_3_alg».proof.ReferenceIdeal
import proofs.«427628_j74397423501380_3_alg».proof.Proof.Gen.ReferenceIdeal
import proofs.«427628_j74397423501380_3_alg».proof.Proof.Spec
import Idealize.ShloMosaic.Lib.ValueIdx

noncomputable section

namespace Cert.PoolMath

open Idealize.ShloMosaic Idealize.ShloMosaic.ValueIdx Cert.Spec Cert.ReferenceIdeal

/-- For this scatter the index read for an update `j = (n, f')` is `(n, 0)`: the node's coordinate, and the one
    component of the index vector. -/
private theorem siIdx_eq (j : S65536x128.Idx) (c : Fin scatter_S64x128_S65536x1_S65536x128_1_0_0_1.scatterDimsToOperandDims.length) :
    scatter_S64x128_S65536x1_S65536x128_1_0_0_1.siIdx j c = ix2 (j 0) 0 := by
  funext b
  match b with
  | ⟨0, _⟩ => rfl
  | ⟨1, _⟩ =>
    apply Fin.ext
    have := c.isLt
    show c.val = 0
    have h : scatter_S64x128_S65536x1_S65536x128_1_0_0_1.scatterDimsToOperandDims.length = 1 := rfl
    omega

/-- On the row axis the window starts at the node's graph word, read signed. -/
private theorem start0 (j : S65536x128.Idx) (idx : IVec S65536x1 32) :
    scatter_S64x128_S65536x1_S65536x128_1_0_0_1.start j idx 0 = (idx (ix2 (j 0) 0)).toInt := by
  unfold ScatterDims.start
  rw [dif_pos (show (0 : Fin S64x128.rank) ∈ scatter_S64x128_S65536x1_S65536x128_1_0_0_1.scatterDimsToOperandDims from by decide)]
  rw [siIdx_eq]
  rfl

/-- On the feature axis the window starts at zero. -/
private theorem start1 (j : S65536x128.Idx) (idx : IVec S65536x1 32) :
    scatter_S64x128_S65536x1_S65536x128_1_0_0_1.start j idx 1 = 0 := by
  unfold ScatterDims.start
  rw [dif_neg (show ¬ (1 : Fin S64x128.rank) ∈ scatter_S64x128_S65536x1_S65536x128_1_0_0_1.scatterDimsToOperandDims from by decide)]

/-- The row axis is an inserted axis: no window coordinate. -/
private theorem window0 (j : S65536x128.Idx) : scatter_S64x128_S65536x1_S65536x128_1_0_0_1.window j 0 = 0 := by
  unfold ScatterDims.window
  rw [dif_neg (show ¬ (0 : Fin S64x128.rank) ∈ scatter_S64x128_S65536x1_S65536x128_1_0_0_1.sKept from by decide)]

/-- The feature axis carries the update's feature coordinate. -/
private theorem window1 (j : S65536x128.Idx) : scatter_S64x128_S65536x1_S65536x128_1_0_0_1.window j 1 = (j 1).val := by
  unfold ScatterDims.window
  rw [dif_pos (show (1 : Fin S64x128.rank) ∈ scatter_S64x128_S65536x1_S65536x128_1_0_0_1.sKept from by decide)]
  rfl

/-- An update `j = (n, f')` lands on `(g, f)` exactly when the word at `(n, 0)`, read signed, is `g` and `f' = f`. -/
private theorem resultIdx_iff (j : S65536x128.Idx) (idx : IVec S65536x1 32) (g : Fin 64) (f : Fin 128) :
    scatter_S64x128_S65536x1_S65536x128_1_0_0_1.resultIdx? j idx = some (ix2 g f)
      ↔ (idx (ix2 (j 0) 0)).toInt = (g.val : Int) ∧ j 1 = f := by
  have hs0 := start0 j idx
  have hs1 := start1 j idx
  have hw0 := window0 j
  have hw1 := window1 j
  have hg := g.isLt
  have hf := f.isLt
  have hj1 : (j 1).val < 128 := (j 1).isLt
  unfold ScatterDims.resultIdx?
  constructor
  · intro h
    split at h
    · rename_i H
      have h' := Option.some.inj h
      have e0 : (scatter_S64x128_S65536x1_S65536x128_1_0_0_1.start j idx 0 + scatter_S64x128_S65536x1_S65536x128_1_0_0_1.window j 0).toNat = g.val := congrArg Fin.val (congrFun h' 0)
      have e1 : (scatter_S64x128_S65536x1_S65536x128_1_0_0_1.start j idx 1 + scatter_S64x128_S65536x1_S65536x128_1_0_0_1.window j 1).toNat = f.val := congrArg Fin.val (congrFun h' 1)
      have H0 := (H 0).1
      rw [hs0, hw0] at e0 H0
      rw [hs1, hw1] at e1
      exact ⟨by omega, Fin.ext (by omega)⟩
    · exact absurd h (by simp)
  · rintro ⟨hT, hjf⟩
    have hjf' : (j 1).val = f.val := congrArg Fin.val hjf
    have H : ∀ a, 0 ≤ scatter_S64x128_S65536x1_S65536x128_1_0_0_1.start j idx a + scatter_S64x128_S65536x1_S65536x128_1_0_0_1.window j a
        ∧ scatter_S64x128_S65536x1_S65536x128_1_0_0_1.start j idx a + scatter_S64x128_S65536x1_S65536x128_1_0_0_1.window j a < S64x128.size a := by
      intro a
      match a with
      | ⟨0, _⟩ =>
        show 0 ≤ scatter_S64x128_S65536x1_S65536x128_1_0_0_1.start j idx 0 + scatter_S64x128_S65536x1_S65536x128_1_0_0_1.window j 0 ∧ scatter_S64x128_S65536x1_S65536x128_1_0_0_1.start j idx 0 + scatter_S64x128_S65536x1_S65536x128_1_0_0_1.window j 0 < ((64 : Nat) : Int)
        rw [hs0, hw0]; omega
      | ⟨1, _⟩ =>
        show 0 ≤ scatter_S64x128_S65536x1_S65536x128_1_0_0_1.start j idx 1 + scatter_S64x128_S65536x1_S65536x128_1_0_0_1.window j 1 ∧ scatter_S64x128_S65536x1_S65536x128_1_0_0_1.start j idx 1 + scatter_S64x128_S65536x1_S65536x128_1_0_0_1.window j 1 < ((128 : Nat) : Int)
        rw [hs1, hw1]; omega
    rw [dif_pos H]
    congr 1
    funext a
    match a with
    | ⟨0, _⟩ =>
      apply Fin.ext
      show (scatter_S64x128_S65536x1_S65536x128_1_0_0_1.start j idx 0 + scatter_S64x128_S65536x1_S65536x128_1_0_0_1.window j 0).toNat = g.val
      rw [hs0, hw0]; omega
    | ⟨1, _⟩ =>
      apply Fin.ext
      show (scatter_S64x128_S65536x1_S65536x128_1_0_0_1.start j idx 1 + scatter_S64x128_S65536x1_S65536x128_1_0_0_1.window j 1).toNat = f.val
      rw [hs1, hw1]; omega

/-- A 32-bit word read as a signed integer is `g` (below 64) exactly when the word is `g`. -/
private theorem toInt_eq_iff (w : BitVec 32) (g : Nat) (hg : g < 64) :
    w.toInt = (g : Int) ↔ w = BitVec.ofNat 32 g := by
  have hw := w.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-- The 65536 nodes enumerated by half, tile of the half and row of the tile: node `n` is row `n mod 4096` of tile
    `(n / 4096) mod 8` of half `n / 32768`. -/
private def nodeEquiv : (Fin 2 × Fin 8) × Fin 4096 ≃ Fin 65536 where
  toFun p := nodeRow p.1.1 p.1.2 p.2
  invFun n := ((⟨n.val / 32768, by have := n.isLt; omega⟩, ⟨n.val / 4096 % 8, by omega⟩), ⟨n.val % 4096, by omega⟩)
  left_inv := by
    rintro ⟨⟨c, t⟩, r⟩
    have := c.isLt
    have := t.isLt
    have := r.isLt
    refine Prod.ext (Prod.ext (Fin.ext ?_) (Fin.ext ?_)) (Fin.ext ?_) <;> simp only [nodeRow] <;> omega
  right_inv := by
    intro n
    have := n.isLt
    apply Fin.ext
    simp only [nodeRow]
    omega

/-- A sum over halves, tiles and rows is the sum over the nodes. -/
private theorem sum_nodes {M : Type*} [AddCommMonoid M] (F : Fin 65536 → M) :
    ∑ c : Fin 2, ∑ t : Fin 8, ∑ r : Fin 4096, F (nodeRow c t r) = ∑ n : Fin 65536, F n := by
  rw [← Equiv.sum_comp nodeEquiv F, Fintype.sum_prod_type, Fintype.sum_prod_type]
  rfl

/-- The weighted sums over halves, tiles and rows are the sum over the update rows that land on `(g, f)`. -/
theorem pool_eq (batch : Fin 65536 → BitVec 32)
    (col idx : (⟨2, ![65536, 1]⟩ : Shape).Idx → BitVec 32)
    (hcol : ∀ n : Fin 65536, col (ix2 n 0) = batch n) (hidx : ∀ n : Fin 65536, idx (ix2 n 0) = batch n)
    (u : Arr2 65536 128) (g : Fin 64) (f : Fin 128) :
    (∑ c : Fin 2, ∑ t : Fin 8, ∑ r : Fin 4096,
        (if col (ix2 (nodeRow c t r) 0) = BitVec.ofNat 32 g.val then (1 : EReal) else 0) * u (ix2 (nodeRow c t r) f))
      = ∑ j ∈ Finset.univ.filter (fun j : S65536x128.Idx =>
            scatter_S64x128_S65536x1_S65536x128_1_0_0_1.resultIdx? j (idx : IVec S65536x1 32) = some (ix2 g f)), u j := by
  -- landing, in terms of the node's graph word
  have hland : ∀ (n : Fin 65536) (b : Fin 128),
      scatter_S64x128_S65536x1_S65536x128_1_0_0_1.resultIdx? (ix2 n b) (idx : IVec S65536x1 32) = some (ix2 g f)
        ↔ (batch n = BitVec.ofNat 32 g.val ∧ b = f) := by
    intro n b
    rw [resultIdx_iff]
    show (idx (ix2 n 0)).toInt = (g.val : Int) ∧ b = f ↔ _
    rw [hidx n, toInt_eq_iff _ _ g.isLt]
  have hR : ∑ j ∈ Finset.univ.filter (fun j : S65536x128.Idx =>
        scatter_S64x128_S65536x1_S65536x128_1_0_0_1.resultIdx? j (idx : IVec S65536x1 32) = some (ix2 g f)), u j
      = ∑ n : Fin 65536, if batch n = BitVec.ofNat 32 g.val then u (ix2 n f) else 0 := by
    rw [Finset.sum_filter, sum_idx2]
    refine Finset.sum_congr rfl fun n _ => ?_
    have hb : ∀ b : Fin 128,
        (if scatter_S64x128_S65536x1_S65536x128_1_0_0_1.resultIdx? (ix2 n b) (idx : IVec S65536x1 32) = some (ix2 g f) then u (ix2 n b) else 0)
          = if b = f then (if batch n = BitVec.ofNat 32 g.val then u (ix2 n b) else 0) else 0 := by
      intro b
      by_cases h1 : batch n = BitVec.ofNat 32 g.val
      · by_cases h2 : b = f
        · rw [if_pos ((hland n b).2 ⟨h1, h2⟩), if_pos h2, if_pos h1]
        · rw [if_neg (fun h => h2 ((hland n b).1 h).2), if_neg h2]
      · rw [if_neg (fun h => h1 ((hland n b).1 h).1)]
        by_cases h2 : b = f
        · rw [if_pos h2, if_neg h1]
        · rw [if_neg h2]
    rw [Finset.sum_congr rfl fun b _ => hb b, Finset.sum_ite_eq' Finset.univ f, if_pos (Finset.mem_univ f)]
  have hL : ∀ n : Fin 65536,
      (if col (ix2 n 0) = BitVec.ofNat 32 g.val then (1 : EReal) else 0) * u (ix2 n f)
        = if batch n = BitVec.ofNat 32 g.val then u (ix2 n f) else 0 := by
    intro n
    rw [hcol n]
    by_cases h1 : batch n = BitVec.ofNat 32 g.val
    · rw [if_pos h1, if_pos h1, one_mul]
    · rw [if_neg h1, if_neg h1, zero_mul]
  rw [hR, ← sum_nodes]
  exact Finset.sum_congr rfl fun c _ => Finset.sum_congr rfl fun t _ => Finset.sum_congr rfl fun r _ => hL _

end Cert.PoolMath

end
-- ==== Proof.Bridge2.lean ====
/-
  The second convolution and the pooling on both sides. From equal real hidden features the messages and their scatter-add
  agree as in the first convolution; the squashed folded node update is the reference's squashed clipped batch-normed
  layer; and the two halves' partial sums, added, are the host's scatter-add of the squashed rows into their graphs' rows.
-/
import proofs.«427628_j74397423501380_3_alg».proof.Proof.KSpec
import proofs.«427628_j74397423501380_3_alg».proof.Proof.Tool
import proofs.«427628_j74397423501380_3_alg».proof.Proof.Fold
import proofs.«427628_j74397423501380_3_alg».proof.Proof.PoolMath
import proofs.«427628_j74397423501380_3_alg».proof.Proof.Gen.KernelIdeal
import proofs.«427628_j74397423501380_3_alg».proof.Proof.Gen.ReferenceIdeal.Read

noncomputable section

namespace Cert.Bridge2

open Idealize.ShloMosaic Idealize.ShloMosaic.ValueIdx Cert.Spec Cert.Tool Cert.KernelIdeal

open Cert.KernelIdeal.Facts₀ Cert.KernelIdeal.Facts
open Cert.ReferenceIdeal.Read

/-! ## Constants and indices -/

/-- The pattern `0x3F800000` is the real number one. -/
theorem ofBits_one : Ideal.ofBits .f32 0x3F800000#32 = 1 := by
  simp [Ideal.ofBits, Ideal.ieee]
  rw [← EReal.coe_mul]
  norm_num

/-- A weight that is one or zero is real. -/
theorem isReal_indicator (P : Prop) [Decidable P] : IsReal (if P then (1 : EReal) else 0) := by
  by_cases hP : P
  · rw [if_pos hP]; exact isReal_one
  · rw [if_neg hP]; exact isReal_zero

/-- The edge features' row index in the reference's edge product. -/
theorem edgeRow_idx (e : Fin 1048576) (j : Fin 128) (k : Fin 32) : lidx_main_v49 (ix2 e j) k = ix2 e k := funext fun a => Fin.ext (by match a with | ⟨0, _⟩ => rfl | ⟨1, _⟩ => rfl)
/-- The edge weights' column index in the reference's edge product. -/
theorem edgeCol_idx (e : Fin 1048576) (j : Fin 128) (k : Fin 32) : ridx_main_v49 (ix2 e j) k = ix2 k j := funext fun a => Fin.ext (by match a with | ⟨0, _⟩ => rfl | ⟨1, _⟩ => rfl)
/-- The node features' row index in the reference's node product. -/
theorem nodeRow_idx (n : Fin 65536) (j : Fin 128) (k : Fin 128) : lidx_main_v59 (ix2 n j) k = ix2 n k := funext fun a => Fin.ext (by match a with | ⟨0, _⟩ => rfl | ⟨1, _⟩ => rfl)
/-- The node weights' column index in the reference's node product. -/
theorem nodeCol_idx (n : Fin 65536) (j : Fin 128) (k : Fin 128) : ridx_main_v59 (ix2 n j) k = ix2 k j := funext fun a => Fin.ext (by match a with | ⟨0, _⟩ => rfl | ⟨1, _⟩ => rfl)

/-! ## The reference's per-channel rows, read at an entry -/

/-- The edge bias broadcast over the edges, at an entry, is the bias at the entry's channel. -/
theorem edgeBias_at (be2 : FVec Ideal S128 .f32) (e : Fin 1048576) (j : Fin 128) :
    val_main_v52 (F := Ideal) be2 (ix2 e j) = be2 (ix1 j) := by
  rw [val_main_v52_apply, val_main_v51_apply]
  exact congrArg be2 (funext fun a => Fin.ext (by match a with | ⟨0, _⟩ => rfl))
/-- The layer bias broadcast over the nodes, at an entry. -/
theorem bias_at (b2 : FVec Ideal S128 .f32) (n : Fin 65536) (j : Fin 128) :
    val_main_v61 (F := Ideal) b2 (ix2 n j) = b2 (ix1 j) := by
  rw [val_main_v61_apply, val_main_v60_apply]
  exact congrArg b2 (funext fun a => Fin.ext (by match a with | ⟨0, _⟩ => rfl))
/-- The running mean broadcast over the nodes, at an entry. -/
theorem mean_at (m2 : FVec Ideal S128 .f32) (n : Fin 65536) (j : Fin 128) :
    val_main_v64 (F := Ideal) m2 (ix2 n j) = m2 (ix1 j) := by
  rw [val_main_v64_apply, val_main_v63_apply]
  exact congrArg m2 (funext fun a => Fin.ext (by match a with | ⟨0, _⟩ => rfl))
/-- The gain broadcast over the nodes, at an entry. -/
theorem gain_at (g2 : FVec Ideal S128 .f32) (n : Fin 65536) (j : Fin 128) :
    val_main_v67 (F := Ideal) g2 (ix2 n j) = g2 (ix1 j) := by
  rw [val_main_v67_apply, val_main_v66_apply]
  exact congrArg g2 (funext fun a => Fin.ext (by match a with | ⟨0, _⟩ => rfl))
/-- The offset broadcast over the nodes, at an entry. -/
theorem offset_at (bt2 : FVec Ideal S128 .f32) (n : Fin 65536) (j : Fin 128) :
    val_main_v76 (F := Ideal) bt2 (ix2 n j) = bt2 (ix1 j) := by
  rw [val_main_v76_apply, val_main_v75_apply]
  exact congrArg bt2 (funext fun a => Fin.ext (by match a with | ⟨0, _⟩ => rfl))
/-- `1 / sqrt (variance + eps)` broadcast over the nodes, at an entry. -/
theorem rstd_at (v2 : FVec Ideal S128 .f32) (n : Fin 65536) (j : Fin 128) :
    val_main_v73 (F := Ideal) v2 (ix2 n j) = Ideal.rsqrt (v2 (ix1 j) + Ideal.ofBits .f32 0x3727C5AC#32) := by
  rw [val_main_v73_apply, val_main_v72_apply, val_main_v71_apply, val_main_v70_apply, val_main_v69_apply, val_main_cst_5_apply]
  rw [show idx_main_v72 (idx_main_v73 (ix2 n j)) = ix1 j from funext fun a => Fin.ext (by match a with | ⟨0, _⟩ => rfl)]
  rfl

/-! ## The second convolution's messages and their sums -/

/-- The gather indices: row 0 of the edge list, wrapped, on both sides. -/
theorem src_eq (ei : IVec S2x1048576 32) : KSpec.src ei = val_main_v47 (F := Ideal) ei := rfl
/-- The scatter indices: row 1 of the edge list, on both sides. -/
theorem dst_eq (ei : IVec S2x1048576 32) : KSpec.dst ei = val_main_v56 (F := Ideal) ei := rfl

/-- The hidden features of each edge's source node, on both sides: one host gather of equal operands. -/
theorem gathered_eq (x : FVec Ideal S65536x128 .f32) (ei : IVec S2x1048576 32) (ea : FVec Ideal S1048576x32 .f32) (We1 : FVec Ideal S32x128 .f32) (be1 : FVec Ideal S128 .f32) (W1 : FVec Ideal S128x128 .f32) (b1 g1 bt1 m1 v1 : FVec Ideal S128 .f32) :
    KSpec.gatherSrc ei (val_main_v41 (F := Ideal) x ei ea We1 be1 W1 b1 g1 bt1 m1 v1) = val_main_v48 (F := Ideal) x ei ea We1 be1 W1 b1 g1 bt1 m1 v1 := rfl

/-- The messages of the second convolution on both sides: the gathered row plus the edge's linear image plus the bias,
    clipped at zero. -/
theorem messages_eq (x : FVec Ideal S65536x128 .f32) (ei : IVec S2x1048576 32) (ea : FVec Ideal S1048576x32 .f32) (We1 : FVec Ideal S32x128 .f32) (be1 : FVec Ideal S128 .f32) (W1 : FVec Ideal S128x128 .f32) (b1 g1 bt1 m1 v1 : FVec Ideal S128 .f32) (We2 : FVec Ideal S32x128 .f32) (be2 : FVec Ideal S128 .f32) :
    (edgeMsg (KSpec.gatherSrc ei (val_main_v41 (F := Ideal) x ei ea We1 be1 W1 b1 g1 bt1 m1 v1)) (truncf .bf16 ea bitsLt_bf16_f32) (truncf .bf16 We2 bitsLt_bf16_f32) (KSpec.row128 be2)) = val_main_v54 (F := Ideal) x ei ea We1 be1 W1 b1 g1 bt1 m1 v1 We2 be2 := by
  funext i
  obtain ⟨e, j, rfl⟩ : ∃ (e : Fin 1048576) (j : Fin 128), i = ix2 e j := ⟨i 0, i 1, eq_ix2 i⟩
  rw [val_main_v54_apply, val_main_v53_apply, val_main_v50_apply, val_main_v49_apply, edgeBias_at,
    val_main_call3_v0_apply, val_main_call3_cst_apply, ← gathered_eq]
  have hs : (∑ k : Fin 32, ea (lidx_main_v49 (ix2 e j) k) * We2 (ridx_main_v49 (ix2 e j) k))
      = dot (truncf .bf16 ea bitsLt_bf16_f32) (truncf .bf16 We2 bitsLt_bf16_f32) e j :=
    Finset.sum_congr rfl fun k _ => by rw [edgeRow_idx, edgeCol_idx]; rfl
  rw [hs]
  show max (_ + dot _ _ e j + KSpec.row128 be2 (ix2 0 j)) 0 = max (_ + _ + be2 (ix1 j)) (Ideal.ofBits .f32 0x00000000#32)
  rw [Cert.Fold.row128_apply, Ideal.ofBits_zero_f32]

/-- The messages summed into their destination nodes, on both sides: one host scatter-add of equal operands. -/
theorem aggregate_eq (x : FVec Ideal S65536x128 .f32) (ei : IVec S2x1048576 32) (ea : FVec Ideal S1048576x32 .f32) (We1 : FVec Ideal S32x128 .f32) (be1 : FVec Ideal S128 .f32) (W1 : FVec Ideal S128x128 .f32) (b1 g1 bt1 m1 v1 : FVec Ideal S128 .f32) (We2 : FVec Ideal S32x128 .f32) (be2 : FVec Ideal S128 .f32) :
    KSpec.aggregate ei (val_main_v54 (F := Ideal) x ei ea We1 be1 W1 b1 g1 bt1 m1 v1 We2 be2) = val_main_v57 (F := Ideal) x ei ea We1 be1 W1 b1 g1 bt1 m1 v1 We2 be2 := rfl

/-! ## The squashed second node update -/

/-- The reference's batch-normed dense layer of the second update at an entry: gain times (row times column plus bias
    minus mean) times `1 / sqrt (variance + eps)`, plus offset. -/
theorem refNorm_at (x : FVec Ideal S65536x128 .f32) (ei : IVec S2x1048576 32) (ea : FVec Ideal S1048576x32 .f32) (We1 : FVec Ideal S32x128 .f32) (be1 : FVec Ideal S128 .f32) (W1 : FVec Ideal S128x128 .f32) (b1 g1 bt1 m1 v1 : FVec Ideal S128 .f32) (We2 : FVec Ideal S32x128 .f32) (be2 : FVec Ideal S128 .f32) (W2 : FVec Ideal S128x128 .f32) (b2 g2 bt2 m2 v2 : FVec Ideal S128 .f32) (n : Fin 65536) (j : Fin 128) :
    val_main_v77 (F := Ideal) x ei ea We1 be1 W1 b1 g1 bt1 m1 v1 We2 be2 W2 b2 g2 bt2 m2 v2 (ix2 n j)
      = g2 (ix1 j) * (((∑ k : Fin 128, val_main_v58 (F := Ideal) x ei ea We1 be1 W1 b1 g1 bt1 m1 v1 We2 be2 (ix2 n k) * W2 (ix2 k j)) + b2 (ix1 j)) - m2 (ix1 j)) * Ideal.rsqrt (v2 (ix1 j) + Ideal.ofBits .f32 0x3727C5AC#32) + bt2 (ix1 j) := by
  rw [val_main_v77_apply, val_main_v74_apply, val_main_v68_apply, val_main_v65_apply, val_main_v62_apply, val_main_v59_apply,
    bias_at, mean_at, gain_at, rstd_at, offset_at]
  have hs : (∑ k : Fin 128, val_main_v58 (F := Ideal) x ei ea We1 be1 W1 b1 g1 bt1 m1 v1 We2 be2 (lidx_main_v59 (ix2 n j) k) * W2 (ridx_main_v59 (ix2 n j) k))
      = ∑ k : Fin 128, val_main_v58 (F := Ideal) x ei ea We1 be1 W1 b1 g1 bt1 m1 v1 We2 be2 (ix2 n k) * W2 (ix2 k j) :=
    Finset.sum_congr rfl fun k _ => by rw [nodeRow_idx, nodeCol_idx]
  rw [hs]
  rfl

/-- The reference's squash at an entry: `1 / (1 + exp (-max (·) 0))` of the batch-normed layer. -/
theorem refSquash_at (x : FVec Ideal S65536x128 .f32) (ei : IVec S2x1048576 32) (ea : FVec Ideal S1048576x32 .f32) (We1 : FVec Ideal S32x128 .f32) (be1 : FVec Ideal S128 .f32) (W1 : FVec Ideal S128x128 .f32) (b1 g1 bt1 m1 v1 : FVec Ideal S128 .f32) (We2 : FVec Ideal S32x128 .f32) (be2 : FVec Ideal S128 .f32) (W2 : FVec Ideal S128x128 .f32) (b2 g2 bt2 m2 v2 : FVec Ideal S128 .f32) (n : Fin 65536) (j : Fin 128) :
    val_main_v84 (F := Ideal) x ei ea We1 be1 W1 b1 g1 bt1 m1 v1 We2 be2 W2 b2 g2 bt2 m2 v2 (ix2 n j) = sigm (max (val_main_v77 (F := Ideal) x ei ea We1 be1 W1 b1 g1 bt1 m1 v1 We2 be2 W2 b2 g2 bt2 m2 v2 (ix2 n j)) 0) := by
  rw [val_main_v84_apply, val_main_v83_apply, val_main_cst_7_apply, val_main_v82_apply, val_main_v81_apply, val_main_cst_6_apply,
    val_main_v80_apply, val_main_v79_apply, val_main_v78_apply, val_main_call4_v0_apply, val_main_call4_cst_apply]
  show Ideal.div (Ideal.ofBits .f32 0x3F800000#32) (Ideal.ofBits .f32 0x3F800000#32
      + Ideal.exp (-(max (val_main_v77 (F := Ideal) x ei ea We1 be1 W1 b1 g1 bt1 m1 v1 We2 be2 W2 b2 g2 bt2 m2 v2 (ix2 n j)) (Ideal.ofBits .f32 0x00000000#32)))) = _
  rw [ofBits_one, Ideal.ofBits_zero_f32]
  rfl

/-- The kernel's squashed folded update at an entry is real, for real features, sums and parameters. -/
theorem squashed_real (h agg : Arr2 65536 128) (W2 : FVec Ideal S128x128 .f32) (b2 g2 bt2 m2 v2 : FVec Ideal S128 .f32)
    (hh : ∀ i, IsReal (h i)) (hagg : ∀ i, IsReal (agg i)) (hW2 : ∀ i, IsReal (W2 i)) (hb2 : ∀ i, IsReal (b2 i))
    (hg2 : ∀ i, IsReal (g2 i)) (hbt2 : ∀ i, IsReal (bt2 i)) (hm2 : ∀ i, IsReal (m2 i)) (hv2 : ∀ i, IsReal (v2 i))
    (hv2nn : ∀ i, 0 ≤ v2 i) (i : (⟨2, ![65536, 128]⟩ : Shape).Idx) :
    IsReal (sigm (nodeUpd h agg (KSpec.foldW W2 (KSpec.scale g2 v2)) (KSpec.row128 (KSpec.foldB b2 (KSpec.scale g2 v2) (KSpec.shift bt2 m2 (KSpec.scale g2 v2)))) i)) := by
  obtain ⟨n, j, rfl⟩ : ∃ (n : Fin 65536) (j : Fin 128), i = ix2 n j := ⟨i 0, i 1, eq_ix2 i⟩
  obtain ⟨e, r⟩ := Cert.Fold.dense_fold (M := 65536) (fun j' => h j' + agg j') W2 b2 g2 bt2 m2 v2
    (fun i => isReal_add (hh i) (hagg i)) hW2 hb2 hg2 hbt2 hm2 hv2 hv2nn n j
  show IsReal (sigm (max (dense (fun j' => h j' + agg j') (KSpec.foldW W2 (KSpec.scale g2 v2)) (KSpec.row128 (KSpec.foldB b2 (KSpec.scale g2 v2) (KSpec.shift bt2 m2 (KSpec.scale g2 v2)))) (ix2 n j)) 0))
  rw [e]
  exact isReal_sigm (isReal_max r isReal_zero)

/-- The squashed second node update on both sides, from the reference's hidden features and scatter-added messages:
    the folded dense layer is the batch-normed one. -/
theorem squashed_eq (x : FVec Ideal S65536x128 .f32) (ei : IVec S2x1048576 32) (ea : FVec Ideal S1048576x32 .f32) (We1 : FVec Ideal S32x128 .f32) (be1 : FVec Ideal S128 .f32) (W1 : FVec Ideal S128x128 .f32) (b1 g1 bt1 m1 v1 : FVec Ideal S128 .f32) (We2 : FVec Ideal S32x128 .f32) (be2 : FVec Ideal S128 .f32) (W2 : FVec Ideal S128x128 .f32) (b2 g2 bt2 m2 v2 : FVec Ideal S128 .f32)
    (hh : ∀ i, IsReal ((val_main_v41 (F := Ideal) x ei ea We1 be1 W1 b1 g1 bt1 m1 v1) i)) (hagg : ∀ i, IsReal ((val_main_v57 (F := Ideal) x ei ea We1 be1 W1 b1 g1 bt1 m1 v1 We2 be2) i)) (hW2 : ∀ i, IsReal (W2 i)) (hb2 : ∀ i, IsReal (b2 i))
    (hg2 : ∀ i, IsReal (g2 i)) (hbt2 : ∀ i, IsReal (bt2 i)) (hm2 : ∀ i, IsReal (m2 i)) (hv2 : ∀ i, IsReal (v2 i))
    (hv2nn : ∀ i, 0 ≤ v2 i) :
    (fun i => sigm (nodeUpd (val_main_v41 (F := Ideal) x ei ea We1 be1 W1 b1 g1 bt1 m1 v1) (val_main_v57 (F := Ideal) x ei ea We1 be1 W1 b1 g1 bt1 m1 v1 We2 be2) (KSpec.foldW W2 (KSpec.scale g2 v2)) (KSpec.row128 (KSpec.foldB b2 (KSpec.scale g2 v2) (KSpec.shift bt2 m2 (KSpec.scale g2 v2)))) i)) = val_main_v84 (F := Ideal) x ei ea We1 be1 W1 b1 g1 bt1 m1 v1 We2 be2 W2 b2 g2 bt2 m2 v2 := by
  funext i
  obtain ⟨n, j, rfl⟩ : ∃ (n : Fin 65536) (j : Fin 128), i = ix2 n j := ⟨i 0, i 1, eq_ix2 i⟩
  rw [refSquash_at, refNorm_at]
  show sigm (max (dense (fun j' => (val_main_v41 (F := Ideal) x ei ea We1 be1 W1 b1 g1 bt1 m1 v1) j' + (val_main_v57 (F := Ideal) x ei ea We1 be1 W1 b1 g1 bt1 m1 v1 We2 be2) j') (KSpec.foldW W2 (KSpec.scale g2 v2)) (KSpec.row128 (KSpec.foldB b2 (KSpec.scale g2 v2) (KSpec.shift bt2 m2 (KSpec.scale g2 v2)))) (ix2 n j)) 0) = _
  rw [(Cert.Fold.dense_fold (M := 65536) (fun j' => (val_main_v41 (F := Ideal) x ei ea We1 be1 W1 b1 g1 bt1 m1 v1) j' + (val_main_v57 (F := Ideal) x ei ea We1 be1 W1 b1 g1 bt1 m1 v1 We2 be2) j') W2 b2 g2 bt2 m2 v2
    (fun i => isReal_add (hh i) (hagg i)) hW2 hb2 hg2 hbt2 hm2 hv2 hv2nn n j).1]
  rfl

/-! ## The per-graph sums -/

/-- The graph numbers as a column, read at a node. -/
theorem batchCol_at (batch : IVec S65536 32) (n : Fin 65536) :
    shapeCast S65536x1 batch shapeCasts_S65536_S65536x1 (ix2 n (0 : Fin 1)) = batch (ix1 n) := by
  refine shapeCast_apply batch shapeCasts_S65536_S65536x1 (ix2 n (0 : Fin 1)) (ix1 n) ?_
  rewrite [Shape.rowMajor_val_two, Shape.rowMajor_val_one]
  show n.val = n.val * 1 + 0
  omega

/-- The reference's column of graph numbers, read at a node. -/
theorem refCol_at (batch : IVec S65536 32) (n : Fin 65536) :
    val_main_v90 (F := Ideal) batch (ix2 n (0 : Fin 1)) = batch (ix1 n) := by
  rw [val_main_v90_apply]
  exact congrArg batch (funext fun a => Fin.ext (by match a with | ⟨0, _⟩ => rfl))

/-- Dropping the leading axis of the [2, 64, 128] partial sums leaves [64, 128]. -/
theorem reduces0 : Shape.Reduces S2x64x128 [0] S64x128 := by decide

/-- The index of the partial sum of half `c` over graph `g`, feature `f`. -/
theorem lift_eq (g : Fin 64) (f : Fin 128) (c : Fin 2) : reduces0.lift (ix2 g f) c = ix3 c g f :=
  funext fun a => match a with
    | ⟨0, _⟩ => Fin.ext rfl
    | ⟨1, _⟩ => Fin.ext rfl
    | ⟨2, _⟩ => Fin.ext rfl

/-- Adding the two halves' partial sums: the host's sum over the leading axis at an entry. -/
theorem halves_sum (part : FVec Ideal S2x64x128 .f32) (g : Fin 64) (f : Fin 128) :
    Host.reduceAdd part (constant (F := Ideal) S_ .f32 0x00000000#32) reducesTo_S2x64x128_S64x128_d0 h_S_ (ix2 g f)
      = 0 + ∑ c : Fin 2, part (ix3 c g f) := by
  unfold Host.reduceAdd
  rw [Ideal.hostReduceAdd_def, Ideal.hostReduceAdd_single _ reduces0]
  refine congrArg₂ (· + ·) Ideal.ofBits_zero_f32 (Finset.sum_congr rfl fun c _ => ?_)
  exact congrArg part (lift_eq g f c)

/-- The kernel's per-graph sum at graph `g`, feature `f`: over halves, tiles and rows, the squashed update of the node
    weighted by one where the node's graph number is `g`. -/
theorem pooledSum_at (h : FVec Ideal S65536x128 .bf16) (ei : IVec S2x1048576 32) (ea : FVec Ideal S1048576x32 .f32) (batch : IVec S65536 32) (We2 : FVec Ideal S32x128 .f32) (be2 : FVec Ideal S128 .f32) (W2 : FVec Ideal S128x128 .f32) (b2 g2 bt2 m2 v2 : FVec Ideal S128 .f32) (g : Fin 64) (f : Fin 128) :
    KSpec.pooledSum h ei ea batch We2 be2 W2 b2 g2 bt2 m2 v2 (ix2 g f)
      = 0 + ∑ c : Fin 2, ∑ t : Fin 8, ∑ r : Fin 4096,
          (if shapeCast S65536x1 batch shapeCasts_S65536_S65536x1 (ix2 (nodeRow c t r) (0 : Fin 1)) = BitVec.ofNat 32 g.val then (1 : EReal) else 0)
            * sigm (nodeUpd h (KSpec.aggregate ei (edgeMsg (KSpec.gatherSrc ei h) (truncf .bf16 ea bitsLt_bf16_f32) (truncf .bf16 We2 bitsLt_bf16_f32) (KSpec.row128 be2))) (KSpec.foldW W2 (KSpec.scale g2 v2)) (KSpec.row128 (KSpec.foldB b2 (KSpec.scale g2 v2) (KSpec.shift bt2 m2 (KSpec.scale g2 v2)))) (ix2 (nodeRow c t r) f)) := by
  show Host.reduceAdd (poolPart h (KSpec.aggregate ei (edgeMsg (KSpec.gatherSrc ei h) (truncf .bf16 ea bitsLt_bf16_f32) (truncf .bf16 We2 bitsLt_bf16_f32) (KSpec.row128 be2))) (KSpec.foldW W2 (KSpec.scale g2 v2)) (KSpec.row128 (KSpec.foldB b2 (KSpec.scale g2 v2) (KSpec.shift bt2 m2 (KSpec.scale g2 v2)))) (shapeCast S65536x1 batch shapeCasts_S65536_S65536x1))
      (constant (F := Ideal) S_ .f32 0x00000000#32) reducesTo_S2x64x128_S64x128_d0 h_S_ (ix2 g f) = _
  rw [halves_sum]
  rfl

/-- The reference's per-graph sum at graph `g`, feature `f`: the squashed rows whose graph number lands on `g`. -/
theorem refPool_at (x : FVec Ideal S65536x128 .f32) (ei : IVec S2x1048576 32) (ea : FVec Ideal S1048576x32 .f32) (batch : IVec S65536 32) (We1 : FVec Ideal S32x128 .f32) (be1 : FVec Ideal S128 .f32) (W1 : FVec Ideal S128x128 .f32) (b1 g1 bt1 m1 v1 : FVec Ideal S128 .f32) (We2 : FVec Ideal S32x128 .f32) (be2 : FVec Ideal S128 .f32) (W2 : FVec Ideal S128x128 .f32) (b2 g2 bt2 m2 v2 : FVec Ideal S128 .f32) (g : Fin 64) (f : Fin 128) :
    val_main_v91 (F := Ideal) x ei ea batch We1 be1 W1 b1 g1 bt1 m1 v1 We2 be2 W2 b2 g2 bt2 m2 v2 (ix2 g f)
      = 0 + ∑ j ∈ Finset.univ.filter (fun j : Cert.ReferenceIdeal.S65536x128.Idx =>
            Cert.ReferenceIdeal.scatter_S64x128_S65536x1_S65536x128_1_0_0_1.resultIdx? j (val_main_v90 (F := Ideal) batch : IVec Cert.ReferenceIdeal.S65536x1 32) = some (ix2 g f)), val_main_v84 (F := Ideal) x ei ea We1 be1 W1 b1 g1 bt1 m1 v1 We2 be2 W2 b2 g2 bt2 m2 v2 j := by
  unfold val_main_v91 Host.scatterAdd
  rw [Ideal.hostScatterAdd_def]
  unfold Ideal.hostScatterAdd
  rw [val_main_v89_apply, val_main_cst_10_apply]
  exact congrArg (· + _) Ideal.ofBits_zero_f32

/-- The per-graph sums of the squashed second-convolution features, from equal real hidden features. -/
theorem pooledSum_eq (x : FVec Ideal S65536x128 .f32) (ei : IVec S2x1048576 32) (ea : FVec Ideal S1048576x32 .f32) (batch : IVec S65536 32) (We1 : FVec Ideal S32x128 .f32) (be1 : FVec Ideal S128 .f32) (W1 : FVec Ideal S128x128 .f32) (b1 : FVec Ideal S128 .f32) (g1 : FVec Ideal S128 .f32) (bt1 : FVec Ideal S128 .f32) (m1 : FVec Ideal S128 .f32) (v1 : FVec Ideal S128 .f32) (We2 : FVec Ideal S32x128 .f32) (be2 : FVec Ideal S128 .f32) (W2 : FVec Ideal S128x128 .f32) (b2 : FVec Ideal S128 .f32) (g2 : FVec Ideal S128 .f32) (bt2 : FVec Ideal S128 .f32) (m2 : FVec Ideal S128 .f32) (v2 : FVec Ideal S128 .f32) (h : FVec Ideal S65536x128 .bf16)
    (hh : h = Cert.ReferenceIdeal.Read.val_main_v41 (F := Ideal) x ei ea We1 be1 W1 b1 g1 bt1 m1 v1) (hhr : ∀ i, IsReal (h i))
    (hea : ∀ i, IsReal (ea i)) (hWe2 : ∀ i, IsReal (We2 i)) (hbe2 : ∀ i, IsReal (be2 i)) (hW2 : ∀ i, IsReal (W2 i)) (hb2 : ∀ i, IsReal (b2 i)) (hg2 : ∀ i, IsReal (g2 i)) (hbt2 : ∀ i, IsReal (bt2 i)) (hm2 : ∀ i, IsReal (m2 i)) (hv2 : ∀ i, IsReal (v2 i)) (hv2nn : ∀ i, 0 ≤ v2 i) :
    KSpec.pooledSum h ei ea batch We2 be2 W2 b2 g2 bt2 m2 v2 = Cert.ReferenceIdeal.Read.val_main_v91 (F := Ideal) x ei ea batch We1 be1 W1 b1 g1 bt1 m1 v1 We2 be2 W2 b2 g2 bt2 m2 v2
      ∧ ∀ i, IsReal (KSpec.pooledSum h ei ea batch We2 be2 W2 b2 g2 bt2 m2 v2 i) := by
  subst hh
  -- the messages and their sums, on both sides, and real
  have hmsg := messages_eq x ei ea We1 be1 W1 b1 g1 bt1 m1 v1 We2 be2
  have hmsgR : ∀ i, IsReal ((edgeMsg (KSpec.gatherSrc ei (val_main_v41 (F := Ideal) x ei ea We1 be1 W1 b1 g1 bt1 m1 v1)) (truncf .bf16 ea bitsLt_bf16_f32) (truncf .bf16 We2 bitsLt_bf16_f32) (KSpec.row128 be2)) i) :=
    Cert.Fold.edgeMsg_real _ _ _ _ (Cert.Fold.gatherSrc_real ei _ hhr) (fun i => hea i) (fun i => hWe2 i)
      (Cert.Fold.row128_real be2 hbe2)
  have haggR : ∀ i, IsReal ((KSpec.aggregate ei (edgeMsg (KSpec.gatherSrc ei (val_main_v41 (F := Ideal) x ei ea We1 be1 W1 b1 g1 bt1 m1 v1)) (truncf .bf16 ea bitsLt_bf16_f32) (truncf .bf16 We2 bitsLt_bf16_f32) (KSpec.row128 be2))) i) := Cert.Fold.aggregate_real ei _ hmsgR
  have hagg : (KSpec.aggregate ei (edgeMsg (KSpec.gatherSrc ei (val_main_v41 (F := Ideal) x ei ea We1 be1 W1 b1 g1 bt1 m1 v1)) (truncf .bf16 ea bitsLt_bf16_f32) (truncf .bf16 We2 bitsLt_bf16_f32) (KSpec.row128 be2))) = (val_main_v57 (F := Ideal) x ei ea We1 be1 W1 b1 g1 bt1 m1 v1 We2 be2) :=
    (congrArg (KSpec.aggregate ei) hmsg).trans (aggregate_eq x ei ea We1 be1 W1 b1 g1 bt1 m1 v1 We2 be2)
  -- the squashed update, on both sides, and real
  have hU : (fun i => sigm (nodeUpd (val_main_v41 (F := Ideal) x ei ea We1 be1 W1 b1 g1 bt1 m1 v1) (KSpec.aggregate ei (edgeMsg (KSpec.gatherSrc ei (val_main_v41 (F := Ideal) x ei ea We1 be1 W1 b1 g1 bt1 m1 v1)) (truncf .bf16 ea bitsLt_bf16_f32) (truncf .bf16 We2 bitsLt_bf16_f32) (KSpec.row128 be2))) (KSpec.foldW W2 (KSpec.scale g2 v2)) (KSpec.row128 (KSpec.foldB b2 (KSpec.scale g2 v2) (KSpec.shift bt2 m2 (KSpec.scale g2 v2)))) i)) = val_main_v84 (F := Ideal) x ei ea We1 be1 W1 b1 g1 bt1 m1 v1 We2 be2 W2 b2 g2 bt2 m2 v2 := by
    rw [hagg]
    exact squashed_eq x ei ea We1 be1 W1 b1 g1 bt1 m1 v1 We2 be2 W2 b2 g2 bt2 m2 v2 hhr (fun i => hagg ▸ haggR i) hW2 hb2 hg2 hbt2 hm2 hv2 hv2nn
  have hUR : ∀ i, IsReal (sigm (nodeUpd (val_main_v41 (F := Ideal) x ei ea We1 be1 W1 b1 g1 bt1 m1 v1) (KSpec.aggregate ei (edgeMsg (KSpec.gatherSrc ei (val_main_v41 (F := Ideal) x ei ea We1 be1 W1 b1 g1 bt1 m1 v1)) (truncf .bf16 ea bitsLt_bf16_f32) (truncf .bf16 We2 bitsLt_bf16_f32) (KSpec.row128 be2))) (KSpec.foldW W2 (KSpec.scale g2 v2)) (KSpec.row128 (KSpec.foldB b2 (KSpec.scale g2 v2) (KSpec.shift bt2 m2 (KSpec.scale g2 v2)))) i)) :=
    squashed_real _ _ W2 b2 g2 bt2 m2 v2 hhr haggR hW2 hb2 hg2 hbt2 hm2 hv2 hv2nn
  refine ⟨funext fun i => ?_, fun i => ?_⟩
  · obtain ⟨g, f, rfl⟩ : ∃ (g : Fin 64) (f : Fin 128), i = ix2 g f := ⟨i 0, i 1, eq_ix2 i⟩
    refine (pooledSum_at (val_main_v41 (F := Ideal) x ei ea We1 be1 W1 b1 g1 bt1 m1 v1) ei ea batch We2 be2 W2 b2 g2 bt2 m2 v2 g f).trans
      (Eq.trans ?_ (refPool_at x ei ea batch We1 be1 W1 b1 g1 bt1 m1 v1 We2 be2 W2 b2 g2 bt2 m2 v2 g f).symm)
    exact congrArg (0 + ·) ((Cert.PoolMath.pool_eq (fun n => batch (ix1 n)) (shapeCast S65536x1 batch shapeCasts_S65536_S65536x1)
      (val_main_v90 (F := Ideal) batch) (batchCol_at batch) (refCol_at batch)
      (fun i => sigm (nodeUpd (val_main_v41 (F := Ideal) x ei ea We1 be1 W1 b1 g1 bt1 m1 v1) (KSpec.aggregate ei (edgeMsg (KSpec.gatherSrc ei (val_main_v41 (F := Ideal) x ei ea We1 be1 W1 b1 g1 bt1 m1 v1)) (truncf .bf16 ea bitsLt_bf16_f32) (truncf .bf16 We2 bitsLt_bf16_f32) (KSpec.row128 be2))) (KSpec.foldW W2 (KSpec.scale g2 v2)) (KSpec.row128 (KSpec.foldB b2 (KSpec.scale g2 v2) (KSpec.shift bt2 m2 (KSpec.scale g2 v2)))) i)) g f).trans
      (Finset.sum_congr rfl fun j _ => congrFun hU j))
  · obtain ⟨g, f, rfl⟩ : ∃ (g : Fin 64) (f : Fin 128), i = ix2 g f := ⟨i 0, i 1, eq_ix2 i⟩
    rw [pooledSum_at]
    exact isReal_add isReal_zero (isReal_sum _ _ fun c _ => isReal_sum _ _ fun t _ => isReal_sum _ _ fun r _ =>
      isReal_mul (isReal_indicator _) (hUR _))

end Cert.Bridge2

end
-- ==== Proof.Bridge.lean ====
/-
  The kernel's function of the launch arrays is the reference's on the domain: the hidden features agree and are real, so
  the pooled sums agree and are real; no graph being empty, the means are real; and the head's two folded layers are the
  reference's batch-normed layers by the fold law, its last layer and the squash the same on both sides.
-/
import proofs.«427628_j74397423501380_3_alg».proof.Proof.KSpec
import proofs.«427628_j74397423501380_3_alg».proof.Proof.Tool
import proofs.«427628_j74397423501380_3_alg».proof.Proof.Fold
import proofs.«427628_j74397423501380_3_alg».proof.Proof.Dom
import proofs.«427628_j74397423501380_3_alg».proof.Proof.Bridge1
import proofs.«427628_j74397423501380_3_alg».proof.Proof.Bridge2
import proofs.«427628_j74397423501380_3_alg».proof.Proof.Gen.KernelIdeal
import proofs.«427628_j74397423501380_3_alg».proof.Proof.Gen.ReferenceIdeal.Read

noncomputable section

namespace Cert.Bridge

open Idealize.ShloMosaic Idealize.ShloMosaic.ValueIdx Cert.Spec Cert.Tool Cert.KernelIdeal

section Layers

open Cert.ReferenceIdeal.Read

/-- The pattern `0x3F800000` is the number one. -/
private theorem one_f32 : Ideal.ofBits .f32 0x3F800000#32 = 1 := IdealRules.sign_bit.ideal_onePat .f32

/-- A rank-1 index is determined by its coordinate. -/
private theorem vec_idx {n : Nat} (I : (⟨1, ![n]⟩ : Shape).Idx) (j : Fin n) (h : I 0 = j) : I = ix1 j := by
  subst h
  exact eq_ix1 I

/-- A rank-2 index is determined by its two coordinates. -/
private theorem mat_idx {a b : Nat} (I : (⟨2, ![a, b]⟩ : Shape).Idx) (p : Fin a) (q : Fin b) (h0 : I 0 = p) (h1 : I 1 = q) :
    I = ix2 p q := by
  subst h0 h1
  exact eq_ix2 I

/-- The reference's first head layer at an entry: the clipped batch-norm of the row-by-column sum plus the bias. -/
private theorem ref_layer1 (x : FVec Ideal S65536x128 .f32) (ei : IVec S2x1048576 32) (ea : FVec Ideal S1048576x32 .f32) (batch : IVec S65536 32) (We1 : FVec Ideal S32x128 .f32) (be1 : FVec Ideal S128 .f32) (W1 : FVec Ideal S128x128 .f32) (b1 : FVec Ideal S128 .f32) (g1 : FVec Ideal S128 .f32) (bt1 : FVec Ideal S128 .f32) (m1 : FVec Ideal S128 .f32) (v1 : FVec Ideal S128 .f32) (We2 : FVec Ideal S32x128 .f32) (be2 : FVec Ideal S128 .f32) (W2 : FVec Ideal S128x128 .f32) (b2 : FVec Ideal S128 .f32) (g2 : FVec Ideal S128 .f32) (bt2 : FVec Ideal S128 .f32) (m2 : FVec Ideal S128 .f32) (v2 : FVec Ideal S128 .f32) (Wa1 : FVec Ideal S128x128 .f32) (ba1 : FVec Ideal S128 .f32) (ga1 : FVec Ideal S128 .f32) (bta1 : FVec Ideal S128 .f32) (ma1 : FVec Ideal S128 .f32) (va1 : FVec Ideal S128 .f32) (n : Fin 64) (j : Fin 128) :
    val_main_v114 (F := Ideal) x ei ea batch We1 be1 W1 b1 g1 bt1 m1 v1 We2 be2 W2 b2 g2 bt2 m2 v2 Wa1 ba1 ga1 bta1 ma1 va1 (ix2 n j)
      = max (ga1 (ix1 j) * (((∑ k : Fin 128, (val_main_v94 (F := Ideal) x ei ea batch We1 be1 W1 b1 g1 bt1 m1 v1 We2 be2 W2 b2 g2 bt2 m2 v2) (ix2 n k) * Wa1 (ix2 k j)) + ba1 (ix1 j)) - ma1 (ix1 j))
          * Ideal.rsqrt (va1 (ix1 j) + Ideal.ofBits .f32 0x3727C5AC#32) + bta1 (ix1 j)) 0 := by
  rw [val_main_v114_apply, val_main_v113_apply, val_main_v110_apply, val_main_v104_apply, val_main_v101_apply, val_main_v98_apply, val_main_v95_apply, val_main_v97_apply, val_main_v96_apply, val_main_v100_apply, val_main_v99_apply, val_main_v103_apply, val_main_v102_apply, val_main_v109_apply, val_main_v108_apply, val_main_v107_apply, val_main_v106_apply, val_main_v105_apply, val_main_cst_11_apply, val_main_v112_apply, val_main_v111_apply, val_main_call5_v0_apply, val_main_call5_cst_apply]
  have i1 : idx_main_v96 (idx_main_v97 (ix2 n j)) = ix1 j := vec_idx _ j rfl
  have i2 : idx_main_v99 (idx_main_v100 (ix2 n j)) = ix1 j := vec_idx _ j rfl
  have i3 : idx_main_v102 (idx_main_v103 (ix2 n j)) = ix1 j := vec_idx _ j rfl
  have i4 : idx_main_v108 (idx_main_v109 (ix2 n j)) = ix1 j := vec_idx _ j rfl
  have i5 : idx_main_v111 (idx_main_v112 (ix2 n j)) = ix1 j := vec_idx _ j rfl
  have il : ∀ k : Fin 128, lidx_main_v95 (ix2 n j) k = ix2 n k := fun k => mat_idx _ n k rfl rfl
  have ir : ∀ k : Fin 128, ridx_main_v95 (ix2 n j) k = ix2 k j := fun k => mat_idx _ k j rfl rfl
  simp only [i1, i2, i3, i4, i5, il, ir]
  simp only [Ideal.maximumf_def, Ideal.addf_def, Ideal.mulf_def, Ideal.subf_def, Ideal.hostUnary_rsqrt_def, Ideal.ofBits_def,
    Ideal.ofBits_zero_f32]

/-- The reference's second head layer at an entry: the clipped batch-norm of the row-by-column sum plus the bias. -/
private theorem ref_layer2 (x : FVec Ideal S65536x128 .f32) (ei : IVec S2x1048576 32) (ea : FVec Ideal S1048576x32 .f32) (batch : IVec S65536 32) (We1 : FVec Ideal S32x128 .f32) (be1 : FVec Ideal S128 .f32) (W1 : FVec Ideal S128x128 .f32) (b1 : FVec Ideal S128 .f32) (g1 : FVec Ideal S128 .f32) (bt1 : FVec Ideal S128 .f32) (m1 : FVec Ideal S128 .f32) (v1 : FVec Ideal S128 .f32) (We2 : FVec Ideal S32x128 .f32) (be2 : FVec Ideal S128 .f32) (W2 : FVec Ideal S128x128 .f32) (b2 : FVec Ideal S128 .f32) (g2 : FVec Ideal S128 .f32) (bt2 : FVec Ideal S128 .f32) (m2 : FVec Ideal S128 .f32) (v2 : FVec Ideal S128 .f32) (Wa1 : FVec Ideal S128x128 .f32) (ba1 : FVec Ideal S128 .f32) (ga1 : FVec Ideal S128 .f32) (bta1 : FVec Ideal S128 .f32) (ma1 : FVec Ideal S128 .f32) (va1 : FVec Ideal S128 .f32) (Wa2 : FVec Ideal S128x128 .f32) (ba2 : FVec Ideal S128 .f32) (ga2 : FVec Ideal S128 .f32) (bta2 : FVec Ideal S128 .f32) (ma2 : FVec Ideal S128 .f32) (va2 : FVec Ideal S128 .f32) (n : Fin 64) (j : Fin 128) :
    val_main_v134 (F := Ideal) x ei ea batch We1 be1 W1 b1 g1 bt1 m1 v1 We2 be2 W2 b2 g2 bt2 m2 v2 Wa1 ba1 ga1 bta1 ma1 va1 Wa2 ba2 ga2 bta2 ma2 va2 (ix2 n j)
      = max (ga2 (ix1 j) * (((∑ k : Fin 128, (val_main_v114 (F := Ideal) x ei ea batch We1 be1 W1 b1 g1 bt1 m1 v1 We2 be2 W2 b2 g2 bt2 m2 v2 Wa1 ba1 ga1 bta1 ma1 va1) (ix2 n k) * Wa2 (ix2 k j)) + ba2 (ix1 j)) - ma2 (ix1 j))
          * Ideal.rsqrt (va2 (ix1 j) + Ideal.ofBits .f32 0x3727C5AC#32) + bta2 (ix1 j)) 0 := by
  rw [val_main_v134_apply, val_main_v133_apply, val_main_v130_apply, val_main_v124_apply, val_main_v121_apply, val_main_v118_apply, val_main_v115_apply, val_main_v117_apply, val_main_v116_apply, val_main_v120_apply, val_main_v119_apply, val_main_v123_apply, val_main_v122_apply, val_main_v129_apply, val_main_v128_apply, val_main_v127_apply, val_main_v126_apply, val_main_v125_apply, val_main_cst_12_apply, val_main_v132_apply, val_main_v131_apply, val_main_call6_v0_apply, val_main_call6_cst_apply]
  have i1 : idx_main_v116 (idx_main_v117 (ix2 n j)) = ix1 j := vec_idx _ j rfl
  have i2 : idx_main_v119 (idx_main_v120 (ix2 n j)) = ix1 j := vec_idx _ j rfl
  have i3 : idx_main_v122 (idx_main_v123 (ix2 n j)) = ix1 j := vec_idx _ j rfl
  have i4 : idx_main_v128 (idx_main_v129 (ix2 n j)) = ix1 j := vec_idx _ j rfl
  have i5 : idx_main_v131 (idx_main_v132 (ix2 n j)) = ix1 j := vec_idx _ j rfl
  have il : ∀ k : Fin 128, lidx_main_v115 (ix2 n j) k = ix2 n k := fun k => mat_idx _ n k rfl rfl
  have ir : ∀ k : Fin 128, ridx_main_v115 (ix2 n j) k = ix2 k j := fun k => mat_idx _ k j rfl rfl
  simp only [i1, i2, i3, i4, i5, il, ir]
  simp only [Ideal.maximumf_def, Ideal.addf_def, Ideal.mulf_def, Ideal.subf_def, Ideal.hostUnary_rsqrt_def, Ideal.ofBits_def,
    Ideal.ofBits_zero_f32]

/-- The reference's last layer at an entry: the logistic function of the row-by-column sum plus the bias. -/
private theorem ref_layer3 (x : FVec Ideal S65536x128 .f32) (ei : IVec S2x1048576 32) (ea : FVec Ideal S1048576x32 .f32) (batch : IVec S65536 32) (We1 : FVec Ideal S32x128 .f32) (be1 : FVec Ideal S128 .f32) (W1 : FVec Ideal S128x128 .f32) (b1 : FVec Ideal S128 .f32) (g1 : FVec Ideal S128 .f32) (bt1 : FVec Ideal S128 .f32) (m1 : FVec Ideal S128 .f32) (v1 : FVec Ideal S128 .f32) (We2 : FVec Ideal S32x128 .f32) (be2 : FVec Ideal S128 .f32) (W2 : FVec Ideal S128x128 .f32) (b2 : FVec Ideal S128 .f32) (g2 : FVec Ideal S128 .f32) (bt2 : FVec Ideal S128 .f32) (m2 : FVec Ideal S128 .f32) (v2 : FVec Ideal S128 .f32) (Wa1 : FVec Ideal S128x128 .f32) (ba1 : FVec Ideal S128 .f32) (ga1 : FVec Ideal S128 .f32) (bta1 : FVec Ideal S128 .f32) (ma1 : FVec Ideal S128 .f32) (va1 : FVec Ideal S128 .f32) (Wa2 : FVec Ideal S128x128 .f32) (ba2 : FVec Ideal S128 .f32) (ga2 : FVec Ideal S128 .f32) (bta2 : FVec Ideal S128 .f32) (ma2 : FVec Ideal S128 .f32) (va2 : FVec Ideal S128 .f32) (Wa3 : FVec Ideal S128x32 .f32) (ba3 : FVec Ideal S32 .f32) (n : Fin 64) (j : Fin 32) :
    val_main_v144 (F := Ideal) x ei ea batch We1 be1 W1 b1 g1 bt1 m1 v1 We2 be2 W2 b2 g2 bt2 m2 v2 Wa1 ba1 ga1 bta1 ma1 va1 Wa2 ba2 ga2 bta2 ma2 va2 Wa3 ba3 (ix2 n j)
      = Ideal.div 1 (1 + Ideal.exp (-((∑ k : Fin 128, (val_main_v134 (F := Ideal) x ei ea batch We1 be1 W1 b1 g1 bt1 m1 v1 We2 be2 W2 b2 g2 bt2 m2 v2 Wa1 ba1 ga1 bta1 ma1 va1 Wa2 ba2 ga2 bta2 ma2 va2) (ix2 n k) * Wa3 (ix2 k j)) + ba3 (ix1 j)))) := by
  rw [val_main_v144_apply, val_main_v143_apply, val_main_cst_14_apply, val_main_v142_apply, val_main_v141_apply, val_main_cst_13_apply,
    val_main_v140_apply, val_main_v139_apply, val_main_v138_apply, val_main_v135_apply, val_main_v137_apply, val_main_v136_apply]
  have i1 : idx_main_v136 (idx_main_v137 (ix2 n j)) = ix1 j := vec_idx _ j rfl
  have il : ∀ k : Fin 128, lidx_main_v135 (ix2 n j) k = ix2 n k := fun k => mat_idx _ n k rfl rfl
  have ir : ∀ k : Fin 128, ridx_main_v135 (ix2 n j) k = ix2 k j := fun k => mat_idx _ k j rfl rfl
  simp only [i1, il, ir]
  simp only [Ideal.hostDivf_def, Ideal.addf_def, Ideal.hostUnary_exp_def, Ideal.hostNegf_def, Ideal.negf_def, Ideal.ofBits_def, one_f32]

/-- A clipped dense layer with the batch-norm folded into its weights, of a real array, is an array whose entries are the
    clipped batch-norm of the plain layer; and that array is real. -/
private theorem layer_eq (z : Arr2 64 128) (hz : ∀ i, IsReal (z i)) (W : FVec Ideal S128x128 .f32) (b g bt mm v : FVec Ideal S128 .f32)
    (hW : ∀ i, IsReal (W i)) (hb : ∀ i, IsReal (b i)) (hg : ∀ i, IsReal (g i)) (hbt : ∀ i, IsReal (bt i))
    (hm : ∀ i, IsReal (mm i)) (hv : ∀ i, IsReal (v i)) (hvnn : ∀ i, 0 ≤ v i) (R : Arr2 64 128)
    (hR : ∀ (n : Fin 64) (j : Fin 128), R (ix2 n j) = max (g (ix1 j) * (((∑ k : Fin 128, z (ix2 n k) * W (ix2 k j)) + b (ix1 j)) - mm (ix1 j))
          * Ideal.rsqrt (v (ix1 j) + Ideal.ofBits .f32 0x3727C5AC#32) + bt (ix1 j)) 0) :
    (fun i => max (dense z (KSpec.foldW W (KSpec.scale g v)) (KSpec.row128 (KSpec.foldB b (KSpec.scale g v) (KSpec.shift bt mm (KSpec.scale g v)))) i) 0) = R ∧ ∀ i, IsReal (R i) := by
  have key : ∀ (n : Fin 64) (j : Fin 128),
      max (dense z (KSpec.foldW W (KSpec.scale g v)) (KSpec.row128 (KSpec.foldB b (KSpec.scale g v) (KSpec.shift bt mm (KSpec.scale g v)))) (ix2 n j)) 0 = R (ix2 n j) ∧ IsReal (R (ix2 n j)) := by
    intro n j
    obtain ⟨e, r⟩ := Cert.Fold.dense_fold z W b g bt mm v hz hW hb hg hbt hm hv hvnn n j
    rw [hR n j, e]
    exact ⟨rfl, isReal_max r isReal_zero⟩
  constructor
  · funext i
    obtain ⟨n, j, rfl⟩ : ∃ n j, i = ix2 n j := ⟨i 0, i 1, eq_ix2 i⟩
    exact (key n j).1
  · intro i
    obtain ⟨n, j, rfl⟩ : ∃ n j, i = ix2 n j := ⟨i 0, i 1, eq_ix2 i⟩
    exact (key n j).2

/-- The count of each graph's nodes is the same scatter-add on both sides. -/
private theorem count_eq (batch : IVec S65536 32) : KSpec.count batch = val_main_v88 (F := Ideal) batch := rfl

/-- The per-graph means are real: each is a real sum divided by a positive count. -/
private theorem pooled_real (x : FVec Ideal S65536x128 .f32) (ei : IVec S2x1048576 32) (ea : FVec Ideal S1048576x32 .f32) (batch : IVec S65536 32) (We1 : FVec Ideal S32x128 .f32) (be1 : FVec Ideal S128 .f32) (W1 : FVec Ideal S128x128 .f32) (b1 : FVec Ideal S128 .f32) (g1 : FVec Ideal S128 .f32) (bt1 : FVec Ideal S128 .f32) (m1 : FVec Ideal S128 .f32) (v1 : FVec Ideal S128 .f32) (We2 : FVec Ideal S32x128 .f32) (be2 : FVec Ideal S128 .f32) (W2 : FVec Ideal S128x128 .f32) (b2 : FVec Ideal S128 .f32) (g2 : FVec Ideal S128 .f32) (bt2 : FVec Ideal S128 .f32) (m2 : FVec Ideal S128 .f32) (v2 : FVec Ideal S128 .f32)
    (hps : ∀ i, IsReal (val_main_v91 (F := Ideal) x ei ea batch We1 be1 W1 b1 g1 bt1 m1 v1 We2 be2 W2 b2 g2 bt2 m2 v2 i)) (hc : ∀ i, 0 < KSpec.count batch i) :
    ∀ i, IsReal (val_main_v94 (F := Ideal) x ei ea batch We1 be1 W1 b1 g1 bt1 m1 v1 We2 be2 W2 b2 g2 bt2 m2 v2 i) := by
  intro i
  have hc' : ∀ i, 0 < val_main_v88 (F := Ideal) batch i := hc
  rw [val_main_v94_apply, val_main_v93_apply, val_main_v92_apply, Ideal.hostDivf_def]
  exact isReal_div (hps i) (ne_of_gt (hc' _))

/-- The head: from per-graph means equal to the reference's and real, the three layers agree. -/
private theorem head_eq (x : FVec Ideal S65536x128 .f32) (ei : IVec S2x1048576 32) (ea : FVec Ideal S1048576x32 .f32) (batch : IVec S65536 32) (We1 : FVec Ideal S32x128 .f32) (be1 : FVec Ideal S128 .f32) (W1 : FVec Ideal S128x128 .f32) (b1 : FVec Ideal S128 .f32) (g1 : FVec Ideal S128 .f32) (bt1 : FVec Ideal S128 .f32) (m1 : FVec Ideal S128 .f32) (v1 : FVec Ideal S128 .f32) (We2 : FVec Ideal S32x128 .f32) (be2 : FVec Ideal S128 .f32) (W2 : FVec Ideal S128x128 .f32) (b2 : FVec Ideal S128 .f32) (g2 : FVec Ideal S128 .f32) (bt2 : FVec Ideal S128 .f32) (m2 : FVec Ideal S128 .f32) (v2 : FVec Ideal S128 .f32) (Wa1 : FVec Ideal S128x128 .f32) (ba1 : FVec Ideal S128 .f32) (ga1 : FVec Ideal S128 .f32) (bta1 : FVec Ideal S128 .f32) (ma1 : FVec Ideal S128 .f32) (va1 : FVec Ideal S128 .f32) (Wa2 : FVec Ideal S128x128 .f32) (ba2 : FVec Ideal S128 .f32) (ga2 : FVec Ideal S128 .f32) (bta2 : FVec Ideal S128 .f32) (ma2 : FVec Ideal S128 .f32) (va2 : FVec Ideal S128 .f32) (Wa3 : FVec Ideal S128x32 .f32) (ba3 : FVec Ideal S32 .f32) (p : FVec Ideal S64x128 .f32)
    (hp : p = val_main_v94 (F := Ideal) x ei ea batch We1 be1 W1 b1 g1 bt1 m1 v1 We2 be2 W2 b2 g2 bt2 m2 v2) (hpr : ∀ i, IsReal (p i))
    (hWa1 : ∀ i, IsReal (Wa1 i)) (hba1 : ∀ i, IsReal (ba1 i)) (hga1 : ∀ i, IsReal (ga1 i)) (hbta1 : ∀ i, IsReal (bta1 i)) (hma1 : ∀ i, IsReal (ma1 i)) (hva1 : ∀ i, IsReal (va1 i)) (hWa2 : ∀ i, IsReal (Wa2 i)) (hba2 : ∀ i, IsReal (ba2 i)) (hga2 : ∀ i, IsReal (ga2 i)) (hbta2 : ∀ i, IsReal (bta2 i)) (hma2 : ∀ i, IsReal (ma2 i)) (hva2 : ∀ i, IsReal (va2 i))
    (hva1nn : ∀ i, 0 ≤ va1 i) (hva2nn : ∀ i, 0 ≤ va2 i) :
    Cert.Spec.head (truncf .bf16 p Facts₀.bitsLt_bf16_f32) (KSpec.foldW Wa1 (KSpec.scale ga1 va1)) (KSpec.row128 (KSpec.foldB ba1 (KSpec.scale ga1 va1) (KSpec.shift bta1 ma1 (KSpec.scale ga1 va1))))
        (KSpec.foldW Wa2 (KSpec.scale ga2 va2)) (KSpec.row128 (KSpec.foldB ba2 (KSpec.scale ga2 va2) (KSpec.shift bta2 ma2 (KSpec.scale ga2 va2))))
        (truncf .bf16 Wa3 Facts₀.bitsLt_bf16_f32) (KSpec.row32 ba3)
      = val_main_v144 (F := Ideal) x ei ea batch We1 be1 W1 b1 g1 bt1 m1 v1 We2 be2 W2 b2 g2 bt2 m2 v2 Wa1 ba1 ga1 bta1 ma1 va1 Wa2 ba2 ga2 bta2 ma2 va2 Wa3 ba3 := by
  -- narrowing the format changes nothing at the extended reals
  have e1 : truncf .bf16 p Facts₀.bitsLt_bf16_f32 = p := rfl
  have e2 : truncf .bf16 Wa3 Facts₀.bitsLt_bf16_f32 = Wa3 := rfl
  rw [e1, e2]
  subst hp
  obtain ⟨h1, h1r⟩ := layer_eq (val_main_v94 (F := Ideal) x ei ea batch We1 be1 W1 b1 g1 bt1 m1 v1 We2 be2 W2 b2 g2 bt2 m2 v2) hpr Wa1 ba1 ga1 bta1 ma1 va1 hWa1 hba1 hga1 hbta1 hma1 hva1 hva1nn
    (val_main_v114 (F := Ideal) x ei ea batch We1 be1 W1 b1 g1 bt1 m1 v1 We2 be2 W2 b2 g2 bt2 m2 v2 Wa1 ba1 ga1 bta1 ma1 va1) (ref_layer1 x ei ea batch We1 be1 W1 b1 g1 bt1 m1 v1 We2 be2 W2 b2 g2 bt2 m2 v2 Wa1 ba1 ga1 bta1 ma1 va1)
  obtain ⟨h2, h2r⟩ := layer_eq (val_main_v114 (F := Ideal) x ei ea batch We1 be1 W1 b1 g1 bt1 m1 v1 We2 be2 W2 b2 g2 bt2 m2 v2 Wa1 ba1 ga1 bta1 ma1 va1) h1r Wa2 ba2 ga2 bta2 ma2 va2 hWa2 hba2 hga2 hbta2 hma2 hva2 hva2nn
    (val_main_v134 (F := Ideal) x ei ea batch We1 be1 W1 b1 g1 bt1 m1 v1 We2 be2 W2 b2 g2 bt2 m2 v2 Wa1 ba1 ga1 bta1 ma1 va1 Wa2 ba2 ga2 bta2 ma2 va2) (ref_layer2 x ei ea batch We1 be1 W1 b1 g1 bt1 m1 v1 We2 be2 W2 b2 g2 bt2 m2 v2 Wa1 ba1 ga1 bta1 ma1 va1 Wa2 ba2 ga2 bta2 ma2 va2)
  funext i
  obtain ⟨n, j, rfl⟩ : ∃ n j, i = ix2 n j := ⟨i 0, i 1, eq_ix2 i⟩
  unfold Cert.Spec.head
  rw [h1, h2, ref_layer3]
  show sigm (dot (val_main_v134 (F := Ideal) x ei ea batch We1 be1 W1 b1 g1 bt1 m1 v1 We2 be2 W2 b2 g2 bt2 m2 v2 Wa1 ba1 ga1 bta1 ma1 va1 Wa2 ba2 ga2 bta2 ma2 va2) Wa3 n j + KSpec.row32 ba3 (ix2 0 j)) = _
  rw [Cert.Fold.row32_apply]
  rfl

end Layers

/-- The kernel's result is the reference's on the domain. -/
theorem out_eq (x : FVec Ideal S65536x128 .f32) (ei : IVec S2x1048576 32) (ea : FVec Ideal S1048576x32 .f32) (batch : IVec S65536 32) (We1 : FVec Ideal S32x128 .f32) (be1 : FVec Ideal S128 .f32) (W1 : FVec Ideal S128x128 .f32) (b1 : FVec Ideal S128 .f32) (g1 : FVec Ideal S128 .f32) (bt1 : FVec Ideal S128 .f32) (m1 : FVec Ideal S128 .f32) (v1 : FVec Ideal S128 .f32) (We2 : FVec Ideal S32x128 .f32) (be2 : FVec Ideal S128 .f32) (W2 : FVec Ideal S128x128 .f32) (b2 : FVec Ideal S128 .f32) (g2 : FVec Ideal S128 .f32) (bt2 : FVec Ideal S128 .f32) (m2 : FVec Ideal S128 .f32) (v2 : FVec Ideal S128 .f32) (Wa1 : FVec Ideal S128x128 .f32) (ba1 : FVec Ideal S128 .f32) (ga1 : FVec Ideal S128 .f32) (bta1 : FVec Ideal S128 .f32) (ma1 : FVec Ideal S128 .f32) (va1 : FVec Ideal S128 .f32) (Wa2 : FVec Ideal S128x128 .f32) (ba2 : FVec Ideal S128 .f32) (ga2 : FVec Ideal S128 .f32) (bta2 : FVec Ideal S128 .f32) (ma2 : FVec Ideal S128 .f32) (va2 : FVec Ideal S128 .f32) (Wa3 : FVec Ideal S128x32 .f32) (ba3 : FVec Ideal S32 .f32)
    (hd : Dom x ei ea batch We1 be1 W1 b1 g1 bt1 m1 v1 We2 be2 W2 b2 g2 bt2 m2 v2 Wa1 ba1 ga1 bta1 ma1 va1 Wa2 ba2 ga2 bta2 ma2 va2 Wa3 ba3) :
    KSpec.out x ei ea batch We1 be1 W1 b1 g1 bt1 m1 v1 We2 be2 W2 b2 g2 bt2 m2 v2 Wa1 ba1 ga1 bta1 ma1 va1 Wa2 ba2 ga2 bta2 ma2 va2 Wa3 ba3 = Cert.ReferenceIdeal.Read.val_main_v144 (F := Ideal) x ei ea batch We1 be1 W1 b1 g1 bt1 m1 v1 We2 be2 W2 b2 g2 bt2 m2 v2 Wa1 ba1 ga1 bta1 ma1 va1 Wa2 ba2 ga2 bta2 ma2 va2 Wa3 ba3 := by
  obtain ⟨hh, hhr⟩ := Cert.Bridge1.hidden_eq x ei ea We1 be1 W1 b1 g1 bt1 m1 v1 hd.x_real hd.ea_real hd.We1_real hd.be1_real
    hd.W1_real hd.b1_real hd.g1_real hd.bt1_real hd.m1_real hd.v1_real hd.v1_nonneg
  obtain ⟨hp, hpr⟩ := Cert.Bridge2.pooledSum_eq x ei ea batch We1 be1 W1 b1 g1 bt1 m1 v1 We2 be2 W2 b2 g2 bt2 m2 v2
    (KSpec.hidden x ei ea We1 be1 W1 b1 g1 bt1 m1 v1) hh hhr hd.ea_real hd.We2_real hd.be2_real hd.W2_real hd.b2_real hd.g2_real
    hd.bt2_real hd.m2_real hd.v2_real hd.v2_nonneg
  -- the per-graph means: the same quotient of equal sums by the same counts
  have hpool : KSpec.pooled (KSpec.pooledSum (KSpec.hidden x ei ea We1 be1 W1 b1 g1 bt1 m1 v1) ei ea batch We2 be2 W2 b2 g2 bt2 m2 v2) batch
      = Cert.ReferenceIdeal.Read.val_main_v94 (F := Ideal) x ei ea batch We1 be1 W1 b1 g1 bt1 m1 v1 We2 be2 W2 b2 g2 bt2 m2 v2 := by
    unfold KSpec.pooled
    rw [hp]
    rfl
  have hpoolr : ∀ i, IsReal (KSpec.pooled (KSpec.pooledSum (KSpec.hidden x ei ea We1 be1 W1 b1 g1 bt1 m1 v1) ei ea batch We2 be2 W2 b2 g2 bt2 m2 v2) batch i) := by
    rw [hpool]
    exact pooled_real x ei ea batch We1 be1 W1 b1 g1 bt1 m1 v1 We2 be2 W2 b2 g2 bt2 m2 v2 (fun i => by rw [← hp]; exact hpr i) hd.count_pos
  unfold KSpec.out
  exact head_eq x ei ea batch We1 be1 W1 b1 g1 bt1 m1 v1 We2 be2 W2 b2 g2 bt2 m2 v2 Wa1 ba1 ga1 bta1 ma1 va1 Wa2 ba2 ga2 bta2 ma2 va2 Wa3 ba3 (KSpec.pooled (KSpec.pooledSum (KSpec.hidden x ei ea We1 be1 W1 b1 g1 bt1 m1 v1) ei ea batch We2 be2 W2 b2 g2 bt2 m2 v2) batch) hpool hpoolr
    hd.Wa1_real hd.ba1_real hd.ga1_real hd.bta1_real hd.ma1_real hd.va1_real hd.Wa2_real hd.ba2_real hd.ga2_real hd.bta2_real
    hd.ma2_real hd.va2_real hd.va1_nonneg hd.va2_nonneg

end Cert.Bridge

end
-- ==== Proof.lean ====
/-
  The certificate of a two-layer edge-conditioned graph convolution with a per-graph mean pool and a three-layer head,
  tiled into five kernel stages, against its plain reference, over the extended reals.

  The kernel folds each evaluation-mode batch-norm into the linear layer before it: with scale = g / sqrt (v + eps) and
  shift = bt − m · scale it multiplies the weights' columns by the scale and replaces the bias by b · scale + shift; the
  reference applies g · (z·W + b − m) / sqrt (v + eps) + bt. The two are one function wherever every quantity is a real
  number — distributing the scale over the row-by-column sum needs that — which holds for finite inputs once each running
  variance is nonnegative (so that 1 / sqrt (v + eps) is a positive real) and every intermediate stays real: gathers copy
  entries, scatter-adds and dense layers add finitely many products, clips and the logistic function keep reals real, and
  the per-graph mean divides by the graph's node count, nonzero when no graph is empty. The kernel's pooled sums are, per
  half of the node range, one-hot weighted sums accumulated tile by tile; added over the two halves they are the host's
  scatter-add of the rows into their graphs' rows. Everything else — the edge messages, the gathers, the scatter-adds,
  the last linear layer and the squashes — is the same operation on both sides.

  The frames are the generated ones; the kernel's run is read through the buffer contents at each boundary of @main
  (`KValue.value`), the reference's through its generated run and stage functions, and `Bridge.out_eq` joins them on the
  domain the precondition gives (`PreFacts.dom_of_pre`).
-/
import proofs.«427628_j74397423501380_3_alg».proof.Defs
import proofs.«427628_j74397423501380_3_alg».proof.Proof.Gen.Kernel
import proofs.«427628_j74397423501380_3_alg».proof.Proof.Gen.Kernel.Frame
import proofs.«427628_j74397423501380_3_alg».proof.Proof.Gen.KernelIdeal
import proofs.«427628_j74397423501380_3_alg».proof.Proof.Gen.KernelIdeal.Frame
import proofs.«427628_j74397423501380_3_alg».proof.Proof.Gen.ReferenceIdeal
import proofs.«427628_j74397423501380_3_alg».proof.Proof.Gen.ReferenceIdeal.Run
import proofs.«427628_j74397423501380_3_alg».proof.Proof.Gen.ReferenceIdeal.Read
import proofs.«427628_j74397423501380_3_alg».proof.Proof.Gen.Pre_finite_inputs
import proofs.«427628_j74397423501380_3_alg».proof.Proof.KernelRun
import proofs.«427628_j74397423501380_3_alg».proof.Proof.KValue
import proofs.«427628_j74397423501380_3_alg».proof.Proof.PreFacts
import proofs.«427628_j74397423501380_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the kernel's function of the launch arrays: the kernel by its run and the boundary contents, the
    reference by its run, the agreement of the arguments, and the bridge on the domain. -/
theorem algebraic : Cert.algebraic_KernelIdeal_ReferenceIdeal := by
  intro m ρ m' ρ' hpre hagree
  refine ⟨fun c => Cert.KernelIdeal.KSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)), ?_, ?_⟩
  · exact (θ_run Cert.KernelIdeal.defs _ _).mono
      (fun r h c => ⟨((h c).1).trans (Cert.KernelIdeal.KValue.value m ρ c), (h c).2⟩)
      (Cert.KernelIdeal.KRun.run (F := Ideal) m ρ)
  · refine (θ_run Cert.ReferenceIdeal.defs _ _).mono (fun r h c => ⟨?_, (h c).2⟩)
      (Cert.ReferenceIdeal.Value.run (F := Ideal) m' ρ')
    have hd := Cert.KernelIdeal.PreFacts.dom_of_pre _ _ _ _ _ _ _ _ _ _ _ _ _ _ _ _ _ _ _ _ _ _ _ _ _ _ _ _ _ _ _ _ _ _ (hpre c)
    obtain ⟨e0, e1, e2, e3, e4, e5, e6, e7, e8, e9, e10, e11, e12, e13, e14, e15, e16, e17, e18, e19, e20, e21, e22, e23, e24, e25, e26, e27, e28, e29, e30, e31, e32, e33⟩ := hagree c
    rw [(h c).1, Cert.ReferenceIdeal.Read.val_main_v144_eq, e0, e1, e2, e3, e4, e5, e6, e7, e8, e9, e10, e11, e12, e13, e14, e15, e16, e17, e18, e19, e20, e21, e22, e23, e24, e25, e26, e27, e28, e29, e30, e31, e32, e33]
    exact (Cert.Bridge.out_eq _ _ _ _ _ _ _ _ _ _ _ _ _ _ _ _ _ _ _ _ _ _ _ _ _ _ _ _ _ _ _ _ _ _ hd).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
